-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x4096 : Shape := ⟨3, ![4, 1024, 4096]⟩
abbrev S512x11008 : Shape := ⟨2, ![512, 11008]⟩
abbrev S32x1376 : Shape := ⟨2, ![32, 1376]⟩
abbrev S32x11008 : Shape := ⟨2, ![32, 11008]⟩
abbrev S_ : Shape := ⟨0, ![]⟩

class Facts : Prop where
  bcast_S_S4x1024x4096 : S_.BroadcastsInDim S4x1024x4096 (![] : Fin 0 → Fin S4x1024x4096.rank)
  reducesTo_S4x1024x4096_S_d0_1_2 : S4x1024x4096.ReducesTo [0, 1, 2] S_
  h_S_ : 0 < S_.numel
  bcast_S_S32x11008 : S_.BroadcastsInDim S32x11008 (![] : Fin 0 → Fin S32x11008.rank)
  reducesTo_S32x11008_S_d0_1 : S32x11008.ReducesTo [0, 1] S_

variable [Facts]

def fn {F : FTy → Type} [FloatOps F] (main_arg0 : FVec F S4x1024x4096 .f32) (main_arg1 : IVec S512x11008 32) (main_arg2 : IVec S32x1376 32) (main_arg3 : FVec F S32x11008 .f32) : IVec S_ 1 :=
  let main_v0 : FVec F S4x1024x4096 .f32 := Host.absf main_arg0
  let main_cst : FVec F S_ .f32 := constant S_ .f32 0x7F800000#32
  let main_v1 : FVec F S4x1024x4096 .f32 := broadcastInDim S4x1024x4096 ![] bcast_S_S4x1024x4096 main_cst
  let main_v2 : IVec S4x1024x4096 1 := cmpf .olt main_v0 main_v1
  let main_c : IVec S_ 1 := constantI S_ 1 1#1
  let main_v3 : IVec S_ 1 := (fun x v => Host.reduce IntOp.andi x v reducesTo_S4x1024x4096_S_d0_1_2 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  main_v8
-- ==== Kernel.lean ====
abbrev S4x1024x4096 : Shape := ⟨3, ![4, 1024, 4096]⟩
abbrev S512x11008 : Shape := ⟨2, ![512, 11008]⟩
abbrev S32x1376 : Shape := ⟨2, ![32, 1376]⟩
abbrev S32x11008 : Shape := ⟨2, ![32, 11008]⟩
abbrev S8 : Shape := ⟨1, ![8]⟩
abbrev S_ : Shape := ⟨0, ![]⟩
abbrev S32x1376x1 : Shape := ⟨3, ![32, 1376, 1]⟩
abbrev S1x1x8 : Shape := ⟨3, ![1, 1, 8]⟩
abbrev S32x1376x8 : Shape := ⟨3, ![32, 1376, 8]⟩
abbrev S512x11264 : Shape := ⟨2, ![512, 11264]⟩
abbrev S32x11264 : Shape := ⟨2, ![32, 11264]⟩
abbrev S4096x4096 : Shape := ⟨2, ![4096, 4096]⟩
abbrev S4096x11264 : Shape := ⟨2, ![4096, 11264]⟩
abbrev S512x256 : Shape := ⟨2, ![512, 256]⟩
abbrev S32x1024 : Shape := ⟨2, ![32, 1024]⟩
abbrev S512x1024 : Shape := ⟨2, ![512, 1024]⟩
abbrev S4096x1024 : Shape := ⟨2, ![4096, 1024]⟩
abbrev S16x8x1024 : Shape := ⟨3, ![16, 8, 1024]⟩
abbrev S16x1024 : Shape := ⟨2, ![16, 1024]⟩
abbrev S16x1x1024 : Shape := ⟨3, ![16, 1, 1024]⟩
abbrev S128x1024 : Shape := ⟨2, ![128, 1024]⟩
abbrev S1x1024 : Shape := ⟨2, ![1, 1024]⟩
abbrev S1024 : Shape := ⟨1, ![1024]⟩
abbrev S256x1024 : Shape := ⟨2, ![256, 1024]⟩
abbrev S4096x11008 : Shape := ⟨2, ![4096, 11008]⟩
abbrev S4x1024x11008 : Shape := ⟨3, ![4, 1024, 11008]⟩

abbrev nBuf : Space → Nat
  | .hbm => 31
  | .vmem => 12
  | .smem => 0
  | _ => 0

abbrev bufTy : (tb : Table) → Fin (tcTables nBuf tb) → BufTy
  | .hbm, ⟨0, _⟩ => ⟨S4x1024x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S32x1376x1, .i32⟩
  | .hbm, ⟨9, _⟩ => ⟨S1x1x8, .i32⟩
  | .hbm, ⟨10, _⟩ => ⟨S32x1376x8, .i32⟩
  | .hbm, ⟨11, _⟩ => ⟨S32x1376x8, .i32⟩
  | .hbm, ⟨12, _⟩ => ⟨S32x1376x8, .i32⟩
  | .hbm, ⟨13, _⟩ => ⟨S_, .i32⟩
  | .hbm, ⟨14, _⟩ => ⟨S32x1376x8, .i32⟩
  | .hbm, ⟨15, _⟩ => ⟨S32x1376x8, .i32⟩
  | .hbm, ⟨16, _⟩ => ⟨S32x11008, .i32⟩
  | .hbm, ⟨17, _⟩ => ⟨S_, .i32⟩
  | .hbm, ⟨18, _⟩ => ⟨S_, .i32⟩
  | .hbm, ⟨19, _⟩ => ⟨S512x11264, .i32⟩
  | .hbm, ⟨20, _⟩ => ⟨S_, .i32⟩
  | .hbm, ⟨21, _⟩ => ⟨S_, .i32⟩
  | .hbm, ⟨22, _⟩ => ⟨S32x11264, .i32⟩
  | .hbm, ⟨23, _⟩ => ⟨S_, .i32⟩
  | .hbm, ⟨24, _⟩ => ⟨S_, .f32⟩
  | .hbm, ⟨25, _⟩ => ⟨S32x11264, .f32⟩
  | .hbm, ⟨26, _⟩ => ⟨S4096x4096, .f32⟩
  | .hbm, ⟨27, _⟩ => ⟨S4096x4096, .bf16⟩
  | .hbm, ⟨28, _⟩ => ⟨S4096x11264, .f32⟩
  | .hbm, ⟨29, _⟩ => ⟨S4096x11008, .f32⟩
  | .hbm, ⟨30, _⟩ => ⟨S4x1024x11008, .f32⟩
  | .local _ .vmem, ⟨0, _⟩ => ⟨S512x256, .bf16⟩
  | .local _ .vmem, ⟨1, _⟩ => ⟨S512x256, .bf16⟩
  | .local _ .vmem, ⟨2, _⟩ => ⟨S32x1024, .i32⟩
  | .local _ .vmem, ⟨3, _⟩ => ⟨S32x1024, .i32⟩
  | .local _ .vmem, ⟨4, _⟩ => ⟨S32x1024, .i32⟩
  | .local _ .vmem, ⟨5, _⟩ => ⟨S32x1024, .i32⟩
  | .local _ .vmem, ⟨6, _⟩ => ⟨S32x1024, .f32⟩
  | .local _ .vmem, ⟨7, _⟩ => ⟨S32x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S4096x1024, .bf16⟩
  | _, _ => ⟨S4x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_call0_v0 : Ref sig .tc := ⟨.hbm, 18, rfl⟩
abbrev main_v11 : Ref sig .tc := ⟨.hbm, 19, rfl⟩
abbrev main_c_2 : Ref sig .tc := ⟨.hbm, 20, rfl⟩
abbrev main_call1_v0 : Ref sig .tc := ⟨.hbm, 21, rfl⟩
abbrev main_v12 : Ref sig .tc := ⟨.hbm, 22, rfl⟩
abbrev main_c_3 : Ref sig .tc := ⟨.hbm, 23, rfl⟩
abbrev main_call2_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![11, 8, 16], ![false, false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_mult1 : BitVec 32 :=
  let c0_i32_10 : BitVec 32 := 0#32
  c0_i32_10
def k0_off1 (i : grid0.Coords) (c0_i32_13 : BitVec 32) : Fin 2 → Nat :=
  let arg2 : BitVec 32 := BitVec.ofNat 32 (i 2).val
  let c2_i32 : BitVec 32 := 2#32
  let v35 : BitVec 32 := Scalar.muli arg2 c2_i32
  let v36 : BitVec 32 := Scalar.addi v35 c0_i32_13
  let v37 : Index := Scalar.indexCast v36
  let c0_14 : Index := 0#32
  ![v37.toNat, 0]
def k0_mult2 (i : grid0.Coords) : BitVec 32 :=
  let arg2 : BitVec 32 := BitVec.ofNat 32 (i 2).val
  let c256_i32_16 : BitVec 32 := 256#32
  let v50 : BitVec 32 := Scalar.muli arg2 c256_i32_16
  let c0_i32_17 : BitVec 32 := 0#32
  let v51 : BitVec 32 := Scalar.addi v50 c0_i32_17
  v51
def k0_off2 (i : grid0.Coords) (c0_i32_17 : BitVec 32) : Fin 2 → Nat :=
  let arg2 : BitVec 32 := BitVec.ofNat 32 (i 2).val
  let c256_i32_16 : BitVec 32 := 256#32
  let v50 : BitVec 32 := Scalar.muli arg2 c256_i32_16
  let v51 : BitVec 32 := Scalar.addi v50 c0_i32_17
  let v52 : BitVec 32 := v51
  let v54 : Index := Scalar.indexCast v52
  let c0_18 : Index := 0#32
  ![v54.toNat, 0]
def k0_mult3 : BitVec 32 :=
  let c16_i32 : BitVec 32 := 16#32
  c16_i32
def k0_mult4 (i : grid0.Coords) : BitVec 32 :=
  let arg2 : BitVec 32 := BitVec.ofNat 32 (i 2).val
  let c256_i32_24 : BitVec 32 := 256#32
  let v84 : BitVec 32 := Scalar.muli arg2 c256_i32_24
  let c128_i32 : BitVec 32 := 128#32
  let v85 : BitVec 32 := Scalar.addi v84 c128_i32
  v85
def k0_mult5 (i : grid0.Coords) : BitVec 32 :=
  let arg2 : BitVec 32 := BitVec.ofNat 32 (i 2).val
  let c256_i32 : BitVec 32 := 256#32
  let v6 : BitVec 32 := Scalar.muli arg2 c256_i32
  v6
def k0_off3 (i : grid0.Coords) : Fin 2 → Nat :=
  let arg2 : BitVec 32 := BitVec.ofNat 32 (i 2).val
  let c256_i32 : BitVec 32 := 256#32
  let v6 : BitVec 32 := Scalar.muli arg2 c256_i32
  let v7 : BitVec 32 := v6
  let v8 : Index := Scalar.indexCast v7
  let c0 : Index := 0#32
  ![v8.toNat, 0]
def k0_cond3 (i : grid0.Coords) : BitVec 1 :=
  let arg2 : BitVec 32 := BitVec.ofNat 32 (i 2).val
  let c15_i32 : BitVec 32 := 15#32
  let v18 : BitVec 1 := Scalar.cmpi .eq arg2 c15_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S32x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S32x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S_S8 : S_.BroadcastsInDim S8 (![] : Fin 0 → Fin S8.rank)
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  pads_S512x11008_S512x11264_000_02560 : S512x11008.Pads (![0, 0] : Fin 2 → Nat) ![0, 256] ![0, 0] S512x11264
  h_S_ : 0 < S_.numel
  pads_S32x11008_S32x11264_000_02560 : S32x11008.Pads (![0, 0] : Fin 2 → Nat) ![0, 256] ![0, 0] S32x11264
  shapeCasts_S4x1024x4096_S4096x4096 : S4x1024x4096.ShapeCasts S4096x4096
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  iota_S16x8x1024_d1_w32 : S16x8x1024.Iotas .tc 32 [1]
  inb_S32x1024_S16x1024_0_0 : ∀ a, (![0, 0] : Fin 2 → Nat) a + S16x1024.size a ≤ S32x1024.size a
  h_S16x1024 : 0 < S16x1024.numel
  shapeCasts_S16x1024_S16x1024 : S16x1024.ShapeCasts S16x1024
  shapeCasts_S16x1024_S16x1x1024 : S16x1024.ShapeCasts S16x1x1024
  broadcasts_S16x1x1024_S16x8x1024 : S16x1x1024.Broadcasts S16x8x1024
  shapeCasts_S16x8x1024_S128x1024 : S16x8x1024.ShapeCasts S128x1024
  h_S1x1024 : 0 < S1x1024.numel
  shapeCasts_S1x1024_S1024 : S1x1024.ShapeCasts S1024
  shapeCasts_S1024_S1x1024 : S1024.ShapeCasts S1x1024
  broadcasts_S1x1024_S128x1024 : S1x1024.Broadcasts S128x1024
  h_S128x1024 : 0 < S128x1024.numel
  shapeCasts_S128x1024_S128x1024 : S128x1024.ShapeCasts S128x1024
  inb_S32x1024_S16x1024_16_0 : ∀ a, (![16, 0] : Fin 2 → Nat) a + S16x1024.size a ≤ S32x1024.size a
  h_S256x1024 : 0 < S256x1024.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  slices_S4096x11264_S4096x11008_0_0 : S4096x11264.Slices ![0, 0] S4096x11008
  shapeCasts_S4096x11008_S4x1024x11008 : S4096x11008.ShapeCasts S4x1024x11008
  dot_S512x256_S256x1024_S512x1024_1_0_0_1_n_n_wf : DotDims.WF S512x256 S256x1024 S512x1024 [1] [0] [0] [1] [] []
  hrank0 : 0 < grid0.rank
  k0_mult1_dvd : ∀ i : grid0.Coords, ∀ (k0_h2 : k0_cond2 i = 1#1), 16 ∣ k0_mult1.toNat
  k0_off1_inb : ∀ i : grid0.Coords, ∀ (k0_h2 : k0_cond2 i = 1#1), ∀ (r : Fin 2), ∀ a, (k0_off1 i (BitVec.ofNat 32 r.val)) a + S1x1024.size a ≤ S32x1024.size a
  k0_mult2_dvd : ∀ i : grid0.Coords, ∀ (k0_h2 : k0_cond2 i = 1#1), 128 ∣ (k0_mult2 i).toNat
  k0_off2_inb : ∀ i : grid0.Coords, ∀ (k0_h2 : k0_cond2 i = 1#1), ∀ (r : Fin 2), ∀ a, (k0_off2 i (BitVec.ofNat 32 (128 * r.val))) a + S128x1024.size a ≤ S4096x1024.size a
  k0_off2_packedbf16 : ∀ i : grid0.Coords, ∀ (k0_h2 : k0_cond2 i = 1#1), ∀ (r : Fin 2), (Rect.unit (s := S4096x1024) (k0_off2 i (BitVec.ofNat 32 (128 * r.val))) S128x1024.size (k0_off2_inb i k0_h2 r)).PackedRows (EltTy.packing .bf16)
  k0_mult3_dvd : ∀ i : grid0.Coords, ∀ (k0_h2 : k0_cond2 i = 1#1), 16 ∣ k0_mult3.toNat
  k0_mult4_dvd : ∀ i : grid0.Coords, ∀ (k0_h2 : k0_cond2 i = 1#1), 128 ∣ (k0_mult4 i).toNat
  k0_mult5_dvd : ∀ i : grid0.Coords, 256 ∣ (k0_mult5 i).toNat
  k0_off3_inb : ∀ i : grid0.Coords, ∀ a, (k0_off3 i) a + S256x1024.size a ≤ S4096x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x4096.size a
  hwx0_0 : ∀ i : grid0.Coords, EltTy.bits .bf16 = 32 ∨ (Rect.block (s := S4096x4096) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1024.size a ≤ S512x11264.size a
  hwx0_1 : ∀ i : grid0.Coords, EltTy.bits .i32 = 32 ∨ (Rect.block (s := S512x11264) S32x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1024.size a ≤ S32x11264.size a
  hwx0_2 : ∀ i : grid0.Coords, EltTy.bits .i32 = 32 ∨ (Rect.block (s := S32x11264) S32x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1024.size a ≤ S32x11264.size a
  hwx0_3 : ∀ i : grid0.Coords, EltTy.bits .f32 = 32 ∨ (Rect.block (s := S32x11264) S32x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x11264.size a
  hwx0_4 : ∀ i : grid0.Coords, EltTy.bits .f32 = 32 ∨ (Rect.block (s := S4096x11264) S512x1024.size (cc0_transform_4 i) (hinb0_4 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_v15) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S32x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S32x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S32x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S4x1024x4096 : Shape := ⟨3, ![4, 1024, 4096]⟩
abbrev S512x11008 : Shape := ⟨2, ![512, 11008]⟩
abbrev S32x1376 : Shape := ⟨2, ![32, 1376]⟩
abbrev S32x11008 : Shape := ⟨2, ![32, 11008]⟩
abbrev S8 : Shape := ⟨1, ![8]⟩
abbrev S_ : Shape := ⟨0, ![]⟩
abbrev S512x1x11008 : Shape := ⟨3, ![512, 1, 11008]⟩
abbrev S1x8x1 : Shape := ⟨3, ![1, 8, 1]⟩
abbrev S512x8x11008 : Shape := ⟨3, ![512, 8, 11008]⟩
abbrev S4096x11008 : Shape := ⟨2, ![4096, 11008]⟩
abbrev S32x1376x1 : Shape := ⟨3, ![32, 1376, 1]⟩
abbrev S1x1x8 : Shape := ⟨3, ![1, 1, 8]⟩
abbrev S32x1376x8 : Shape := ⟨3, ![32, 1376, 8]⟩
abbrev S4096 : Shape := ⟨1, ![4096]⟩
abbrev S4096x1 : Shape := ⟨2, ![4096, 1]⟩
abbrev S4x1024x11008 : Shape := ⟨3, ![4, 1024, 11008]⟩

abbrev nBuf : Space → Nat
  | .hbm => 72
  | .vmem => 0
  | .smem => 0
  | _ => 0

abbrev bufTy : (tb : Table) → Fin (tcTables nBuf tb) → BufTy
  | .hbm, ⟨0, _⟩ => ⟨S4x1024x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S512x1x11008, .i32⟩
  | .hbm, ⟨9, _⟩ => ⟨S1x8x1, .i32⟩
  | .hbm, ⟨10, _⟩ => ⟨S512x8x11008, .i32⟩
  | .hbm, ⟨11, _⟩ => ⟨S512x8x11008, .i32⟩
  | .hbm, ⟨12, _⟩ => ⟨S512x8x11008, .i32⟩
  | .hbm, ⟨13, _⟩ => ⟨S_, .i32⟩
  | .hbm, ⟨14, _⟩ => ⟨S512x8x11008, .i32⟩
  | .hbm, ⟨15, _⟩ => ⟨S512x8x11008, .i32⟩
  | .hbm, ⟨16, _⟩ => ⟨S4096x11008, .i32⟩
  | .hbm, ⟨17, _⟩ => ⟨S4096x11008, .f32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S32x1376x1, .i32⟩
  | .hbm, ⟨23, _⟩ => ⟨S1x1x8, .i32⟩
  | .hbm, ⟨24, _⟩ => ⟨S32x1376x8, .i32⟩
  | .hbm, ⟨25, _⟩ => ⟨S32x1376x8, .i32⟩
  | .hbm, ⟨26, _⟩ => ⟨S32x1376x8, .i32⟩
  | .hbm, ⟨27, _⟩ => ⟨S_, .i32⟩
  | .hbm, ⟨28, _⟩ => ⟨S32x1376x8, .i32⟩
  | .hbm, ⟨29, _⟩ => ⟨S32x1376x8, .i32⟩
  | .hbm, ⟨30, _⟩ => ⟨S32x11008, .i32⟩
  | .hbm, ⟨31, _⟩ => ⟨S32x11008, .f32⟩
  | .hbm, ⟨32, _⟩ => ⟨S4096, .i32⟩
  | .hbm, ⟨33, _⟩ => ⟨S_, .i32⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S_, .i32⟩
  | .hbm, ⟨52, _⟩ => ⟨S4096, .i32⟩
  | .hbm, ⟨53, _⟩ => ⟨S4096, .i1⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S4096x1, .i32⟩
  | .hbm, ⟨59, _⟩ => ⟨S4096x11008, .f32⟩
  | .hbm, ⟨60, _⟩ => ⟨S4096x11008, .f32⟩
  | .hbm, ⟨61, _⟩ => ⟨S_, .i32⟩
  | .hbm, ⟨62, _⟩ => ⟨S4096, .i32⟩
  | .hbm, ⟨63, _⟩ => ⟨S4096, .i1⟩
  | .hbm, ⟨64, _⟩ => ⟨S_, .i32⟩
  | .hbm, ⟨65, _⟩ => ⟨S4096, .i32⟩
  | .hbm, ⟨66, _⟩ => ⟨S4096, .i32⟩
  | .hbm, ⟨67, _⟩ => ⟨S4096, .i32⟩
  | .hbm, ⟨68, _⟩ => ⟨S4096x1, .i32⟩
  | .hbm, ⟨69, _⟩ => ⟨S4096x11008, .f32⟩
  | .hbm, ⟨70, _⟩ => ⟨S4096x11008, .f32⟩
  | .hbm, ⟨71, _⟩ => ⟨S4x1024x11008, .f32⟩
  | _, _ => ⟨S4x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v25 : Ref sig .tc := ⟨.hbm, 50, rfl⟩
abbrev main_c_4 : Ref sig .tc := ⟨.hbm, 51, rfl⟩
abbrev main_v26 : Ref sig .tc := ⟨.hbm, 52, rfl⟩
abbrev main_v27 : Ref sig .tc := ⟨.hbm, 53, rfl⟩
abbrev main_c_5 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_6 : Ref sig .tc := ⟨.hbm, 61, rfl⟩
abbrev main_v34 : Ref sig .tc := ⟨.hbm, 62, rfl⟩
abbrev main_v35 : Ref sig .tc := ⟨.hbm, 63, rfl⟩
abbrev main_c_7 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x11008_S512x1x11008_0_2 : S512x11008.BroadcastsInDim S512x1x11008 (![0, 2] : Fin 2 → Fin S512x1x11008.rank)
  bcast_S8_S1x8x1_1 : S8.BroadcastsInDim S1x8x1 (![1] : Fin 1 → Fin S1x8x1.rank)
  bcast_S512x1x11008_S512x8x11008_0_1_2 : S512x1x11008.BroadcastsInDim S512x8x11008 (![0, 1, 2] : Fin 3 → Fin S512x8x11008.rank)
  bcast_S1x8x1_S512x8x11008_0_1_2 : S1x8x1.BroadcastsInDim S512x8x11008 (![0, 1, 2] : Fin 3 → Fin S512x8x11008.rank)
  bcast_S_S512x8x11008 : S_.BroadcastsInDim S512x8x11008 (![] : Fin 0 → Fin S512x8x11008.rank)
  shapeCasts_S512x8x11008_S4096x11008 : S512x8x11008.ShapeCasts S4096x11008
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S_S4096 : S_.BroadcastsInDim S4096 (![] : Fin 0 → Fin S4096.rank)
  bcast_S4096_S4096x1_0 : S4096.BroadcastsInDim S4096x1 (![0] : Fin 1 → Fin S4096x1.rank)
  gather_S32x11008_S4096x1_S4096x11008_1_0_n_n_0_1_111008_wf : GatherDims.WF S32x11008 S4096x1 S4096x11008 [1] [0] [] [0] [] 1 ![1, 11008]
  dot_S4x1024x4096_S4096x11008_S4x1024x11008_2_0_01_1_n_n_wf : DotDims.WF S4x1024x4096 S4096x11008 S4x1024x11008 [2] [0] [0, 1] [1] [] []

variable [Facts₀]

def gather_S32x11008_S4096x1_S4096x11008_1_0_n_n_0_1_111008 : GatherDims S32x11008 S4096x1 S4096x11008 where
  offsetDims := [1]
  collapsedSliceDims := [0]
  operandBatchingDims := []
  startIndicesBatchingDims := []
  startIndexMap := [0]
  indexVectorDim := 1
  sliceSizes := ![1, 11008]
  wf := gather_S32x11008_S4096x1_S4096x11008_1_0_n_n_0_1_111008_wf
def dot_S4x1024x4096_S4096x11008_S4x1024x11008_2_0_01_1_n_n : DotDims S4x1024x4096 S4096x11008 S4x1024x11008 where
  lhsContracting := [2]
  rhsContracting := [0]
  lhsNonContracting := [0, 1]
  rhsNonContracting := [1]
  lhsBatch := []
  rhsBatch := []
  wf := dot_S4x1024x4096_S4096x11008_S4x1024x11008_2_0_01_1_n_n_wf

class Facts : Prop extends Facts₀ where

variable [Facts]
-- ==== Proof.KBodyBits.lean ====
/-
  The kernel body at a symbolic grid point (j, i, k), by kind of point.

  At the point the body (1) zeroes the f32 accumulator scratch if k = 0; (2) if i = 0, dequantizes the two
  128-row groups of the weight block into rows [256k, 256k+256) of the resident bf16 slab scratch;
  (3) adds x's block times those 256 slab rows to the accumulator; (4) if k = 15 copies the accumulator
  to the output's staging buffer. Each run below is stated over the buffers' contents as functions of
  their indices: the accumulator at `a`, the slab at `S`, the inputs' staging buffers at their blocks.
-/
import proofs.«419571_j47639777247662_3_alg».proof.Proof.Gen.Kernel
import proofs.«419571_j47639777247662_3_alg».proof.Proof.Gen.Kernel.Skeleton
import proofs.«419571_j47639777247662_3_alg».proof.Proof.Gen.Kernel.Launch
import Idealize.ShloMosaic.Lib.Writes
import Idealize.ShloMosaic.Lib.Pipeline.FrameBody
import Idealize.ShloMosaic.Lib.Tactic

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The accumulator and the slab, the kernel's two scratch buffers, whole. -/
abbrev accM : Memref sig .tc .vmem S512x1024 .f32 := Memref.whole cc0_scratch0
abbrev slabM : Memref sig .tc .vmem S4096x1024 .bf16 := Memref.whole cc0_scratch1

/-- The branch conditions at point `t`: "k = 0" as the body computes it, "i = 0" and "k = 15" as printed. -/
abbrev IsK0 (t : Fin cfg0.N) : Prop := Scalar.cmpi .ne (Scalar.extui (Scalar.cmpi .eq (BitVec.ofNat 32 ((grid0.coords t) 2).val) 0#32)) 0#32 = 1#1
abbrev IsI0 (t : Fin cfg0.N) : Prop := k0_cond2 (grid0.coords t) = 1#1
abbrev IsKL (t : Fin cfg0.N) : Prop := k0_cond3 (grid0.coords t) = 1#1

section Runs

variable (c : Dev nD) (t : Fin cfg0.N)
  (M0 : Memref sig .tc .vmem S512x256 .bf16) (h0 : M0.IsWhole) (M1 : Memref sig .tc .vmem S32x1024 .i32) (h1 : M1.IsWhole)
  (M2 : Memref sig .tc .vmem S32x1024 .i32) (h2 : M2.IsWhole) (M3 : Memref sig .tc .vmem S32x1024 .f32) (h3 : M3.IsWhole)
  (M4 : Memref sig .tc .vmem S512x1024 .f32) (h4 : M4.IsWhole)
  (x0 : Vec F S512x256 .bf16) (q0 : Vec F S32x1024 .i32) (z0 : Vec F S32x1024 .i32) (s0 : Vec F S32x1024 .f32)
  (a : Vec F S512x1024 .f32) (S : Vec F S4096x1024 .bf16)

local notation "BODY" => cc0__kernel (grid0.coords t) M0 h0 M1 h1 M2 h2 M3 h3 M4 h4 (Memref.whole cc0_scratch0) (Memref.isWhole_whole _) (Memref.whole cc0_scratch1) (Memref.isWhole_whole _)

/-! ## The rectangles the body reads and writes through -/

/-- The whole accumulator block (and the whole output block): 512 × 1024 at zero offsets. -/
abbrev rA : Rect S512x1024 := Rect.unit (s := S512x1024) ![0, 0] S512x1024.size inb_S512x1024_S512x1024_0_0
/-- x's whole staged block: 512 × 256. -/
abbrev rX : Rect S512x256 := Rect.unit (s := S512x256) ![0, 0] S512x256.size inb_S512x256_S512x256_0_0
/-- The packed weight block's two halves: rows 0–15 and 16–31 (one 128-row group each). -/
abbrev rQ0 : Rect S32x1024 := Rect.unit (s := S32x1024) ![0, 0] S16x1024.size inb_S32x1024_S16x1024_0_0
abbrev rQ1 : Rect S32x1024 := Rect.unit (s := S32x1024) ![16, 0] S16x1024.size inb_S32x1024_S16x1024_16_0
/-- Row 2k (and 2k + 1) of the zero-point and scale blocks: the point's two groups. -/
abbrev rZ0 (t : Fin cfg0.N) (hI : k0_cond2 (grid0.coords t) = 1#1) : Rect S32x1024 :=
  Rect.unit (s := S32x1024) (k0_off1 (grid0.coords t) 0#32) S1x1024.size (k0_off1_inb (grid0.coords t) hI 0)
abbrev rZ1 (t : Fin cfg0.N) (hI : k0_cond2 (grid0.coords t) = 1#1) : Rect S32x1024 :=
  Rect.unit (s := S32x1024) (k0_off1 (grid0.coords t) 1#32) S1x1024.size (k0_off1_inb (grid0.coords t) hI 1)
/-- Rows [256k, 256k + 128) and [256k + 128, 256k + 256) of the slab: where the two groups go. -/
abbrev rS0 (t : Fin cfg0.N) (hI : k0_cond2 (grid0.coords t) = 1#1) : Rect S4096x1024 :=
  Rect.unit (s := S4096x1024) (k0_off2 (grid0.coords t) 0#32) S128x1024.size (k0_off2_inb (grid0.coords t) hI 0)
abbrev rS1 (t : Fin cfg0.N) (hI : k0_cond2 (grid0.coords t) = 1#1) : Rect S4096x1024 :=
  Rect.unit (s := S4096x1024) (k0_off2 (grid0.coords t) 128#32) S128x1024.size (k0_off2_inb (grid0.coords t) hI 1)
/-- Rows [256k, 256k + 256) of the slab: what the matrix product reads. -/
abbrev rK (t : Fin cfg0.N) : Rect S4096x1024 :=
  Rect.unit (s := S4096x1024) (k0_off3 (grid0.coords t)) S256x1024.size (k0_off3_inb (grid0.coords t))

/-! ## What the body computes, over the buffers' contents -/

/-- The point's two dequantized 128-row groups, from the packed block `q`, the zero points `z` and the scales `s`. -/
abbrev grp0 (t : Fin cfg0.N) (hI : k0_cond2 (grid0.coords t) = 1#1) (q : Vec F S32x1024 .i32) (z : Vec F S32x1024 .i32) (s : Vec F S32x1024 .f32) :
    Vec F S128x1024 .bf16 :=
  k0_pay5 (View.ld q rQ0) (View.ld z (rZ0 t hI)) (View.ld s (rZ0 t hI))
abbrev grp1 (t : Fin cfg0.N) (hI : k0_cond2 (grid0.coords t) = 1#1) (q : Vec F S32x1024 .i32) (z : Vec F S32x1024 .i32) (s : Vec F S32x1024 .f32) :
    Vec F S128x1024 .bf16 :=
  k0_pay2 (k0_pay6 (View.ld q rQ1)) k0_pay7 (View.ld z (rZ1 t hI)) (View.ld s (rZ1 t hI))

/-- The two stores into the slab at a point with i = 0, the later one first. -/
abbrev slabPieces (t : Fin cfg0.N) (hI : k0_cond2 (grid0.coords t) = 1#1) (q : Vec F S32x1024 .i32) (z : Vec F S32x1024 .i32) (s : Vec F S32x1024 .f32) :
    List (View.Piece (Elt F) S4096x1024 .bf16) :=
  [⟨rS1 t hI, grp1 t hI q z s⟩, ⟨rS0 t hI, grp0 t hI q z s⟩]

/-- The slab after a point with i = 0: the two groups laid over what it held. -/
abbrev slabNew (t : Fin cfg0.N) (hI : k0_cond2 (grid0.coords t) = 1#1) (S : Vec F S4096x1024 .bf16) (q : Vec F S32x1024 .i32) (z : Vec F S32x1024 .i32) (s : Vec F S32x1024 .f32) :
    Vec F S4096x1024 .bf16 :=
  (rS1 t hI).overlay ((rS0 t hI).overlay S (grp0 t hI q z s)) (grp1 t hI q z s)

/-- The 256 slab rows the product reads: at a point with i = 0, the two groups just stored; -/
abbrev rowsNew (t : Fin cfg0.N) (hI : k0_cond2 (grid0.coords t) = 1#1) (q : Vec F S32x1024 .i32) (z : Vec F S32x1024 .i32) (s : Vec F S32x1024 .f32) :
    Vec F S256x1024 .bf16 :=
  slabM.view.readCov (slabPieces t hI q z s) (rK t).toLoadRect
/-- at any other point, what the slab holds there. -/
abbrev rowsOld (t : Fin cfg0.N) (S : Vec F S4096x1024 .bf16) : Vec F S256x1024 .bf16 := View.ld S (rK t)

/-- The accumulator read back right after the zeroing store. -/
abbrev zeroRead : Vec F S512x1024 .f32 := accM.view.readCov [⟨rA, k0_pay1⟩] rA.toLoadRect

/-- The accumulator after the point: what it held (`a0`) plus x's block times the 256 rows `w`. -/
abbrev accStep (w : Vec F S256x1024 .bf16) (a0 : Vec F S512x1024 .f32) (x : Vec F S512x256 .bf16) : Vec F S512x1024 .f32 :=
  View.canon [⟨rA, k0_pay3 w a0 (View.ld x rX)⟩]

/-- The output block a point with k = 15 stores: the accumulator read back after its store. -/
abbrev outStep (w : Vec F S256x1024 .bf16) (a0 : Vec F S512x1024 .f32) (x : Vec F S512x256 .bf16) : Vec F S512x1024 .f32 :=
  View.canon [⟨rA, accM.view.readCov [⟨rA, k0_pay3 w a0 (View.ld x rX)⟩] rA.toLoadRect⟩]

theorem coverA (p : Vec F S512x1024 .f32) (y : S512x1024.Idx) : ∃ pc ∈ ([⟨rA, p⟩] : List (View.Piece (Elt F) S512x1024 .f32)), y ∈ pc.1.set :=
  View.cover_of_tiled [⟨rA, p⟩] S512x1024.size (by rfl) y

/-- A whole-block store decides the contents, whatever was stored before it. -/
theorem read_writes_whole {sg : RefSig} {κ : Kind} {sp : Space} (v : View sg κ sp S512x1024 .f32) (f : v.ty.Contents (Elt F)) (p : Vec F S512x1024 .f32)
    (L : List (View.Piece (Elt F) S512x1024 .f32)) : v.read (Elt F) (v.writes (Elt F) f (⟨rA, p⟩ :: L)) = View.canon [⟨rA, p⟩] := by
  rw [View.read_writes_of_cover_last v f v f ⟨rA, p⟩ L [] (fun y => by obtain ⟨pc, hm, hy⟩ := coverA p y; rw [List.mem_singleton] at hm; subst hm; exact hy)]
  exact View.read_writes_eq_canon v f _ (coverA p)

/-- One more store through a rectangle lays its payload over what the earlier stores left. -/
theorem read_writes_cons_overlay {sg : RefSig} {κ : Kind} {sp : Space} {s : Shape} {e : EltTy} (v : View sg κ sp s e) (f : v.ty.Contents (Elt F))
    (r : Rect s) (w : r.shape.Idx → Elt F e) (L : List (View.Piece (Elt F) s e)) :
    v.read (Elt F) (v.writes (Elt F) f (⟨r, w⟩ :: L)) = r.overlay (v.read (Elt F) (v.writes (Elt F) f L)) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy, View.writes_cons, View.read_slice_write_of_not_mem r _ _ _ (by rw [Rect.map_emb_univ]; exact hy)]

set_option maxHeartbeats 2000000 in
/-- k = 0, i = 0: the accumulator restarts from zero, the slab takes the point's two groups. -/
theorem run_A (hK : IsK0 t) (hI : IsI0 t) (hL : ¬ IsKL t) (O : sProp 𝕄) (Q : PUnit → sProp 𝕄) :
    iprop(owns (c : Thread nD τ) M0 fullShare x0 ∗ owns (c : Thread nD τ) M1 fullShare q0 ∗ owns (c : Thread nD τ) M2 fullShare z0 ∗ owns (c : Thread nD τ) M3 fullShare s0 ∗ O
      ∗ (∃ a, owns (c : Thread nD τ) accM fullShare a) ∗ owns (c : Thread nD τ) slabM fullShare S
      ∗ (iprop(owns (c : Thread nD τ) M0 fullShare x0 ∗ owns (c : Thread nD τ) M1 fullShare q0 ∗ owns (c : Thread nD τ) M2 fullShare z0 ∗ owns (c : Thread nD τ) M3 fullShare s0 ∗ O
          ∗ owns (c : Thread nD τ) accM fullShare (accStep (rowsNew t hI q0 z0 s0) zeroRead x0)
          ∗ owns (c : Thread nD τ) slabM fullShare (slabNew t hI S q0 z0 s0)) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, HO, ⟨%a', %fa, %hfa, Ha⟩, ⟨%fs, %hfs, Hs⟩, Hk⟩
  subst hf0 hf1 hf2 hf3 hfs
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HO]; · iexact HO
  isplitl [Ha]
  · iexists _; isplitr; swap; (· iexact Ha); ipureintro; exact read_writes_whole _ _ _ _
  · iexists _; isplitr; swap; (· iexact Hs); ipureintro
    exact (read_writes_cons_overlay _ _ _ _ _).trans (congrArg (fun X => Rect.overlay _ X _) (read_writes_cons_overlay _ _ _ _ _))

set_option maxHeartbeats 2000000 in
/-- k = 0, i > 0: the accumulator restarts from zero; the slab is only read. -/
theorem run_B (hK : IsK0 t) (hI : ¬ IsI0 t) (hL : ¬ IsKL t) (O : sProp 𝕄) (Q : PUnit → sProp 𝕄) :
    iprop(owns (c : Thread nD τ) M0 fullShare x0 ∗ owns (c : Thread nD τ) M1 fullShare q0 ∗ owns (c : Thread nD τ) M2 fullShare z0 ∗ owns (c : Thread nD τ) M3 fullShare s0 ∗ O
      ∗ (∃ a, owns (c : Thread nD τ) accM fullShare a) ∗ owns (c : Thread nD τ) slabM fullShare S
      ∗ (iprop(owns (c : Thread nD τ) M0 fullShare x0 ∗ owns (c : Thread nD τ) M1 fullShare q0 ∗ owns (c : Thread nD τ) M2 fullShare z0 ∗ owns (c : Thread nD τ) M3 fullShare s0 ∗ O
          ∗ owns (c : Thread nD τ) accM fullShare (accStep (rowsOld t S) zeroRead x0)
          ∗ owns (c : Thread nD τ) slabM fullShare S) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, HO, ⟨%a', %fa, %hfa, Ha⟩, ⟨%fs, %hfs, Hs⟩, Hk⟩
  subst hf0 hf1 hf2 hf3 hfs
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HO]; · iexact HO
  isplitl [Ha]
  · iexists _; isplitr; swap; (· iexact Ha); ipureintro; exact read_writes_whole _ _ _ _
  · iexists fs; isplitr; (· ipureintro; rfl); iexact Hs

set_option maxHeartbeats 2000000 in
/-- 0 < k < 15, i = 0: the accumulator goes on, the slab takes the point's two groups. -/
theorem run_C (hK : ¬ IsK0 t) (hI : IsI0 t) (hL : ¬ IsKL t) (O : sProp 𝕄) (Q : PUnit → sProp 𝕄) :
    iprop(owns (c : Thread nD τ) M0 fullShare x0 ∗ owns (c : Thread nD τ) M1 fullShare q0 ∗ owns (c : Thread nD τ) M2 fullShare z0 ∗ owns (c : Thread nD τ) M3 fullShare s0 ∗ O
      ∗ owns (c : Thread nD τ) accM fullShare a ∗ owns (c : Thread nD τ) slabM fullShare S
      ∗ (iprop(owns (c : Thread nD τ) M0 fullShare x0 ∗ owns (c : Thread nD τ) M1 fullShare q0 ∗ owns (c : Thread nD τ) M2 fullShare z0 ∗ owns (c : Thread nD τ) M3 fullShare s0 ∗ O
          ∗ owns (c : Thread nD τ) accM fullShare (accStep (rowsNew t hI q0 z0 s0) (View.ld a rA) x0)
          ∗ owns (c : Thread nD τ) slabM fullShare (slabNew t hI S q0 z0 s0)) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, HO, ⟨%fa, %hfa, Ha⟩, ⟨%fs, %hfs, Hs⟩, Hk⟩
  subst hf0 hf1 hf2 hf3 hfa hfs
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HO]; · iexact HO
  isplitl [Ha]
  · iexists _; isplitr; swap; (· iexact Ha); ipureintro; exact read_writes_whole _ _ _ _
  · iexists _; isplitr; swap; (· iexact Hs); ipureintro
    exact (read_writes_cons_overlay _ _ _ _ _).trans (congrArg (fun X => Rect.overlay _ X _) (read_writes_cons_overlay _ _ _ _ _))

set_option maxHeartbeats 2000000 in
/-- 0 < k < 15, i > 0: the accumulator goes on; the slab is only read. -/
theorem run_D (hK : ¬ IsK0 t) (hI : ¬ IsI0 t) (hL : ¬ IsKL t) (O : sProp 𝕄) (Q : PUnit → sProp 𝕄) :
    iprop(owns (c : Thread nD τ) M0 fullShare x0 ∗ owns (c : Thread nD τ) M1 fullShare q0 ∗ owns (c : Thread nD τ) M2 fullShare z0 ∗ owns (c : Thread nD τ) M3 fullShare s0 ∗ O
      ∗ owns (c : Thread nD τ) accM fullShare a ∗ owns (c : Thread nD τ) slabM fullShare S
      ∗ (iprop(owns (c : Thread nD τ) M0 fullShare x0 ∗ owns (c : Thread nD τ) M1 fullShare q0 ∗ owns (c : Thread nD τ) M2 fullShare z0 ∗ owns (c : Thread nD τ) M3 fullShare s0 ∗ O
          ∗ owns (c : Thread nD τ) accM fullShare (accStep (rowsOld t S) (View.ld a rA) x0)
          ∗ owns (c : Thread nD τ) slabM fullShare S) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, HO, ⟨%fa, %hfa, Ha⟩, ⟨%fs, %hfs, Hs⟩, Hk⟩
  subst hf0 hf1 hf2 hf3 hfa hfs
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HO]; · iexact HO
  isplitl [Ha]
  · iexists _; isplitr; swap; (· iexact Ha); ipureintro; exact read_writes_whole _ _ _ _
  · iexists fs; isplitr; (· ipureintro; rfl); iexact Hs

set_option maxHeartbeats 2000000 in
/-- k = 15, i = 0: as the step before, and the accumulator is copied to the output's buffer. -/
theorem run_E (hK : ¬ IsK0 t) (hI : IsI0 t) (hL : IsKL t) (Q : PUnit → sProp 𝕄) :
    iprop(owns (c : Thread nD τ) M0 fullShare x0 ∗ owns (c : Thread nD τ) M1 fullShare q0 ∗ owns (c : Thread nD τ) M2 fullShare z0 ∗ owns (c : Thread nD τ) M3 fullShare s0 ∗ (∃ d, owns (c : Thread nD τ) M4 fullShare d)
      ∗ owns (c : Thread nD τ) accM fullShare a ∗ owns (c : Thread nD τ) slabM fullShare S
      ∗ (iprop(owns (c : Thread nD τ) M0 fullShare x0 ∗ owns (c : Thread nD τ) M1 fullShare q0 ∗ owns (c : Thread nD τ) M2 fullShare z0 ∗ owns (c : Thread nD τ) M3 fullShare s0 ∗ owns (c : Thread nD τ) M4 fullShare (outStep (rowsNew t hI q0 z0 s0) (View.ld a rA) x0)
          ∗ owns (c : Thread nD τ) accM fullShare (accStep (rowsNew t hI q0 z0 s0) (View.ld a rA) x0)
          ∗ owns (c : Thread nD τ) slabM fullShare (slabNew t hI S q0 z0 s0)) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, ⟨%d4, %f4, %hf4, HO⟩, ⟨%fa, %hfa, Ha⟩, ⟨%fs, %hfs, Hs⟩, Hk⟩
  subst hf0 hf1 hf2 hf3 hfa hfs
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HO]; · iexists _; isplitr; swap; (· iexact HO); ipureintro; exact read_writes_whole _ _ _ _
  isplitl [Ha]
  · iexists _; isplitr; swap; (· iexact Ha); ipureintro; exact read_writes_whole _ _ _ _
  · iexists _; isplitr; swap; (· iexact Hs); ipureintro
    exact (read_writes_cons_overlay _ _ _ _ _).trans (congrArg (fun X => Rect.overlay _ X _) (read_writes_cons_overlay _ _ _ _ _))

set_option maxHeartbeats 2000000 in
/-- k = 15, i > 0: the accumulator goes on and is copied to the output's buffer; the slab is only read. -/
theorem run_F (hK : ¬ IsK0 t) (hI : ¬ IsI0 t) (hL : IsKL t) (Q : PUnit → sProp 𝕄) :
    iprop(owns (c : Thread nD τ) M0 fullShare x0 ∗ owns (c : Thread nD τ) M1 fullShare q0 ∗ owns (c : Thread nD τ) M2 fullShare z0 ∗ owns (c : Thread nD τ) M3 fullShare s0 ∗ (∃ d, owns (c : Thread nD τ) M4 fullShare d)
      ∗ owns (c : Thread nD τ) accM fullShare a ∗ owns (c : Thread nD τ) slabM fullShare S
      ∗ (iprop(owns (c : Thread nD τ) M0 fullShare x0 ∗ owns (c : Thread nD τ) M1 fullShare q0 ∗ owns (c : Thread nD τ) M2 fullShare z0 ∗ owns (c : Thread nD τ) M3 fullShare s0 ∗ owns (c : Thread nD τ) M4 fullShare (outStep (rowsOld t S) (View.ld a rA) x0)
          ∗ owns (c : Thread nD τ) accM fullShare (accStep (rowsOld t S) (View.ld a rA) x0)
          ∗ owns (c : Thread nD τ) slabM fullShare S) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, ⟨%d4, %f4, %hf4, HO⟩, ⟨%fa, %hfa, Ha⟩, ⟨%fs, %hfs, Hs⟩, Hk⟩
  subst hf0 hf1 hf2 hf3 hfa hfs
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HO]; · iexists _; isplitr; swap; (· iexact HO); ipureintro; exact read_writes_whole _ _ _ _
  isplitl [Ha]
  · iexists _; isplitr; swap; (· iexact Ha); ipureintro; exact read_writes_whole _ _ _ _
  · iexists fs; isplitr; (· ipureintro; rfl); iexact Hs

end Runs
end Cert.Proof.Kernel
end
-- ==== Proof.KSlabBits.lean ====
/-
  Index facts about the resident slab of dequantized weight rows.

  The grid has 11 · 8 · 16 points; point t has k = t mod 16 (the innermost coordinate). The slab has
  4096 rows of 1024 columns. The product at point t reads rows [256k, 256k + 256); a point with i = 0
  first stores one 128-row group into rows [256k, 256k + 128) and the next into [256k + 128, 256k + 256).
  So the rows a point reads depend on k alone; after the two stores they hold exactly the two groups,
  the first in the lower half and the second in the upper; and the rows read at any k' ≠ k are untouched.
-/
import proofs.«419571_j47639777247662_3_alg».proof.Proof.KBodyBits
import Idealize.ShloMosaic.Lib.Pipeline.FrameBody
import Idealize.ShloMosaic.Lib.ValueIdx

set_option maxRecDepth 16384

noncomputable section

namespace Cert.Proof.Kernel

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The offsets, in closed form -/

omit [FloatOps F] in
theorem off3_ax : ∀ (t : Fin cfg0.N) (a : Fin 2), k0_off3 (grid0.coords t) a = (![256 * (t.val % 16), 0] : Fin 2 → Nat) a :=
  (by decide +kernel : ∀ (t : Fin grid0.N) (a : Fin 2), k0_off3 (grid0.coords t) a = (![256 * (t.val % 16), 0] : Fin 2 → Nat) a)
omit [FloatOps F] in
theorem off2_0_ax : ∀ (t : Fin cfg0.N) (a : Fin 2), k0_off2 (grid0.coords t) 0#32 a = (![256 * (t.val % 16), 0] : Fin 2 → Nat) a :=
  (by decide +kernel : ∀ (t : Fin grid0.N) (a : Fin 2), k0_off2 (grid0.coords t) 0#32 a = (![256 * (t.val % 16), 0] : Fin 2 → Nat) a)
omit [FloatOps F] in
theorem off2_1_ax : ∀ (t : Fin cfg0.N) (a : Fin 2), k0_off2 (grid0.coords t) 128#32 a = (![256 * (t.val % 16) + 128, 0] : Fin 2 → Nat) a :=
  (by decide +kernel : ∀ (t : Fin grid0.N) (a : Fin 2), k0_off2 (grid0.coords t) 128#32 a = (![256 * (t.val % 16) + 128, 0] : Fin 2 → Nat) a)
omit [FloatOps F] in
theorem off1_0_ax : ∀ (t : Fin cfg0.N) (a : Fin 2), k0_off1 (grid0.coords t) 0#32 a = (![2 * (t.val % 16), 0] : Fin 2 → Nat) a :=
  (by decide +kernel : ∀ (t : Fin grid0.N) (a : Fin 2), k0_off1 (grid0.coords t) 0#32 a = (![2 * (t.val % 16), 0] : Fin 2 → Nat) a)
omit [FloatOps F] in
theorem off1_1_ax : ∀ (t : Fin cfg0.N) (a : Fin 2), k0_off1 (grid0.coords t) 1#32 a = (![2 * (t.val % 16) + 1, 0] : Fin 2 → Nat) a :=
  (by decide +kernel : ∀ (t : Fin grid0.N) (a : Fin 2), k0_off1 (grid0.coords t) 1#32 a = (![2 * (t.val % 16) + 1, 0] : Fin 2 → Nat) a)

omit [FloatOps F] in
/-- The rows the product reads start at 256k. -/
theorem off3_eq : ∀ t : Fin cfg0.N, k0_off3 (grid0.coords t) = ![256 * (t.val % 16), 0] := fun t => funext (off3_ax t)
omit [FloatOps F] in
/-- The first group is stored from row 256k, -/
theorem off2_0_eq : ∀ t : Fin cfg0.N, k0_off2 (grid0.coords t) 0#32 = ![256 * (t.val % 16), 0] := fun t => funext (off2_0_ax t)
omit [FloatOps F] in
/-- the second from row 256k + 128. -/
theorem off2_1_eq : ∀ t : Fin cfg0.N, k0_off2 (grid0.coords t) 128#32 = ![256 * (t.val % 16) + 128, 0] := fun t => funext (off2_1_ax t)
omit [FloatOps F] in
/-- The first group's zero points and scales are row 2k of their blocks, -/
theorem off1_0_eq : ∀ t : Fin cfg0.N, k0_off1 (grid0.coords t) 0#32 = ![2 * (t.val % 16), 0] := fun t => funext (off1_0_ax t)
omit [FloatOps F] in
/-- the second group's row 2k + 1. -/
theorem off1_1_eq : ∀ t : Fin cfg0.N, k0_off1 (grid0.coords t) 1#32 = ![2 * (t.val % 16) + 1, 0] := fun t => funext (off1_1_ax t)

/-! ## Where the rectangles place their indices -/

omit [FloatOps F] in
/-- The read rectangle places row j₀ at 256k + j₀, -/
theorem rK_idx_val (t : Fin cfg0.N) (j : S256x1024.Idx) (a : Fin 2) :
    ((rK t).idx j a).val = (![256 * (t.val % 16), 0] : Fin 2 → Nat) a + (j a).val := by
  show k0_off3 (grid0.coords t) a + 1 * (j a).val = _
  rw [off3_ax]; omega

omit [FloatOps F] in
/-- the first group's rectangle row x₀ at 256k + x₀, -/
theorem rS0_emb_val (t : Fin cfg0.N) (hI : IsI0 t) (x : S128x1024.Idx) (a : Fin 2) :
    ((rS0 t hI).emb x a).val = (![256 * (t.val % 16), 0] : Fin 2 → Nat) a + (x a).val := by
  show k0_off2 (grid0.coords t) 0#32 a + 1 * (x a).val = _
  rw [off2_0_ax]; omega

omit [FloatOps F] in
/-- the second group's at 256k + 128 + x₀. -/
theorem rS1_emb_val (t : Fin cfg0.N) (hI : IsI0 t) (x : S128x1024.Idx) (a : Fin 2) :
    ((rS1 t hI).emb x a).val = (![256 * (t.val % 16) + 128, 0] : Fin 2 → Nat) a + (x a).val := by
  show k0_off2 (grid0.coords t) 128#32 a + 1 * (x a).val = _
  rw [off2_1_ax]; omega

omit [FloatOps F] in
/-- The lower half of the rows read is the first group's rectangle, -/
theorem rK_idx_lo (t : Fin cfg0.N) (hI : IsI0 t) (kk : Fin 128) (n : Fin 1024) :
    (rK t).idx (ix2 ⟨kk.val, by omega⟩ n : S256x1024.Idx) = (rS0 t hI).emb (ix2 kk n : S128x1024.Idx) := by
  funext a; apply Fin.ext
  rw [rK_idx_val, rS0_emb_val]
  fin_cases a <;> rfl

omit [FloatOps F] in
/-- the upper half the second group's. -/
theorem rK_idx_hi (t : Fin cfg0.N) (hI : IsI0 t) (kk : Fin 128) (n : Fin 1024) :
    (rK t).idx (ix2 ⟨kk.val + 128, by omega⟩ n : S256x1024.Idx) = (rS1 t hI).emb (ix2 kk n : S128x1024.Idx) := by
  funext a; apply Fin.ext
  rw [rK_idx_val, rS1_emb_val]
  fin_cases a
  · show 256 * (t.val % 16) + (kk.val + 128) = 256 * (t.val % 16) + 128 + kk.val
    omega
  · rfl

omit [FloatOps F] in
/-- The two groups' rectangles do not meet: no row of the first is a row of the second. -/
theorem rS0_emb_not_mem (t : Fin cfg0.N) (hI : IsI0 t) (x : S128x1024.Idx) : (rS0 t hI).emb x ∉ (rS1 t hI).set := by
  rw [Rect.mem_set_unit]
  intro h
  have h0 := (h 0).1
  rw [off2_1_ax, rS0_emb_val] at h0
  have hx := idx2_lt0 (n0 := 128) (n1 := 1024) x
  have h0' : 256 * (t.val % 16) + 128 ≤ 256 * (t.val % 16) + (x 0).val := h0
  omega

omit [FloatOps F] in
/-- The second group laid over the first laid over anything: on the first group's rectangle, the first group; -/
theorem over_lo {α : Type} (t : Fin cfg0.N) (hI : IsI0 t) (X : S4096x1024.Idx → α) (G0 : (rS0 t hI).shape.Idx → α)
    (G1 : (rS1 t hI).shape.Idx → α) (x : (rS0 t hI).shape.Idx) :
    (rS1 t hI).overlay ((rS0 t hI).overlay X G0) G1 ((rS0 t hI).emb x) = G0 x := by
  rw [Rect.overlay_of_not_mem _ _ _ (rS0_emb_not_mem t hI x), Rect.overlay_emb]

omit [FloatOps F] in
/-- on the second group's, the second. -/
theorem over_hi {α : Type} (t : Fin cfg0.N) (hI : IsI0 t) (X : S4096x1024.Idx → α) (G0 : (rS0 t hI).shape.Idx → α)
    (G1 : (rS1 t hI).shape.Idx → α) (x : (rS1 t hI).shape.Idx) :
    (rS1 t hI).overlay ((rS0 t hI).overlay X G0) G1 ((rS1 t hI).emb x) = G1 x :=
  Rect.overlay_emb _ _ _ x

omit [FloatOps F] in
/-- A fact about each of the 256 rows read follows from the fact about rows 0 … 127 and rows 128 … 255. -/
theorem rows_split (P : S256x1024.Idx → Prop) (hlo : ∀ (kk : Fin 128) (n : Fin 1024), P (ix2 ⟨kk.val, by omega⟩ n))
    (hhi : ∀ (kk : Fin 128) (n : Fin 1024), P (ix2 ⟨kk.val + 128, by omega⟩ n)) (j : S256x1024.Idx) : P j := by
  rw [eq_ix2 j]
  have hj := idx2_lt0 (n0 := 256) (n1 := 1024) j
  by_cases h : (j 0).val < 128
  · exact hlo ⟨(j 0).val, h⟩ (j 1)
  · have e : j 0 = (⟨(j 0).val - 128 + 128, by omega⟩ : Fin 256) := Fin.ext (by show (j 0).val = (j 0).val - 128 + 128; omega)
    rw [e]
    exact hhi ⟨(j 0).val - 128, by omega⟩ (j 1)

/-! ## The rows read, after the two stores -/

/-- The lower 128 rows read after the stores are the first group, -/
theorem rowsNew_lo (t : Fin cfg0.N) (hI : IsI0 t) (q : Vec F S32x1024 .i32) (z : Vec F S32x1024 .i32) (s : Vec F S32x1024 .f32)
    (kk : Fin 128) (n : Fin 1024) :
    rowsNew t hI q z s (ix2 ⟨kk.val, by omega⟩ n : S256x1024.Idx) = grp0 t hI q z s (ix2 kk n) := by
  show slabM.view.readCov (slabPieces t hI q z s) (rK t).toLoadRect _ = _
  rw [View.readCov_eq_canon']
  show View.canon (slabPieces t hI q z s) ((rK t).idx _) = _
  rw [rK_idx_lo t hI kk n, View.canon_cons, View.canon_cons]
  exact over_lo t hI _ _ _ _

/-- the upper 128 the second. -/
theorem rowsNew_hi (t : Fin cfg0.N) (hI : IsI0 t) (q : Vec F S32x1024 .i32) (z : Vec F S32x1024 .i32) (s : Vec F S32x1024 .f32)
    (kk : Fin 128) (n : Fin 1024) :
    rowsNew t hI q z s (ix2 ⟨kk.val + 128, by omega⟩ n : S256x1024.Idx) = grp1 t hI q z s (ix2 kk n) := by
  show slabM.view.readCov (slabPieces t hI q z s) (rK t).toLoadRect _ = _
  rw [View.readCov_eq_canon']
  show View.canon (slabPieces t hI q z s) ((rK t).idx _) = _
  rw [rK_idx_hi t hI kk n, View.canon_cons, View.canon_cons]
  exact over_hi t hI _ _ _ _

/-! ## Reading the slab -/

/-- The rows a point reads depend on k alone. -/
theorem ld_rK_congr (S : Vec F S4096x1024 .bf16) (t t' : Fin cfg0.N) (h : t.val % 16 = t'.val % 16) :
    (View.ld S (rK t) : Vec F S256x1024 .bf16) = View.ld S (rK t') := by
  funext j
  show S ((rK t).idx j) = S ((rK t').idx j)
  refine congrArg S (funext fun a => Fin.ext ?_)
  rw [rK_idx_val, rK_idx_val, h]

/-- Read back at the same k, the slab after the two stores holds the two groups, whatever it held before. -/
theorem ld_slabNew_self (t : Fin cfg0.N) (hI : IsI0 t) (S : Vec F S4096x1024 .bf16) (q : Vec F S32x1024 .i32) (z : Vec F S32x1024 .i32) (s : Vec F S32x1024 .f32) :
    (View.ld (slabNew t hI S q z s) (rK t) : Vec F S256x1024 .bf16) = rowsNew t hI q z s := by
  funext j
  revert j
  refine rows_split _ (fun kk n => ?_) (fun kk n => ?_)
  · rw [rowsNew_lo]
    show slabNew t hI S q z s ((rK t).idx _) = _
    rw [rK_idx_lo t hI kk n]
    exact over_lo t hI _ _ _ _
  · rw [rowsNew_hi]
    show slabNew t hI S q z s ((rK t).idx _) = _
    rw [rK_idx_hi t hI kk n]
    exact over_hi t hI _ _ _ _

/-- Read at another k, the slab after the two stores holds what it held before. -/
theorem ld_slabNew_other (t : Fin cfg0.N) (hI : IsI0 t) (S : Vec F S4096x1024 .bf16) (q : Vec F S32x1024 .i32) (z : Vec F S32x1024 .i32) (s : Vec F S32x1024 .f32)
    (t' : Fin cfg0.N) (h : t'.val % 16 ≠ t.val % 16) :
    (View.ld (slabNew t hI S q z s) (rK t') : Vec F S256x1024 .bf16) = View.ld S (rK t') := by
  funext j
  show slabNew t hI S q z s ((rK t').idx j) = S ((rK t').idx j)
  have hj := idx2_lt0 (n0 := 256) (n1 := 1024) j
  have hr : ((rK t').idx j 0).val = 256 * (t'.val % 16) + (j 0).val := rK_idx_val t' j 0
  have n1 : (rK t').idx j ∉ (rS1 t hI).set := by
    rw [Rect.mem_set_unit]; intro hm
    have h0 := hm 0
    rw [off2_1_ax] at h0
    have h0' : 256 * (t.val % 16) + 128 ≤ ((rK t').idx j 0).val ∧ ((rK t').idx j 0).val < 256 * (t.val % 16) + 128 + 128 := h0
    omega
  have n0 : (rK t').idx j ∉ (rS0 t hI).set := by
    rw [Rect.mem_set_unit]; intro hm
    have h0 := hm 0
    rw [off2_0_ax] at h0
    have h0' : 256 * (t.val % 16) ≤ ((rK t').idx j 0).val ∧ ((rK t').idx j 0).val < 256 * (t.val % 16) + 128 := h0
    omega
  exact (Rect.overlay_of_not_mem _ _ _ n1).trans (Rect.overlay_of_not_mem _ _ _ n0)

end Cert.Proof.Kernel

end
-- ==== Proof.KRunBits.lean ====
/-
  The run of the kernel's program: the pipeline's proof data and the launch.

  The grid has 11 · 8 · 16 points t = (j, i, k), k fastest. The kernel carries two scratch buffers from
  point to point: the f32 accumulator and the bf16 slab of dequantized weights. After point t the
  accumulator holds `accF t`, defined by recursion on the point (restarting from zero wherever k = 0)
  from x's blocks and the 256 slab rows `rows t` the product reads at t. Those rows are the two
  dequantized groups stored at the point `base t` = (j, 0, k) of the same column block: at a point with
  i = 0 they were just stored; at a point with i > 0 the slab still holds them. So the invariant keeps the
  slab at SOME contents of which only this is known: for every point t' ≤ t with i = 0 in t's column block,
  rows [256k', 256k' + 256) read `rows t'` (`SlabOK`). The output's staging buffer is stored into only
  where k = 15 and is idle, and not written back, elsewhere.
-/
import proofs.«419571_j47639777247662_3_alg».proof.Proof.KBodyBits
import proofs.«419571_j47639777247662_3_alg».proof.Proof.KSlabBits
import proofs.«419571_j47639777247662_3_alg».proof.Proof.Gen.Kernel.Frame
import proofs.«419571_j47639777247662_3_alg».proof.Proof.Gen.Kernel.Points
import Idealize.ShloMosaic.Lib.Pipeline.FrameSuffix

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The kinds of point -/

theorem N_eq : cfg0.N = 1408 := N_0

/-- k = 0 iff the point's number is ≡ 0 (mod 16); i = 0 iff its quotient by 16 is ≡ 0 (mod 8); k = 15 iff ≡ 15 (mod 16). -/
theorem isK0_iff : ∀ t : Fin cfg0.N, IsK0 t ↔ t.val % 16 = 0 :=
  (by decide +kernel : ∀ t : Fin grid0.N, (Scalar.cmpi .ne (Scalar.extui (Scalar.cmpi .eq (BitVec.ofNat 32 ((grid0.coords t) 2).val) 0#32)) 0#32 = 1#1) ↔ t.val % 16 = 0)
theorem isI0_iff : ∀ t : Fin cfg0.N, IsI0 t ↔ (t.val / 16) % 8 = 0 :=
  (by decide +kernel : ∀ t : Fin grid0.N, k0_cond2 (grid0.coords t) = 1#1 ↔ (t.val / 16) % 8 = 0)
theorem isKL_iff : ∀ t : Fin cfg0.N, IsKL t ↔ t.val % 16 = 15 :=
  (by decide +kernel : ∀ t : Fin grid0.N, k0_cond3 (grid0.coords t) = 1#1 ↔ t.val % 16 = 15)

/-- The output's window is idle except where k = 15, and written back exactly there. -/
theorem idle4_of_last (t : Fin cfg0.N) (h : IsKL t) : cfg0.idle 4 (grid0.coords t) = false := by
  show (!(k0_cond3 (grid0.coords t) == 1#1)) = false; rw [show (k0_cond3 (grid0.coords t) == 1#1) = true from beq_iff_eq.mpr h]; rfl
theorem idle4_of_not_last (t : Fin cfg0.N) (h : ¬ IsKL t) : cfg0.idle 4 (grid0.coords t) = true := by
  show (!(k0_cond3 (grid0.coords t) == 1#1)) = true; rw [show (k0_cond3 (grid0.coords t) == 1#1) = false from beq_eq_false_iff_ne.mpr h]; rfl
theorem flush4_of_not_last (t : Fin cfg0.N) (h : ¬ IsKL t) : (cfg0.win 4).flush t = false :=
  Bool.eq_false_iff.mpr fun hf => h ((isKL_iff t).mpr ((flush0_4 t).mp hf))

variable (m : (ℓ : Loc nD τ sig) → Buf (Elt F) ℓ) (ρ : Dev nD → PrngReg)

/-! ## What the scratch buffers hold after each point -/

/-- The point (j, 0, k) of t = (j, i, k)'s column block: where the slab rows t reads were stored. -/
def base (t : Fin cfg0.N) : Fin cfg0.N := ⟨t.val - 16 * ((t.val / 16) % 8), lt_of_le_of_lt (Nat.sub_le _ _) t.isLt⟩

theorem base_val (t : Fin cfg0.N) : (base t).val = t.val - 16 * ((t.val / 16) % 8) := rfl

theorem base_I0 (t : Fin cfg0.N) : IsI0 (base t) :=
  (isI0_iff _).mpr (by rw [base_val]; omega)

theorem base_of_I0 (t : Fin cfg0.N) (h : (t.val / 16) % 8 = 0) : base t = t :=
  Fin.ext (by rw [base_val, h]; omega)

/-- The two groups a point b with i = 0 stores, as the 256 rows the product reads there. -/
def rowsAt (c : Dev nD) (b : Fin cfg0.N) (hb : IsI0 b) : Vec F S256x1024 .bf16 :=
  rowsNew b hb (iblk m c 1 b) (iblk m c 2 b) (iblk m c 3 b)

theorem rowsAt_congr (c : Dev nD) (b b' : Fin cfg0.N) (h : b = b') (hb : IsI0 b) (hb' : IsI0 b') : rowsAt m c b hb = rowsAt m c b' hb' := by
  subst h; rfl

/-- The 256 slab rows the product reads at t. -/
def rows (c : Dev nD) (t : Fin cfg0.N) : Vec F S256x1024 .bf16 := rowsAt m c (base t) (base_I0 t)

theorem rows_of_I0 (c : Dev nD) (t : Fin cfg0.N) (hI : IsI0 t) : rows m c t = rowsNew t hI (iblk m c 1 t) (iblk m c 2 t) (iblk m c 3 t) :=
  rowsAt_congr m c _ _ (base_of_I0 t ((isI0_iff t).mp hI)) _ _

theorem rows_base (c : Dev nD) (t : Fin cfg0.N) : rows m c (base t) = rows m c t :=
  rowsAt_congr m c _ _ (base_of_I0 _ ((isI0_iff _).mp (base_I0 t))) _ _

/-- The accumulator after point n: x's block times the rows, onto zero where k = 0, else onto what the point before left. -/
def accF (c : Dev nD) : (n : ℕ) → n < cfg0.N → Vec F S512x1024 .f32
  | 0, h => accStep (rows m c ⟨0, h⟩) zeroRead (iblk m c 0 ⟨0, h⟩)
  | n + 1, h => accStep (rows m c ⟨n + 1, h⟩) (if (n + 1) % 16 = 0 then zeroRead else View.ld (accF c n (Nat.lt_of_succ_lt h)) rA) (iblk m c 0 ⟨n + 1, h⟩)

/-- The accumulator the step at t adds onto. -/
def a0At (c : Dev nD) (t : Fin cfg0.N) : Vec F S512x1024 .f32 :=
  if t.val % 16 = 0 then zeroRead else View.ld (accF m c (t.val - 1) (lt_of_le_of_lt (Nat.sub_le _ _) t.isLt)) rA

theorem accF_eq (c : Dev nD) (t : Fin cfg0.N) : accF m c t.val t.isLt = accStep (rows m c t) (a0At m c t) (iblk m c 0 t) := by
  obtain ⟨n, hn⟩ := t
  cases n with
  | zero => show accStep _ zeroRead _ = accStep _ (a0At m c ⟨0, hn⟩) _; unfold a0At; rw [if_pos (by rfl)]
  | succ n => rfl

theorem a0At_K0 (c : Dev nD) (t : Fin cfg0.N) (h : t.val % 16 = 0) : a0At m c t = zeroRead := by unfold a0At; rw [if_pos h]
theorem a0At_step (c : Dev nD) (t : Fin cfg0.N) (h : ¬ t.val % 16 = 0) :
    a0At m c t = View.ld (accF m c (t.val - 1) (lt_of_le_of_lt (Nat.sub_le _ _) t.isLt)) rA := by unfold a0At; rw [if_neg h]

/-- What is known of the slab after point n: every point t' ≤ n with i = 0 in n's column block finds its rows. -/
def SlabOK (c : Dev nD) (n : ℕ) (S : Vec F S4096x1024 .bf16) : Prop :=
  ∀ t' : Fin cfg0.N, t'.val ≤ n → t'.val / 128 = n / 128 → (t'.val / 16) % 8 = 0 → (View.ld S (rK t') : Vec F S256x1024 .bf16) = rows m c t'

/-- At a point with i > 0 the slab rows read are the ones `base t` stored. -/
theorem rowsOld_eq (c : Dev nD) (t : Fin cfg0.N) (hI : ¬ (t.val / 16) % 8 = 0) (S : Vec F S4096x1024 .bf16) (hS : SlabOK m c (t.val - 1) S) :
    rowsOld t S = rows m c t := by
  have hN := N_eq; have ht := t.isLt
  show (View.ld S (rK t) : Vec F S256x1024 .bf16) = _
  rw [ld_rK_congr S t (base t) (by rw [base_val]; omega), hS (base t) (by rw [base_val]; omega) (by rw [base_val]; omega) (by rw [base_val]; omega), rows_base]

/-- After a point with i = 0 stored its groups, the slab still satisfies the invariant. -/
theorem slabOK_new (c : Dev nD) (t : Fin cfg0.N) (hI : IsI0 t) (S : Vec F S4096x1024 .bf16) (hS : t.val ≠ 0 → SlabOK m c (t.val - 1) S) :
    SlabOK m c t.val (slabNew t hI S (iblk m c 1 t) (iblk m c 2 t) (iblk m c 3 t)) := by
  have hi := (isI0_iff t).mp hI
  intro t' h1 h2 h3
  by_cases he : t' = t
  · subst he; rw [ld_slabNew_self, rows_of_I0 m c t' hI]
  · have hne : t'.val ≠ t.val := fun h => he (Fin.ext h)
    rw [ld_slabNew_other t hI S _ _ _ t' (by omega)]
    exact hS (by omega) t' (by omega) (by omega) h3

/-- After a point with i > 0 the slab is as before, and so is what is known of it. -/
theorem slabOK_keep (c : Dev nD) (t : Fin cfg0.N) (hI : ¬ (t.val / 16) % 8 = 0) (S : Vec F S4096x1024 .bf16) (hS : SlabOK m c (t.val - 1) S) :
    SlabOK m c t.val S := by
  intro t' h1 h2 h3
  exact hS t' (by omega) (by omega) h3

/-! ## The proof data -/

/-- The class invariant with the two scratch buffers as memrefs owned at some contents. -/
theorem PhiA_eq (c : Dev nD) :
    (Pipeline.ΦA spec0 c : sProp 𝕄)
      = iprop(((∃ d, owns (c : Thread nD τ) accM fullShare d) ∗ (∃ d, owns (c : Thread nD τ) slabM fullShare d)) ∗ (∃ r, prngReg c r)) := by
  unfold Pipeline.ΦA; rw [scopedRest0_eq]; simp only [accM, slabM, owns_whole]; rfl

/-- The invariant before point n: before the first point the class's (both scratch buffers at anything); afterwards
    the accumulator at what the point before left, the slab at some contents satisfying `SlabOK`. -/
def PhiS (c : Dev nD) : (n : ℕ) → n ≤ cfg0.N → sProp 𝕄
  | 0, _ => Pipeline.ΦA spec0 c
  | n + 1, hn => iprop(owns (c : Thread nD τ) accM fullShare (accF m c n hn)
      ∗ (∃ S, owns (c : Thread nD τ) slabM fullShare S ∗ ⌜SlabOK m c n S⌝) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(owns (c : Thread nD τ) accM fullShare (accF m c n hn)
      ∗ (∃ S, owns (c : Thread nD τ) slabM fullShare S ∗ ⌜SlabOK m c n S⌝) ∗ (∃ r, prngReg c r)) := rfl
theorem PhiS_pos (c : Dev nD) (n : ℕ) (h : n ≤ cfg0.N) (hz : n ≠ 0) :
    PhiS m c n h = iprop(owns (c : Thread nD τ) accM fullShare (accF m c (n - 1) (by omega))
      ∗ (∃ S, owns (c : Thread nD τ) slabM fullShare S ∗ ⌜SlabOK m c (n - 1) S⌝) ∗ (∃ r, prngReg c r)) := by
  cases n with
  | zero => exact absurd rfl hz
  | succ n => rfl

/-- The block a point with k = 15 leaves in the output's staging buffer (read nowhere else). -/
def outF (c : Dev nD) (t : Fin cfg0.N) : Vec F S512x1024 .f32 := outStep (rows m c t) (a0At m c t) (iblk m c 0 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outF m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outF m c t := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

theorem leaves_in0 (c : Dev nD) (t : Fin cfg0.N) : (dats m 0 c).leavesExact 0 t = owns (c : Thread nD τ) (st0_0 t) fullShare (iblk m c 0 t) := by
  unfold Dat.leavesExact; rw [show cfg0.idle 0 (cfg0.grid.coords t) = false from rfl, after_0]
theorem leaves_in1 (c : Dev nD) (t : Fin cfg0.N) : (dats m 0 c).leavesExact 1 t = owns (c : Thread nD τ) (st0_1 t) fullShare (iblk m c 1 t) := by
  unfold Dat.leavesExact; rw [show cfg0.idle 1 (cfg0.grid.coords t) = false from rfl, after_1]
theorem leaves_in2 (c : Dev nD) (t : Fin cfg0.N) : (dats m 0 c).leavesExact 2 t = owns (c : Thread nD τ) (st0_2 t) fullShare (iblk m c 2 t) := by
  unfold Dat.leavesExact; rw [show cfg0.idle 2 (cfg0.grid.coords t) = false from rfl, after_2]
theorem leaves_in3 (c : Dev nD) (t : Fin cfg0.N) : (dats m 0 c).leavesExact 3 t = owns (c : Thread nD τ) (st0_3 t) fullShare (iblk m c 3 t) := by
  unfold Dat.leavesExact; rw [show cfg0.idle 3 (cfg0.grid.coords t) = false from rfl, after_3]
theorem leaves_out_last (c : Dev nD) (t : Fin cfg0.N) (h : IsKL t) : (dats m 0 c).leavesExact 4 t = owns (c : Thread nD τ) (st0_4 t) fullShare (outF m c t) := by
  unfold Dat.leavesExact; rw [idle4_of_last t h, after_4]
theorem leaves_out_idle (c : Dev nD) (t : Fin cfg0.N) (h : ¬ IsKL t) :
    (dats m 0 c).leavesExact 4 t = iprop(∃ d, owns (c : Thread nD τ) (st0_4 t) fullShare ((dats m 0 c).before 4 t d)) :=
  Dat.leavesExact_idle (dats m 0 c) 4 t (idle4_of_not_last t h) (flush4_of_not_last t h)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
/-- The body at any point, by the point's kind: the run of that kind between the invariant's two forms. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ, leaves_in0, leaves_in1, leaves_in2, leaves_in3, accF_eq]
  have hN := N_eq
  have htN := t.isLt
  by_cases hK : IsK0 t
  · have hk : t.val % 16 = 0 := (isK0_iff t).mp hK
    have hL : ¬ IsKL t := fun h => by have := (isKL_iff t).mp h; omega
    rw [leaves_out_idle m c t hL, a0At_K0 m c t hk]
    by_cases hI : IsI0 t
    · have hi : (t.val / 16) % 8 = 0 := (isI0_iff t).mp hI
      rw [rows_of_I0 m c t hI]
      by_cases hz : t.val = 0
      · rw [PhiS_castSucc, PhiS_zero m c _ _ hz, PhiA_eq]
        iintro ⟨⟨⟨Ha, ⟨%S, Hs⟩⟩, Hg⟩, Ho, ⟨%d0, H0⟩, ⟨%d1, H1⟩, ⟨%d2, H2⟩, ⟨%d3, H3⟩, H4⟩
        iapply (run_A c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (iblk m c 0 t) (iblk m c 1 t) (iblk m c 2 t) (iblk m c 3 t) S hK hI hL _ _)
        isplitl [H0]; · iexact H0
        isplitl [H1]; · iexact H1
        isplitl [H2]; · iexact H2
        isplitl [H3]; · iexact H3
        isplitl [H4]; · iexact H4
        isplitl [Ha]; · iexact Ha
        isplitl [Hs]; · iexact Hs
        iintro ⟨H0, H1, H2, H3, H4, Ha, Hs⟩
        isplitl [Ha Hs Hg]
        · isplitl [Ha]; · iexact Ha
          isplitl [Hs]
          · iexists _; isplitl [Hs]; · iexact Hs
            ipureintro; exact slabOK_new m c t hI S (fun h => absurd hz h)
          iexact Hg
        isplitl [Ho]; · iexact Ho
        isplitl [H0]; · iexact H0
        isplitl [H1]; · iexact H1
        isplitl [H2]; · iexact H2
        isplitl [H3]; · iexact H3
        iexact H4
      · rw [PhiS_castSucc, PhiS_pos m c _ _ hz]
        iintro ⟨⟨Ha, ⟨%S, Hs, %hS⟩, Hg⟩, Ho, ⟨%d0, H0⟩, ⟨%d1, H1⟩, ⟨%d2, H2⟩, ⟨%d3, H3⟩, H4⟩
        iapply (run_A c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (iblk m c 0 t) (iblk m c 1 t) (iblk m c 2 t) (iblk m c 3 t) S hK hI hL _ _)
        isplitl [H0]; · iexact H0
        isplitl [H1]; · iexact H1
        isplitl [H2]; · iexact H2
        isplitl [H3]; · iexact H3
        isplitl [H4]; · iexact H4
        isplitl [Ha]; · iexists _; iexact Ha
        isplitl [Hs]; · iexact Hs
        iintro ⟨H0, H1, H2, H3, H4, Ha, Hs⟩
        isplitl [Ha Hs Hg]
        · isplitl [Ha]; · iexact Ha
          isplitl [Hs]
          · iexists _; isplitl [Hs]; · iexact Hs
            ipureintro; exact slabOK_new m c t hI S (fun _ => hS)
          iexact Hg
        isplitl [Ho]; · iexact Ho
        isplitl [H0]; · iexact H0
        isplitl [H1]; · iexact H1
        isplitl [H2]; · iexact H2
        isplitl [H3]; · iexact H3
        iexact H4
    · have hi : ¬ (t.val / 16) % 8 = 0 := fun h => hI ((isI0_iff t).mpr h)
      have hz : t.val ≠ 0 := by omega
      rw [PhiS_castSucc, PhiS_pos m c _ _ hz]
      iintro ⟨⟨Ha, ⟨%S, Hs, %hS⟩, Hg⟩, Ho, ⟨%d0, H0⟩, ⟨%d1, H1⟩, ⟨%d2, H2⟩, ⟨%d3, H3⟩, H4⟩
      rw [← rowsOld_eq m c t hi S hS]
      iapply (run_B c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (iblk m c 0 t) (iblk m c 1 t) (iblk m c 2 t) (iblk m c 3 t) S hK hI hL _ _)
      isplitl [H0]; · iexact H0
      isplitl [H1]; · iexact H1
      isplitl [H2]; · iexact H2
      isplitl [H3]; · iexact H3
      isplitl [H4]; · iexact H4
      isplitl [Ha]; · iexists _; iexact Ha
      isplitl [Hs]; · iexact Hs
      iintro ⟨H0, H1, H2, H3, H4, Ha, Hs⟩
      isplitl [Ha Hs Hg]
      · isplitl [Ha]; · iexact Ha
        isplitl [Hs]
        · iexists _; isplitl [Hs]; · iexact Hs
          ipureintro; exact slabOK_keep m c t hi S hS
        iexact Hg
      isplitl [Ho]; · iexact Ho
      isplitl [H0]; · iexact H0
      isplitl [H1]; · iexact H1
      isplitl [H2]; · iexact H2
      isplitl [H3]; · iexact H3
      iexact H4
  · have hk : ¬ t.val % 16 = 0 := fun h => hK ((isK0_iff t).mpr h)
    have hz : t.val ≠ 0 := by omega
    rw [a0At_step m c t hk]
    by_cases hL : IsKL t
    · rw [leaves_out_last m c t hL]; unfold outF; rw [a0At_step m c t hk]
      by_cases hI : IsI0 t
      · have hi : (t.val / 16) % 8 = 0 := (isI0_iff t).mp hI
        rw [rows_of_I0 m c t hI]
        rw [PhiS_castSucc, PhiS_pos m c _ _ hz]
        iintro ⟨⟨Ha, ⟨%S, Hs, %hS⟩, Hg⟩, Ho, ⟨%d0, H0⟩, ⟨%d1, H1⟩, ⟨%d2, H2⟩, ⟨%d3, H3⟩, ⟨%d4, H4⟩⟩
        iapply (run_E c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (iblk m c 0 t) (iblk m c 1 t) (iblk m c 2 t) (iblk m c 3 t) (accF m c (t.val - 1) (by omega)) S hK hI hL _)
        isplitl [H0]; · iexact H0
        isplitl [H1]; · iexact H1
        isplitl [H2]; · iexact H2
        isplitl [H3]; · iexact H3
        isplitl [H4]; · iexists _; iexact H4
        isplitl [Ha]; · iexact Ha
        isplitl [Hs]; · iexact Hs
        iintro ⟨H0, H1, H2, H3, H4, Ha, Hs⟩
        isplitl [Ha Hs Hg]
        · isplitl [Ha]; · iexact Ha
          isplitl [Hs]
          · iexists _; isplitl [Hs]; · iexact Hs
            ipureintro; exact slabOK_new m c t hI S (fun _ => hS)
          iexact Hg
        isplitl [Ho]; · iexact Ho
        isplitl [H0]; · iexact H0
        isplitl [H1]; · iexact H1
        isplitl [H2]; · iexact H2
        isplitl [H3]; · iexact H3
        iexact H4
      · have hi : ¬ (t.val / 16) % 8 = 0 := fun h => hI ((isI0_iff t).mpr h)
        rw [PhiS_castSucc, PhiS_pos m c _ _ hz]
        iintro ⟨⟨Ha, ⟨%S, Hs, %hS⟩, Hg⟩, Ho, ⟨%d0, H0⟩, ⟨%d1, H1⟩, ⟨%d2, H2⟩, ⟨%d3, H3⟩, ⟨%d4, H4⟩⟩
        rw [← rowsOld_eq m c t hi S hS]
        iapply (run_F c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (iblk m c 0 t) (iblk m c 1 t) (iblk m c 2 t) (iblk m c 3 t) (accF m c (t.val - 1) (by omega)) S hK hI hL _)
        isplitl [H0]; · iexact H0
        isplitl [H1]; · iexact H1
        isplitl [H2]; · iexact H2
        isplitl [H3]; · iexact H3
        isplitl [H4]; · iexists _; iexact H4
        isplitl [Ha]; · iexact Ha
        isplitl [Hs]; · iexact Hs
        iintro ⟨H0, H1, H2, H3, H4, Ha, Hs⟩
        isplitl [Ha Hs Hg]
        · isplitl [Ha]; · iexact Ha
          isplitl [Hs]
          · iexists _; isplitl [Hs]; · iexact Hs
            ipureintro; exact slabOK_keep m c t hi S hS
          iexact Hg
        isplitl [Ho]; · iexact Ho
        isplitl [H0]; · iexact H0
        isplitl [H1]; · iexact H1
        isplitl [H2]; · iexact H2
        isplitl [H3]; · iexact H3
        iexact H4
    · rw [leaves_out_idle m c t hL]
      by_cases hI : IsI0 t
      · have hi : (t.val / 16) % 8 = 0 := (isI0_iff t).mp hI
        rw [rows_of_I0 m c t hI]
        rw [PhiS_castSucc, PhiS_pos m c _ _ hz]
        iintro ⟨⟨Ha, ⟨%S, Hs, %hS⟩, Hg⟩, Ho, ⟨%d0, H0⟩, ⟨%d1, H1⟩, ⟨%d2, H2⟩, ⟨%d3, H3⟩, H4⟩
        iapply (run_C c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (iblk m c 0 t) (iblk m c 1 t) (iblk m c 2 t) (iblk m c 3 t) (accF m c (t.val - 1) (by omega)) S hK hI hL _ _)
        isplitl [H0]; · iexact H0
        isplitl [H1]; · iexact H1
        isplitl [H2]; · iexact H2
        isplitl [H3]; · iexact H3
        isplitl [H4]; · iexact H4
        isplitl [Ha]; · iexact Ha
        isplitl [Hs]; · iexact Hs
        iintro ⟨H0, H1, H2, H3, H4, Ha, Hs⟩
        isplitl [Ha Hs Hg]
        · isplitl [Ha]; · iexact Ha
          isplitl [Hs]
          · iexists _; isplitl [Hs]; · iexact Hs
            ipureintro; exact slabOK_new m c t hI S (fun _ => hS)
          iexact Hg
        isplitl [Ho]; · iexact Ho
        isplitl [H0]; · iexact H0
        isplitl [H1]; · iexact H1
        isplitl [H2]; · iexact H2
        isplitl [H3]; · iexact H3
        iexact H4
      · have hi : ¬ (t.val / 16) % 8 = 0 := fun h => hI ((isI0_iff t).mpr h)
        rw [PhiS_castSucc, PhiS_pos m c _ _ hz]
        iintro ⟨⟨Ha, ⟨%S, Hs, %hS⟩, Hg⟩, Ho, ⟨%d0, H0⟩, ⟨%d1, H1⟩, ⟨%d2, H2⟩, ⟨%d3, H3⟩, H4⟩
        rw [← rowsOld_eq m c t hi S hS]
        iapply (run_D c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (iblk m c 0 t) (iblk m c 1 t) (iblk m c 2 t) (iblk m c 3 t) (accF m c (t.val - 1) (by omega)) S hK hI hL _ _)
        isplitl [H0]; · iexact H0
        isplitl [H1]; · iexact H1
        isplitl [H2]; · iexact H2
        isplitl [H3]; · iexact H3
        isplitl [H4]; · iexact H4
        isplitl [Ha]; · iexact Ha
        isplitl [Hs]; · iexact Hs
        iintro ⟨H0, H1, H2, H3, H4, Ha, Hs⟩
        isplitl [Ha Hs Hg]
        · isplitl [Ha]; · iexact Ha
          isplitl [Hs]
          · iexists _; isplitl [Hs]; · iexact Hs
            ipureintro; exact slabOK_keep m c t hi S hS
          iexact Hg
        isplitl [Ho]; · iexact Ho
        isplitl [H0]; · iexact H0
        isplitl [H1]; · iexact H1
        isplitl [H2]; · iexact H2
        isplitl [H3]; · iexact H3
        iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have := N_eq; omega), PhiA_eq]
  iintro ⟨Ha, ⟨%S, Hs, -⟩, Hg⟩
  isplitl [Ha Hs]
  · isplitl [Ha]
    · iexists _; iexact Ha
    · iexists _; iexact Hs
  iexact Hg

set_option backward.isDefEq.respectTransparency.types false in
/-- Every weakly fair execution of @main terminates; every array of the pipeline ends at what the library computes
    from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and leaves its four argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Proof.Kernel

end
-- ==== Proof.KBody.lean ====
/-
  The kernel body at a symbolic grid point (j, i, k), by kind of point.

  At the point the body (1) zeroes the f32 accumulator scratch if k = 0; (2) if i = 0, dequantizes the two
  128-row groups of the weight block into rows [256k, 256k+256) of the resident bf16 slab scratch;
  (3) adds x's block times those 256 slab rows to the accumulator; (4) if k = 15 copies the accumulator
  to the output's staging buffer. Each run below is stated over the buffers' contents as functions of
  their indices: the accumulator at `a`, the slab at `S`, the inputs' staging buffers at their blocks.
-/
import proofs.«419571_j47639777247662_3_alg».proof.Proof.Gen.KernelIdeal
import proofs.«419571_j47639777247662_3_alg».proof.Proof.Gen.KernelIdeal.Skeleton
import proofs.«419571_j47639777247662_3_alg».proof.Proof.Gen.KernelIdeal.Launch
import Idealize.ShloMosaic.Lib.Writes
import Idealize.ShloMosaic.Lib.Pipeline.FrameBody
import Idealize.ShloMosaic.Lib.Tactic

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The accumulator and the slab, the kernel's two scratch buffers, whole. -/
abbrev accM : Memref sig .tc .vmem S512x1024 .f32 := Memref.whole cc0_scratch0
abbrev slabM : Memref sig .tc .vmem S4096x1024 .bf16 := Memref.whole cc0_scratch1

/-- The branch conditions at point `t`: "k = 0" as the body computes it, "i = 0" and "k = 15" as printed. -/
abbrev IsK0 (t : Fin cfg0.N) : Prop := Scalar.cmpi .ne (Scalar.extui (Scalar.cmpi .eq (BitVec.ofNat 32 ((grid0.coords t) 2).val) 0#32)) 0#32 = 1#1
abbrev IsI0 (t : Fin cfg0.N) : Prop := k0_cond2 (grid0.coords t) = 1#1
abbrev IsKL (t : Fin cfg0.N) : Prop := k0_cond3 (grid0.coords t) = 1#1

section Runs

variable (c : Dev nD) (t : Fin cfg0.N)
  (M0 : Memref sig .tc .vmem S512x256 .bf16) (h0 : M0.IsWhole) (M1 : Memref sig .tc .vmem S32x1024 .i32) (h1 : M1.IsWhole)
  (M2 : Memref sig .tc .vmem S32x1024 .i32) (h2 : M2.IsWhole) (M3 : Memref sig .tc .vmem S32x1024 .f32) (h3 : M3.IsWhole)
  (M4 : Memref sig .tc .vmem S512x1024 .f32) (h4 : M4.IsWhole)
  (x0 : Vec F S512x256 .bf16) (q0 : Vec F S32x1024 .i32) (z0 : Vec F S32x1024 .i32) (s0 : Vec F S32x1024 .f32)
  (a : Vec F S512x1024 .f32) (S : Vec F S4096x1024 .bf16)

local notation "BODY" => cc0__kernel (grid0.coords t) M0 h0 M1 h1 M2 h2 M3 h3 M4 h4 (Memref.whole cc0_scratch0) (Memref.isWhole_whole _) (Memref.whole cc0_scratch1) (Memref.isWhole_whole _)

/-! ## The rectangles the body reads and writes through -/

/-- The whole accumulator block (and the whole output block): 512 × 1024 at zero offsets. -/
abbrev rA : Rect S512x1024 := Rect.unit (s := S512x1024) ![0, 0] S512x1024.size inb_S512x1024_S512x1024_0_0
/-- x's whole staged block: 512 × 256. -/
abbrev rX : Rect S512x256 := Rect.unit (s := S512x256) ![0, 0] S512x256.size inb_S512x256_S512x256_0_0
/-- The packed weight block's two halves: rows 0–15 and 16–31 (one 128-row group each). -/
abbrev rQ0 : Rect S32x1024 := Rect.unit (s := S32x1024) ![0, 0] S16x1024.size inb_S32x1024_S16x1024_0_0
abbrev rQ1 : Rect S32x1024 := Rect.unit (s := S32x1024) ![16, 0] S16x1024.size inb_S32x1024_S16x1024_16_0
/-- Row 2k (and 2k + 1) of the zero-point and scale blocks: the point's two groups. -/
abbrev rZ0 (t : Fin cfg0.N) (hI : k0_cond2 (grid0.coords t) = 1#1) : Rect S32x1024 :=
  Rect.unit (s := S32x1024) (k0_off1 (grid0.coords t) 0#32) S1x1024.size (k0_off1_inb (grid0.coords t) hI 0)
abbrev rZ1 (t : Fin cfg0.N) (hI : k0_cond2 (grid0.coords t) = 1#1) : Rect S32x1024 :=
  Rect.unit (s := S32x1024) (k0_off1 (grid0.coords t) 1#32) S1x1024.size (k0_off1_inb (grid0.coords t) hI 1)
/-- Rows [256k, 256k + 128) and [256k + 128, 256k + 256) of the slab: where the two groups go. -/
abbrev rS0 (t : Fin cfg0.N) (hI : k0_cond2 (grid0.coords t) = 1#1) : Rect S4096x1024 :=
  Rect.unit (s := S4096x1024) (k0_off2 (grid0.coords t) 0#32) S128x1024.size (k0_off2_inb (grid0.coords t) hI 0)
abbrev rS1 (t : Fin cfg0.N) (hI : k0_cond2 (grid0.coords t) = 1#1) : Rect S4096x1024 :=
  Rect.unit (s := S4096x1024) (k0_off2 (grid0.coords t) 128#32) S128x1024.size (k0_off2_inb (grid0.coords t) hI 1)
/-- Rows [256k, 256k + 256) of the slab: what the matrix product reads. -/
abbrev rK (t : Fin cfg0.N) : Rect S4096x1024 :=
  Rect.unit (s := S4096x1024) (k0_off3 (grid0.coords t)) S256x1024.size (k0_off3_inb (grid0.coords t))

/-! ## What the body computes, over the buffers' contents -/

/-- The point's two dequantized 128-row groups, from the packed block `q`, the zero points `z` and the scales `s`. -/
abbrev grp0 (t : Fin cfg0.N) (hI : k0_cond2 (grid0.coords t) = 1#1) (q : Vec F S32x1024 .i32) (z : Vec F S32x1024 .i32) (s : Vec F S32x1024 .f32) :
    Vec F S128x1024 .bf16 :=
  k0_pay5 (View.ld q rQ0) (View.ld z (rZ0 t hI)) (View.ld s (rZ0 t hI))
abbrev grp1 (t : Fin cfg0.N) (hI : k0_cond2 (grid0.coords t) = 1#1) (q : Vec F S32x1024 .i32) (z : Vec F S32x1024 .i32) (s : Vec F S32x1024 .f32) :
    Vec F S128x1024 .bf16 :=
  k0_pay2 (k0_pay6 (View.ld q rQ1)) k0_pay7 (View.ld z (rZ1 t hI)) (View.ld s (rZ1 t hI))

/-- The two stores into the slab at a point with i = 0, the later one first. -/
abbrev slabPieces (t : Fin cfg0.N) (hI : k0_cond2 (grid0.coords t) = 1#1) (q : Vec F S32x1024 .i32) (z : Vec F S32x1024 .i32) (s : Vec F S32x1024 .f32) :
    List (View.Piece (Elt F) S4096x1024 .bf16) :=
  [⟨rS1 t hI, grp1 t hI q z s⟩, ⟨rS0 t hI, grp0 t hI q z s⟩]

/-- The slab after a point with i = 0: the two groups laid over what it held. -/
abbrev slabNew (t : Fin cfg0.N) (hI : k0_cond2 (grid0.coords t) = 1#1) (S : Vec F S4096x1024 .bf16) (q : Vec F S32x1024 .i32) (z : Vec F S32x1024 .i32) (s : Vec F S32x1024 .f32) :
    Vec F S4096x1024 .bf16 :=
  (rS1 t hI).overlay ((rS0 t hI).overlay S (grp0 t hI q z s)) (grp1 t hI q z s)

/-- The 256 slab rows the product reads: at a point with i = 0, the two groups just stored; -/
abbrev rowsNew (t : Fin cfg0.N) (hI : k0_cond2 (grid0.coords t) = 1#1) (q : Vec F S32x1024 .i32) (z : Vec F S32x1024 .i32) (s : Vec F S32x1024 .f32) :
    Vec F S256x1024 .bf16 :=
  slabM.view.readCov (slabPieces t hI q z s) (rK t).toLoadRect
/-- at any other point, what the slab holds there. -/
abbrev rowsOld (t : Fin cfg0.N) (S : Vec F S4096x1024 .bf16) : Vec F S256x1024 .bf16 := View.ld S (rK t)

/-- The accumulator read back right after the zeroing store. -/
abbrev zeroRead : Vec F S512x1024 .f32 := accM.view.readCov [⟨rA, k0_pay1⟩] rA.toLoadRect

/-- The accumulator after the point: what it held (`a0`) plus x's block times the 256 rows `w`. -/
abbrev accStep (w : Vec F S256x1024 .bf16) (a0 : Vec F S512x1024 .f32) (x : Vec F S512x256 .bf16) : Vec F S512x1024 .f32 :=
  View.canon [⟨rA, k0_pay3 w a0 (View.ld x rX)⟩]

/-- The output block a point with k = 15 stores: the accumulator read back after its store. -/
abbrev outStep (w : Vec F S256x1024 .bf16) (a0 : Vec F S512x1024 .f32) (x : Vec F S512x256 .bf16) : Vec F S512x1024 .f32 :=
  View.canon [⟨rA, accM.view.readCov [⟨rA, k0_pay3 w a0 (View.ld x rX)⟩] rA.toLoadRect⟩]

theorem coverA (p : Vec F S512x1024 .f32) (y : S512x1024.Idx) : ∃ pc ∈ ([⟨rA, p⟩] : List (View.Piece (Elt F) S512x1024 .f32)), y ∈ pc.1.set :=
  View.cover_of_tiled [⟨rA, p⟩] S512x1024.size (by rfl) y

/-- A whole-block store decides the contents, whatever was stored before it. -/
theorem read_writes_whole {sg : RefSig} {κ : Kind} {sp : Space} (v : View sg κ sp S512x1024 .f32) (f : v.ty.Contents (Elt F)) (p : Vec F S512x1024 .f32)
    (L : List (View.Piece (Elt F) S512x1024 .f32)) : v.read (Elt F) (v.writes (Elt F) f (⟨rA, p⟩ :: L)) = View.canon [⟨rA, p⟩] := by
  rw [View.read_writes_of_cover_last v f v f ⟨rA, p⟩ L [] (fun y => by obtain ⟨pc, hm, hy⟩ := coverA p y; rw [List.mem_singleton] at hm; subst hm; exact hy)]
  exact View.read_writes_eq_canon v f _ (coverA p)

/-- One more store through a rectangle lays its payload over what the earlier stores left. -/
theorem read_writes_cons_overlay {sg : RefSig} {κ : Kind} {sp : Space} {s : Shape} {e : EltTy} (v : View sg κ sp s e) (f : v.ty.Contents (Elt F))
    (r : Rect s) (w : r.shape.Idx → Elt F e) (L : List (View.Piece (Elt F) s e)) :
    v.read (Elt F) (v.writes (Elt F) f (⟨r, w⟩ :: L)) = r.overlay (v.read (Elt F) (v.writes (Elt F) f L)) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy, View.writes_cons, View.read_slice_write_of_not_mem r _ _ _ (by rw [Rect.map_emb_univ]; exact hy)]

set_option maxHeartbeats 2000000 in
/-- k = 0, i = 0: the accumulator restarts from zero, the slab takes the point's two groups. -/
theorem run_A (hK : IsK0 t) (hI : IsI0 t) (hL : ¬ IsKL t) (O : sProp 𝕄) (Q : PUnit → sProp 𝕄) :
    iprop(owns (c : Thread nD τ) M0 fullShare x0 ∗ owns (c : Thread nD τ) M1 fullShare q0 ∗ owns (c : Thread nD τ) M2 fullShare z0 ∗ owns (c : Thread nD τ) M3 fullShare s0 ∗ O
      ∗ (∃ a, owns (c : Thread nD τ) accM fullShare a) ∗ owns (c : Thread nD τ) slabM fullShare S
      ∗ (iprop(owns (c : Thread nD τ) M0 fullShare x0 ∗ owns (c : Thread nD τ) M1 fullShare q0 ∗ owns (c : Thread nD τ) M2 fullShare z0 ∗ owns (c : Thread nD τ) M3 fullShare s0 ∗ O
          ∗ owns (c : Thread nD τ) accM fullShare (accStep (rowsNew t hI q0 z0 s0) zeroRead x0)
          ∗ owns (c : Thread nD τ) slabM fullShare (slabNew t hI S q0 z0 s0)) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, HO, ⟨%a', %fa, %hfa, Ha⟩, ⟨%fs, %hfs, Hs⟩, Hk⟩
  subst hf0 hf1 hf2 hf3 hfs
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HO]; · iexact HO
  isplitl [Ha]
  · iexists _; isplitr; swap; (· iexact Ha); ipureintro; exact read_writes_whole _ _ _ _
  · iexists _; isplitr; swap; (· iexact Hs); ipureintro
    exact (read_writes_cons_overlay _ _ _ _ _).trans (congrArg (fun X => Rect.overlay _ X _) (read_writes_cons_overlay _ _ _ _ _))

set_option maxHeartbeats 2000000 in
/-- k = 0, i > 0: the accumulator restarts from zero; the slab is only read. -/
theorem run_B (hK : IsK0 t) (hI : ¬ IsI0 t) (hL : ¬ IsKL t) (O : sProp 𝕄) (Q : PUnit → sProp 𝕄) :
    iprop(owns (c : Thread nD τ) M0 fullShare x0 ∗ owns (c : Thread nD τ) M1 fullShare q0 ∗ owns (c : Thread nD τ) M2 fullShare z0 ∗ owns (c : Thread nD τ) M3 fullShare s0 ∗ O
      ∗ (∃ a, owns (c : Thread nD τ) accM fullShare a) ∗ owns (c : Thread nD τ) slabM fullShare S
      ∗ (iprop(owns (c : Thread nD τ) M0 fullShare x0 ∗ owns (c : Thread nD τ) M1 fullShare q0 ∗ owns (c : Thread nD τ) M2 fullShare z0 ∗ owns (c : Thread nD τ) M3 fullShare s0 ∗ O
          ∗ owns (c : Thread nD τ) accM fullShare (accStep (rowsOld t S) zeroRead x0)
          ∗ owns (c : Thread nD τ) slabM fullShare S) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, HO, ⟨%a', %fa, %hfa, Ha⟩, ⟨%fs, %hfs, Hs⟩, Hk⟩
  subst hf0 hf1 hf2 hf3 hfs
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HO]; · iexact HO
  isplitl [Ha]
  · iexists _; isplitr; swap; (· iexact Ha); ipureintro; exact read_writes_whole _ _ _ _
  · iexists fs; isplitr; (· ipureintro; rfl); iexact Hs

set_option maxHeartbeats 2000000 in
/-- 0 < k < 15, i = 0: the accumulator goes on, the slab takes the point's two groups. -/
theorem run_C (hK : ¬ IsK0 t) (hI : IsI0 t) (hL : ¬ IsKL t) (O : sProp 𝕄) (Q : PUnit → sProp 𝕄) :
    iprop(owns (c : Thread nD τ) M0 fullShare x0 ∗ owns (c : Thread nD τ) M1 fullShare q0 ∗ owns (c : Thread nD τ) M2 fullShare z0 ∗ owns (c : Thread nD τ) M3 fullShare s0 ∗ O
      ∗ owns (c : Thread nD τ) accM fullShare a ∗ owns (c : Thread nD τ) slabM fullShare S
      ∗ (iprop(owns (c : Thread nD τ) M0 fullShare x0 ∗ owns (c : Thread nD τ) M1 fullShare q0 ∗ owns (c : Thread nD τ) M2 fullShare z0 ∗ owns (c : Thread nD τ) M3 fullShare s0 ∗ O
          ∗ owns (c : Thread nD τ) accM fullShare (accStep (rowsNew t hI q0 z0 s0) (View.ld a rA) x0)
          ∗ owns (c : Thread nD τ) slabM fullShare (slabNew t hI S q0 z0 s0)) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, HO, ⟨%fa, %hfa, Ha⟩, ⟨%fs, %hfs, Hs⟩, Hk⟩
  subst hf0 hf1 hf2 hf3 hfa hfs
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HO]; · iexact HO
  isplitl [Ha]
  · iexists _; isplitr; swap; (· iexact Ha); ipureintro; exact read_writes_whole _ _ _ _
  · iexists _; isplitr; swap; (· iexact Hs); ipureintro
    exact (read_writes_cons_overlay _ _ _ _ _).trans (congrArg (fun X => Rect.overlay _ X _) (read_writes_cons_overlay _ _ _ _ _))

set_option maxHeartbeats 2000000 in
/-- 0 < k < 15, i > 0: the accumulator goes on; the slab is only read. -/
theorem run_D (hK : ¬ IsK0 t) (hI : ¬ IsI0 t) (hL : ¬ IsKL t) (O : sProp 𝕄) (Q : PUnit → sProp 𝕄) :
    iprop(owns (c : Thread nD τ) M0 fullShare x0 ∗ owns (c : Thread nD τ) M1 fullShare q0 ∗ owns (c : Thread nD τ) M2 fullShare z0 ∗ owns (c : Thread nD τ) M3 fullShare s0 ∗ O
      ∗ owns (c : Thread nD τ) accM fullShare a ∗ owns (c : Thread nD τ) slabM fullShare S
      ∗ (iprop(owns (c : Thread nD τ) M0 fullShare x0 ∗ owns (c : Thread nD τ) M1 fullShare q0 ∗ owns (c : Thread nD τ) M2 fullShare z0 ∗ owns (c : Thread nD τ) M3 fullShare s0 ∗ O
          ∗ owns (c : Thread nD τ) accM fullShare (accStep (rowsOld t S) (View.ld a rA) x0)
          ∗ owns (c : Thread nD τ) slabM fullShare S) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, HO, ⟨%fa, %hfa, Ha⟩, ⟨%fs, %hfs, Hs⟩, Hk⟩
  subst hf0 hf1 hf2 hf3 hfa hfs
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HO]; · iexact HO
  isplitl [Ha]
  · iexists _; isplitr; swap; (· iexact Ha); ipureintro; exact read_writes_whole _ _ _ _
  · iexists fs; isplitr; (· ipureintro; rfl); iexact Hs

set_option maxHeartbeats 2000000 in
/-- k = 15, i = 0: as the step before, and the accumulator is copied to the output's buffer. -/
theorem run_E (hK : ¬ IsK0 t) (hI : IsI0 t) (hL : IsKL t) (Q : PUnit → sProp 𝕄) :
    iprop(owns (c : Thread nD τ) M0 fullShare x0 ∗ owns (c : Thread nD τ) M1 fullShare q0 ∗ owns (c : Thread nD τ) M2 fullShare z0 ∗ owns (c : Thread nD τ) M3 fullShare s0 ∗ (∃ d, owns (c : Thread nD τ) M4 fullShare d)
      ∗ owns (c : Thread nD τ) accM fullShare a ∗ owns (c : Thread nD τ) slabM fullShare S
      ∗ (iprop(owns (c : Thread nD τ) M0 fullShare x0 ∗ owns (c : Thread nD τ) M1 fullShare q0 ∗ owns (c : Thread nD τ) M2 fullShare z0 ∗ owns (c : Thread nD τ) M3 fullShare s0 ∗ owns (c : Thread nD τ) M4 fullShare (outStep (rowsNew t hI q0 z0 s0) (View.ld a rA) x0)
          ∗ owns (c : Thread nD τ) accM fullShare (accStep (rowsNew t hI q0 z0 s0) (View.ld a rA) x0)
          ∗ owns (c : Thread nD τ) slabM fullShare (slabNew t hI S q0 z0 s0)) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, ⟨%d4, %f4, %hf4, HO⟩, ⟨%fa, %hfa, Ha⟩, ⟨%fs, %hfs, Hs⟩, Hk⟩
  subst hf0 hf1 hf2 hf3 hfa hfs
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HO]; · iexists _; isplitr; swap; (· iexact HO); ipureintro; exact read_writes_whole _ _ _ _
  isplitl [Ha]
  · iexists _; isplitr; swap; (· iexact Ha); ipureintro; exact read_writes_whole _ _ _ _
  · iexists _; isplitr; swap; (· iexact Hs); ipureintro
    exact (read_writes_cons_overlay _ _ _ _ _).trans (congrArg (fun X => Rect.overlay _ X _) (read_writes_cons_overlay _ _ _ _ _))

set_option maxHeartbeats 2000000 in
/-- k = 15, i > 0: the accumulator goes on and is copied to the output's buffer; the slab is only read. -/
theorem run_F (hK : ¬ IsK0 t) (hI : ¬ IsI0 t) (hL : IsKL t) (Q : PUnit → sProp 𝕄) :
    iprop(owns (c : Thread nD τ) M0 fullShare x0 ∗ owns (c : Thread nD τ) M1 fullShare q0 ∗ owns (c : Thread nD τ) M2 fullShare z0 ∗ owns (c : Thread nD τ) M3 fullShare s0 ∗ (∃ d, owns (c : Thread nD τ) M4 fullShare d)
      ∗ owns (c : Thread nD τ) accM fullShare a ∗ owns (c : Thread nD τ) slabM fullShare S
      ∗ (iprop(owns (c : Thread nD τ) M0 fullShare x0 ∗ owns (c : Thread nD τ) M1 fullShare q0 ∗ owns (c : Thread nD τ) M2 fullShare z0 ∗ owns (c : Thread nD τ) M3 fullShare s0 ∗ owns (c : Thread nD τ) M4 fullShare (outStep (rowsOld t S) (View.ld a rA) x0)
          ∗ owns (c : Thread nD τ) accM fullShare (accStep (rowsOld t S) (View.ld a rA) x0)
          ∗ owns (c : Thread nD τ) slabM fullShare S) -∗ Q ⟨⟩))
      ⊢ wp frame (wpE (defs₀ (F := F)) Variants.none c none) Set.univ BODY Q := by
  unfold owns
  iintro ⟨⟨%f0, %hf0, H0⟩, ⟨%f1, %hf1, H1⟩, ⟨%f2, %hf2, H2⟩, ⟨%f3, %hf3, H3⟩, ⟨%d4, %f4, %hf4, HO⟩, ⟨%fa, %hfa, Ha⟩, ⟨%fs, %hfs, Hs⟩, Hk⟩
  subst hf0 hf1 hf2 hf3 hfa hfs
  sl_exec! (disch := assumption)
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [HO]; · iexists _; isplitr; swap; (· iexact HO); ipureintro; exact read_writes_whole _ _ _ _
  isplitl [Ha]
  · iexists _; isplitr; swap; (· iexact Ha); ipureintro; exact read_writes_whole _ _ _ _
  · iexists fs; isplitr; (· ipureintro; rfl); iexact Hs

end Runs
end Cert.Proof.KernelIdeal
end
-- ==== Proof.KSlab.lean ====
/-
  Index facts about the resident slab of dequantized weight rows.

  The grid has 11 · 8 · 16 points; point t has k = t mod 16 (the innermost coordinate). The slab has
  4096 rows of 1024 columns. The product at point t reads rows [256k, 256k + 256); a point with i = 0
  first stores one 128-row group into rows [256k, 256k + 128) and the next into [256k + 128, 256k + 256).
  So the rows a point reads depend on k alone; after the two stores they hold exactly the two groups,
  the first in the lower half and the second in the upper; and the rows read at any k' ≠ k are untouched.
-/
import proofs.«419571_j47639777247662_3_alg».proof.Proof.KBody
import Idealize.ShloMosaic.Lib.Pipeline.FrameBody
import Idealize.ShloMosaic.Lib.ValueIdx

set_option maxRecDepth 16384

noncomputable section

namespace Cert.Proof.KernelIdeal

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The offsets, in closed form -/

omit [FloatOps F] in
theorem off3_ax : ∀ (t : Fin cfg0.N) (a : Fin 2), k0_off3 (grid0.coords t) a = (![256 * (t.val % 16), 0] : Fin 2 → Nat) a :=
  (by decide +kernel : ∀ (t : Fin grid0.N) (a : Fin 2), k0_off3 (grid0.coords t) a = (![256 * (t.val % 16), 0] : Fin 2 → Nat) a)
omit [FloatOps F] in
theorem off2_0_ax : ∀ (t : Fin cfg0.N) (a : Fin 2), k0_off2 (grid0.coords t) 0#32 a = (![256 * (t.val % 16), 0] : Fin 2 → Nat) a :=
  (by decide +kernel : ∀ (t : Fin grid0.N) (a : Fin 2), k0_off2 (grid0.coords t) 0#32 a = (![256 * (t.val % 16), 0] : Fin 2 → Nat) a)
omit [FloatOps F] in
theorem off2_1_ax : ∀ (t : Fin cfg0.N) (a : Fin 2), k0_off2 (grid0.coords t) 128#32 a = (![256 * (t.val % 16) + 128, 0] : Fin 2 → Nat) a :=
  (by decide +kernel : ∀ (t : Fin grid0.N) (a : Fin 2), k0_off2 (grid0.coords t) 128#32 a = (![256 * (t.val % 16) + 128, 0] : Fin 2 → Nat) a)
omit [FloatOps F] in
theorem off1_0_ax : ∀ (t : Fin cfg0.N) (a : Fin 2), k0_off1 (grid0.coords t) 0#32 a = (![2 * (t.val % 16), 0] : Fin 2 → Nat) a :=
  (by decide +kernel : ∀ (t : Fin grid0.N) (a : Fin 2), k0_off1 (grid0.coords t) 0#32 a = (![2 * (t.val % 16), 0] : Fin 2 → Nat) a)
omit [FloatOps F] in
theorem off1_1_ax : ∀ (t : Fin cfg0.N) (a : Fin 2), k0_off1 (grid0.coords t) 1#32 a = (![2 * (t.val % 16) + 1, 0] : Fin 2 → Nat) a :=
  (by decide +kernel : ∀ (t : Fin grid0.N) (a : Fin 2), k0_off1 (grid0.coords t) 1#32 a = (![2 * (t.val % 16) + 1, 0] : Fin 2 → Nat) a)

omit [FloatOps F] in
/-- The rows the product reads start at 256k. -/
theorem off3_eq : ∀ t : Fin cfg0.N, k0_off3 (grid0.coords t) = ![256 * (t.val % 16), 0] := fun t => funext (off3_ax t)
omit [FloatOps F] in
/-- The first group is stored from row 256k, -/
theorem off2_0_eq : ∀ t : Fin cfg0.N, k0_off2 (grid0.coords t) 0#32 = ![256 * (t.val % 16), 0] := fun t => funext (off2_0_ax t)
omit [FloatOps F] in
/-- the second from row 256k + 128. -/
theorem off2_1_eq : ∀ t : Fin cfg0.N, k0_off2 (grid0.coords t) 128#32 = ![256 * (t.val % 16) + 128, 0] := fun t => funext (off2_1_ax t)
omit [FloatOps F] in
/-- The first group's zero points and scales are row 2k of their blocks, -/
theorem off1_0_eq : ∀ t : Fin cfg0.N, k0_off1 (grid0.coords t) 0#32 = ![2 * (t.val % 16), 0] := fun t => funext (off1_0_ax t)
omit [FloatOps F] in
/-- the second group's row 2k + 1. -/
theorem off1_1_eq : ∀ t : Fin cfg0.N, k0_off1 (grid0.coords t) 1#32 = ![2 * (t.val % 16) + 1, 0] := fun t => funext (off1_1_ax t)

/-! ## Where the rectangles place their indices -/

omit [FloatOps F] in
/-- The read rectangle places row j₀ at 256k + j₀, -/
theorem rK_idx_val (t : Fin cfg0.N) (j : S256x1024.Idx) (a : Fin 2) :
    ((rK t).idx j a).val = (![256 * (t.val % 16), 0] : Fin 2 → Nat) a + (j a).val := by
  show k0_off3 (grid0.coords t) a + 1 * (j a).val = _
  rw [off3_ax]; omega

omit [FloatOps F] in
/-- the first group's rectangle row x₀ at 256k + x₀, -/
theorem rS0_emb_val (t : Fin cfg0.N) (hI : IsI0 t) (x : S128x1024.Idx) (a : Fin 2) :
    ((rS0 t hI).emb x a).val = (![256 * (t.val % 16), 0] : Fin 2 → Nat) a + (x a).val := by
  show k0_off2 (grid0.coords t) 0#32 a + 1 * (x a).val = _
  rw [off2_0_ax]; omega

omit [FloatOps F] in
/-- the second group's at 256k + 128 + x₀. -/
theorem rS1_emb_val (t : Fin cfg0.N) (hI : IsI0 t) (x : S128x1024.Idx) (a : Fin 2) :
    ((rS1 t hI).emb x a).val = (![256 * (t.val % 16) + 128, 0] : Fin 2 → Nat) a + (x a).val := by
  show k0_off2 (grid0.coords t) 128#32 a + 1 * (x a).val = _
  rw [off2_1_ax]; omega

omit [FloatOps F] in
/-- The lower half of the rows read is the first group's rectangle, -/
theorem rK_idx_lo (t : Fin cfg0.N) (hI : IsI0 t) (kk : Fin 128) (n : Fin 1024) :
    (rK t).idx (ix2 ⟨kk.val, by omega⟩ n : S256x1024.Idx) = (rS0 t hI).emb (ix2 kk n : S128x1024.Idx) := by
  funext a; apply Fin.ext
  rw [rK_idx_val, rS0_emb_val]
  fin_cases a <;> rfl

omit [FloatOps F] in
/-- the upper half the second group's. -/
theorem rK_idx_hi (t : Fin cfg0.N) (hI : IsI0 t) (kk : Fin 128) (n : Fin 1024) :
    (rK t).idx (ix2 ⟨kk.val + 128, by omega⟩ n : S256x1024.Idx) = (rS1 t hI).emb (ix2 kk n : S128x1024.Idx) := by
  funext a; apply Fin.ext
  rw [rK_idx_val, rS1_emb_val]
  fin_cases a
  · show 256 * (t.val % 16) + (kk.val + 128) = 256 * (t.val % 16) + 128 + kk.val
    omega
  · rfl

omit [FloatOps F] in
/-- The two groups' rectangles do not meet: no row of the first is a row of the second. -/
theorem rS0_emb_not_mem (t : Fin cfg0.N) (hI : IsI0 t) (x : S128x1024.Idx) : (rS0 t hI).emb x ∉ (rS1 t hI).set := by
  rw [Rect.mem_set_unit]
  intro h
  have h0 := (h 0).1
  rw [off2_1_ax, rS0_emb_val] at h0
  have hx := idx2_lt0 (n0 := 128) (n1 := 1024) x
  have h0' : 256 * (t.val % 16) + 128 ≤ 256 * (t.val % 16) + (x 0).val := h0
  omega

omit [FloatOps F] in
/-- The second group laid over the first laid over anything: on the first group's rectangle, the first group; -/
theorem over_lo {α : Type} (t : Fin cfg0.N) (hI : IsI0 t) (X : S4096x1024.Idx → α) (G0 : (rS0 t hI).shape.Idx → α)
    (G1 : (rS1 t hI).shape.Idx → α) (x : (rS0 t hI).shape.Idx) :
    (rS1 t hI).overlay ((rS0 t hI).overlay X G0) G1 ((rS0 t hI).emb x) = G0 x := by
  rw [Rect.overlay_of_not_mem _ _ _ (rS0_emb_not_mem t hI x), Rect.overlay_emb]

omit [FloatOps F] in
/-- on the second group's, the second. -/
theorem over_hi {α : Type} (t : Fin cfg0.N) (hI : IsI0 t) (X : S4096x1024.Idx → α) (G0 : (rS0 t hI).shape.Idx → α)
    (G1 : (rS1 t hI).shape.Idx → α) (x : (rS1 t hI).shape.Idx) :
    (rS1 t hI).overlay ((rS0 t hI).overlay X G0) G1 ((rS1 t hI).emb x) = G1 x :=
  Rect.overlay_emb _ _ _ x

omit [FloatOps F] in
/-- A fact about each of the 256 rows read follows from the fact about rows 0 … 127 and rows 128 … 255. -/
theorem rows_split (P : S256x1024.Idx → Prop) (hlo : ∀ (kk : Fin 128) (n : Fin 1024), P (ix2 ⟨kk.val, by omega⟩ n))
    (hhi : ∀ (kk : Fin 128) (n : Fin 1024), P (ix2 ⟨kk.val + 128, by omega⟩ n)) (j : S256x1024.Idx) : P j := by
  rw [eq_ix2 j]
  have hj := idx2_lt0 (n0 := 256) (n1 := 1024) j
  by_cases h : (j 0).val < 128
  · exact hlo ⟨(j 0).val, h⟩ (j 1)
  · have e : j 0 = (⟨(j 0).val - 128 + 128, by omega⟩ : Fin 256) := Fin.ext (by show (j 0).val = (j 0).val - 128 + 128; omega)
    rw [e]
    exact hhi ⟨(j 0).val - 128, by omega⟩ (j 1)

/-! ## The rows read, after the two stores -/

/-- The lower 128 rows read after the stores are the first group, -/
theorem rowsNew_lo (t : Fin cfg0.N) (hI : IsI0 t) (q : Vec F S32x1024 .i32) (z : Vec F S32x1024 .i32) (s : Vec F S32x1024 .f32)
    (kk : Fin 128) (n : Fin 1024) :
    rowsNew t hI q z s (ix2 ⟨kk.val, by omega⟩ n : S256x1024.Idx) = grp0 t hI q z s (ix2 kk n) := by
  show slabM.view.readCov (slabPieces t hI q z s) (rK t).toLoadRect _ = _
  rw [View.readCov_eq_canon']
  show View.canon (slabPieces t hI q z s) ((rK t).idx _) = _
  rw [rK_idx_lo t hI kk n, View.canon_cons, View.canon_cons]
  exact over_lo t hI _ _ _ _

/-- the upper 128 the second. -/
theorem rowsNew_hi (t : Fin cfg0.N) (hI : IsI0 t) (q : Vec F S32x1024 .i32) (z : Vec F S32x1024 .i32) (s : Vec F S32x1024 .f32)
    (kk : Fin 128) (n : Fin 1024) :
    rowsNew t hI q z s (ix2 ⟨kk.val + 128, by omega⟩ n : S256x1024.Idx) = grp1 t hI q z s (ix2 kk n) := by
  show slabM.view.readCov (slabPieces t hI q z s) (rK t).toLoadRect _ = _
  rw [View.readCov_eq_canon']
  show View.canon (slabPieces t hI q z s) ((rK t).idx _) = _
  rw [rK_idx_hi t hI kk n, View.canon_cons, View.canon_cons]
  exact over_hi t hI _ _ _ _

/-! ## Reading the slab -/

/-- The rows a point reads depend on k alone. -/
theorem ld_rK_congr (S : Vec F S4096x1024 .bf16) (t t' : Fin cfg0.N) (h : t.val % 16 = t'.val % 16) :
    (View.ld S (rK t) : Vec F S256x1024 .bf16) = View.ld S (rK t') := by
  funext j
  show S ((rK t).idx j) = S ((rK t').idx j)
  refine congrArg S (funext fun a => Fin.ext ?_)
  rw [rK_idx_val, rK_idx_val, h]

/-- Read back at the same k, the slab after the two stores holds the two groups, whatever it held before. -/
theorem ld_slabNew_self (t : Fin cfg0.N) (hI : IsI0 t) (S : Vec F S4096x1024 .bf16) (q : Vec F S32x1024 .i32) (z : Vec F S32x1024 .i32) (s : Vec F S32x1024 .f32) :
    (View.ld (slabNew t hI S q z s) (rK t) : Vec F S256x1024 .bf16) = rowsNew t hI q z s := by
  funext j
  revert j
  refine rows_split _ (fun kk n => ?_) (fun kk n => ?_)
  · rw [rowsNew_lo]
    show slabNew t hI S q z s ((rK t).idx _) = _
    rw [rK_idx_lo t hI kk n]
    exact over_lo t hI _ _ _ _
  · rw [rowsNew_hi]
    show slabNew t hI S q z s ((rK t).idx _) = _
    rw [rK_idx_hi t hI kk n]
    exact over_hi t hI _ _ _ _

/-- Read at another k, the slab after the two stores holds what it held before. -/
theorem ld_slabNew_other (t : Fin cfg0.N) (hI : IsI0 t) (S : Vec F S4096x1024 .bf16) (q : Vec F S32x1024 .i32) (z : Vec F S32x1024 .i32) (s : Vec F S32x1024 .f32)
    (t' : Fin cfg0.N) (h : t'.val % 16 ≠ t.val % 16) :
    (View.ld (slabNew t hI S q z s) (rK t') : Vec F S256x1024 .bf16) = View.ld S (rK t') := by
  funext j
  show slabNew t hI S q z s ((rK t').idx j) = S ((rK t').idx j)
  have hj := idx2_lt0 (n0 := 256) (n1 := 1024) j
  have hr : ((rK t').idx j 0).val = 256 * (t'.val % 16) + (j 0).val := rK_idx_val t' j 0
  have n1 : (rK t').idx j ∉ (rS1 t hI).set := by
    rw [Rect.mem_set_unit]; intro hm
    have h0 := hm 0
    rw [off2_1_ax] at h0
    have h0' : 256 * (t.val % 16) + 128 ≤ ((rK t').idx j 0).val ∧ ((rK t').idx j 0).val < 256 * (t.val % 16) + 128 + 128 := h0
    omega
  have n0 : (rK t').idx j ∉ (rS0 t hI).set := by
    rw [Rect.mem_set_unit]; intro hm
    have h0 := hm 0
    rw [off2_0_ax] at h0
    have h0' : 256 * (t.val % 16) ≤ ((rK t').idx j 0).val ∧ ((rK t').idx j 0).val < 256 * (t.val % 16) + 128 := h0
    omega
  exact (Rect.overlay_of_not_mem _ _ _ n1).trans (Rect.overlay_of_not_mem _ _ _ n0)

end Cert.Proof.KernelIdeal

end
-- ==== Proof.KRun.lean ====
/-
  The run of the kernel's program: the pipeline's proof data and the launch.

  The grid has 11 · 8 · 16 points t = (j, i, k), k fastest. The kernel carries two scratch buffers from
  point to point: the f32 accumulator and the bf16 slab of dequantized weights. After point t the
  accumulator holds `accF t`, defined by recursion on the point (restarting from zero wherever k = 0)
  from x's blocks and the 256 slab rows `rows t` the product reads at t. Those rows are the two
  dequantized groups stored at the point `base t` = (j, 0, k) of the same column block: at a point with
  i = 0 they were just stored; at a point with i > 0 the slab still holds them. So the invariant keeps the
  slab at SOME contents of which only this is known: for every point t' ≤ t with i = 0 in t's column block,
  rows [256k', 256k' + 256) read `rows t'` (`SlabOK`). The output's staging buffer is stored into only
  where k = 15 and is idle, and not written back, elsewhere.
-/
import proofs.«419571_j47639777247662_3_alg».proof.Proof.KBody
import proofs.«419571_j47639777247662_3_alg».proof.Proof.KSlab
import proofs.«419571_j47639777247662_3_alg».proof.Proof.Gen.KernelIdeal.Frame
import proofs.«419571_j47639777247662_3_alg».proof.Proof.Gen.KernelIdeal.Points
import Idealize.ShloMosaic.Lib.Pipeline.FrameSuffix

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The kinds of point -/

theorem N_eq : cfg0.N = 1408 := N_0

/-- k = 0 iff the point's number is ≡ 0 (mod 16); i = 0 iff its quotient by 16 is ≡ 0 (mod 8); k = 15 iff ≡ 15 (mod 16). -/
theorem isK0_iff : ∀ t : Fin cfg0.N, IsK0 t ↔ t.val % 16 = 0 :=
  (by decide +kernel : ∀ t : Fin grid0.N, (Scalar.cmpi .ne (Scalar.extui (Scalar.cmpi .eq (BitVec.ofNat 32 ((grid0.coords t) 2).val) 0#32)) 0#32 = 1#1) ↔ t.val % 16 = 0)
theorem isI0_iff : ∀ t : Fin cfg0.N, IsI0 t ↔ (t.val / 16) % 8 = 0 :=
  (by decide +kernel : ∀ t : Fin grid0.N, k0_cond2 (grid0.coords t) = 1#1 ↔ (t.val / 16) % 8 = 0)
theorem isKL_iff : ∀ t : Fin cfg0.N, IsKL t ↔ t.val % 16 = 15 :=
  (by decide +kernel : ∀ t : Fin grid0.N, k0_cond3 (grid0.coords t) = 1#1 ↔ t.val % 16 = 15)

/-- The output's window is idle except where k = 15, and written back exactly there. -/
theorem idle4_of_last (t : Fin cfg0.N) (h : IsKL t) : cfg0.idle 4 (grid0.coords t) = false := by
  show (!(k0_cond3 (grid0.coords t) == 1#1)) = false; rw [show (k0_cond3 (grid0.coords t) == 1#1) = true from beq_iff_eq.mpr h]; rfl
theorem idle4_of_not_last (t : Fin cfg0.N) (h : ¬ IsKL t) : cfg0.idle 4 (grid0.coords t) = true := by
  show (!(k0_cond3 (grid0.coords t) == 1#1)) = true; rw [show (k0_cond3 (grid0.coords t) == 1#1) = false from beq_eq_false_iff_ne.mpr h]; rfl
theorem flush4_of_not_last (t : Fin cfg0.N) (h : ¬ IsKL t) : (cfg0.win 4).flush t = false :=
  Bool.eq_false_iff.mpr fun hf => h ((isKL_iff t).mpr ((flush0_4 t).mp hf))

variable (m : (ℓ : Loc nD τ sig) → Buf (Elt F) ℓ) (ρ : Dev nD → PrngReg)

/-! ## What the scratch buffers hold after each point -/

/-- The point (j, 0, k) of t = (j, i, k)'s column block: where the slab rows t reads were stored. -/
def base (t : Fin cfg0.N) : Fin cfg0.N := ⟨t.val - 16 * ((t.val / 16) % 8), lt_of_le_of_lt (Nat.sub_le _ _) t.isLt⟩

theorem base_val (t : Fin cfg0.N) : (base t).val = t.val - 16 * ((t.val / 16) % 8) := rfl

theorem base_I0 (t : Fin cfg0.N) : IsI0 (base t) :=
  (isI0_iff _).mpr (by rw [base_val]; omega)

theorem base_of_I0 (t : Fin cfg0.N) (h : (t.val / 16) % 8 = 0) : base t = t :=
  Fin.ext (by rw [base_val, h]; omega)

/-- The two groups a point b with i = 0 stores, as the 256 rows the product reads there. -/
def rowsAt (c : Dev nD) (b : Fin cfg0.N) (hb : IsI0 b) : Vec F S256x1024 .bf16 :=
  rowsNew b hb (iblk m c 1 b) (iblk m c 2 b) (iblk m c 3 b)

theorem rowsAt_congr (c : Dev nD) (b b' : Fin cfg0.N) (h : b = b') (hb : IsI0 b) (hb' : IsI0 b') : rowsAt m c b hb = rowsAt m c b' hb' := by
  subst h; rfl

/-- The 256 slab rows the product reads at t. -/
def rows (c : Dev nD) (t : Fin cfg0.N) : Vec F S256x1024 .bf16 := rowsAt m c (base t) (base_I0 t)

theorem rows_of_I0 (c : Dev nD) (t : Fin cfg0.N) (hI : IsI0 t) : rows m c t = rowsNew t hI (iblk m c 1 t) (iblk m c 2 t) (iblk m c 3 t) :=
  rowsAt_congr m c _ _ (base_of_I0 t ((isI0_iff t).mp hI)) _ _

theorem rows_base (c : Dev nD) (t : Fin cfg0.N) : rows m c (base t) = rows m c t :=
  rowsAt_congr m c _ _ (base_of_I0 _ ((isI0_iff _).mp (base_I0 t))) _ _

/-- The accumulator after point n: x's block times the rows, onto zero where k = 0, else onto what the point before left. -/
def accF (c : Dev nD) : (n : ℕ) → n < cfg0.N → Vec F S512x1024 .f32
  | 0, h => accStep (rows m c ⟨0, h⟩) zeroRead (iblk m c 0 ⟨0, h⟩)
  | n + 1, h => accStep (rows m c ⟨n + 1, h⟩) (if (n + 1) % 16 = 0 then zeroRead else View.ld (accF c n (Nat.lt_of_succ_lt h)) rA) (iblk m c 0 ⟨n + 1, h⟩)

/-- The accumulator the step at t adds onto. -/
def a0At (c : Dev nD) (t : Fin cfg0.N) : Vec F S512x1024 .f32 :=
  if t.val % 16 = 0 then zeroRead else View.ld (accF m c (t.val - 1) (lt_of_le_of_lt (Nat.sub_le _ _) t.isLt)) rA

theorem accF_eq (c : Dev nD) (t : Fin cfg0.N) : accF m c t.val t.isLt = accStep (rows m c t) (a0At m c t) (iblk m c 0 t) := by
  obtain ⟨n, hn⟩ := t
  cases n with
  | zero => show accStep _ zeroRead _ = accStep _ (a0At m c ⟨0, hn⟩) _; unfold a0At; rw [if_pos (by rfl)]
  | succ n => rfl

theorem a0At_K0 (c : Dev nD) (t : Fin cfg0.N) (h : t.val % 16 = 0) : a0At m c t = zeroRead := by unfold a0At; rw [if_pos h]
theorem a0At_step (c : Dev nD) (t : Fin cfg0.N) (h : ¬ t.val % 16 = 0) :
    a0At m c t = View.ld (accF m c (t.val - 1) (lt_of_le_of_lt (Nat.sub_le _ _) t.isLt)) rA := by unfold a0At; rw [if_neg h]

/-- What is known of the slab after point n: every point t' ≤ n with i = 0 in n's column block finds its rows. -/
def SlabOK (c : Dev nD) (n : ℕ) (S : Vec F S4096x1024 .bf16) : Prop :=
  ∀ t' : Fin cfg0.N, t'.val ≤ n → t'.val / 128 = n / 128 → (t'.val / 16) % 8 = 0 → (View.ld S (rK t') : Vec F S256x1024 .bf16) = rows m c t'

/-- At a point with i > 0 the slab rows read are the ones `base t` stored. -/
theorem rowsOld_eq (c : Dev nD) (t : Fin cfg0.N) (hI : ¬ (t.val / 16) % 8 = 0) (S : Vec F S4096x1024 .bf16) (hS : SlabOK m c (t.val - 1) S) :
    rowsOld t S = rows m c t := by
  have hN := N_eq; have ht := t.isLt
  show (View.ld S (rK t) : Vec F S256x1024 .bf16) = _
  rw [ld_rK_congr S t (base t) (by rw [base_val]; omega), hS (base t) (by rw [base_val]; omega) (by rw [base_val]; omega) (by rw [base_val]; omega), rows_base]

/-- After a point with i = 0 stored its groups, the slab still satisfies the invariant. -/
theorem slabOK_new (c : Dev nD) (t : Fin cfg0.N) (hI : IsI0 t) (S : Vec F S4096x1024 .bf16) (hS : t.val ≠ 0 → SlabOK m c (t.val - 1) S) :
    SlabOK m c t.val (slabNew t hI S (iblk m c 1 t) (iblk m c 2 t) (iblk m c 3 t)) := by
  have hi := (isI0_iff t).mp hI
  intro t' h1 h2 h3
  by_cases he : t' = t
  · subst he; rw [ld_slabNew_self, rows_of_I0 m c t' hI]
  · have hne : t'.val ≠ t.val := fun h => he (Fin.ext h)
    rw [ld_slabNew_other t hI S _ _ _ t' (by omega)]
    exact hS (by omega) t' (by omega) (by omega) h3

/-- After a point with i > 0 the slab is as before, and so is what is known of it. -/
theorem slabOK_keep (c : Dev nD) (t : Fin cfg0.N) (hI : ¬ (t.val / 16) % 8 = 0) (S : Vec F S4096x1024 .bf16) (hS : SlabOK m c (t.val - 1) S) :
    SlabOK m c t.val S := by
  intro t' h1 h2 h3
  exact hS t' (by omega) (by omega) h3

/-! ## The proof data -/

/-- The class invariant with the two scratch buffers as memrefs owned at some contents. -/
theorem PhiA_eq (c : Dev nD) :
    (Pipeline.ΦA spec0 c : sProp 𝕄)
      = iprop(((∃ d, owns (c : Thread nD τ) accM fullShare d) ∗ (∃ d, owns (c : Thread nD τ) slabM fullShare d)) ∗ (∃ r, prngReg c r)) := by
  unfold Pipeline.ΦA; rw [scopedRest0_eq]; simp only [accM, slabM, owns_whole]; rfl

/-- The invariant before point n: before the first point the class's (both scratch buffers at anything); afterwards
    the accumulator at what the point before left, the slab at some contents satisfying `SlabOK`. -/
def PhiS (c : Dev nD) : (n : ℕ) → n ≤ cfg0.N → sProp 𝕄
  | 0, _ => Pipeline.ΦA spec0 c
  | n + 1, hn => iprop(owns (c : Thread nD τ) accM fullShare (accF m c n hn)
      ∗ (∃ S, owns (c : Thread nD τ) slabM fullShare S ∗ ⌜SlabOK m c n S⌝) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(owns (c : Thread nD τ) accM fullShare (accF m c n hn)
      ∗ (∃ S, owns (c : Thread nD τ) slabM fullShare S ∗ ⌜SlabOK m c n S⌝) ∗ (∃ r, prngReg c r)) := rfl
theorem PhiS_pos (c : Dev nD) (n : ℕ) (h : n ≤ cfg0.N) (hz : n ≠ 0) :
    PhiS m c n h = iprop(owns (c : Thread nD τ) accM fullShare (accF m c (n - 1) (by omega))
      ∗ (∃ S, owns (c : Thread nD τ) slabM fullShare S ∗ ⌜SlabOK m c (n - 1) S⌝) ∗ (∃ r, prngReg c r)) := by
  cases n with
  | zero => exact absurd rfl hz
  | succ n => rfl

/-- The block a point with k = 15 leaves in the output's staging buffer (read nowhere else). -/
def outF (c : Dev nD) (t : Fin cfg0.N) : Vec F S512x1024 .f32 := outStep (rows m c t) (a0At m c t) (iblk m c 0 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outF m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outF m c t := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

theorem leaves_in0 (c : Dev nD) (t : Fin cfg0.N) : (dats m 0 c).leavesExact 0 t = owns (c : Thread nD τ) (st0_0 t) fullShare (iblk m c 0 t) := by
  unfold Dat.leavesExact; rw [show cfg0.idle 0 (cfg0.grid.coords t) = false from rfl, after_0]
theorem leaves_in1 (c : Dev nD) (t : Fin cfg0.N) : (dats m 0 c).leavesExact 1 t = owns (c : Thread nD τ) (st0_1 t) fullShare (iblk m c 1 t) := by
  unfold Dat.leavesExact; rw [show cfg0.idle 1 (cfg0.grid.coords t) = false from rfl, after_1]
theorem leaves_in2 (c : Dev nD) (t : Fin cfg0.N) : (dats m 0 c).leavesExact 2 t = owns (c : Thread nD τ) (st0_2 t) fullShare (iblk m c 2 t) := by
  unfold Dat.leavesExact; rw [show cfg0.idle 2 (cfg0.grid.coords t) = false from rfl, after_2]
theorem leaves_in3 (c : Dev nD) (t : Fin cfg0.N) : (dats m 0 c).leavesExact 3 t = owns (c : Thread nD τ) (st0_3 t) fullShare (iblk m c 3 t) := by
  unfold Dat.leavesExact; rw [show cfg0.idle 3 (cfg0.grid.coords t) = false from rfl, after_3]
theorem leaves_out_last (c : Dev nD) (t : Fin cfg0.N) (h : IsKL t) : (dats m 0 c).leavesExact 4 t = owns (c : Thread nD τ) (st0_4 t) fullShare (outF m c t) := by
  unfold Dat.leavesExact; rw [idle4_of_last t h, after_4]
theorem leaves_out_idle (c : Dev nD) (t : Fin cfg0.N) (h : ¬ IsKL t) :
    (dats m 0 c).leavesExact 4 t = iprop(∃ d, owns (c : Thread nD τ) (st0_4 t) fullShare ((dats m 0 c).before 4 t d)) :=
  Dat.leavesExact_idle (dats m 0 c) 4 t (idle4_of_not_last t h) (flush4_of_not_last t h)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
/-- The body at any point, by the point's kind: the run of that kind between the invariant's two forms. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ, leaves_in0, leaves_in1, leaves_in2, leaves_in3, accF_eq]
  have hN := N_eq
  have htN := t.isLt
  by_cases hK : IsK0 t
  · have hk : t.val % 16 = 0 := (isK0_iff t).mp hK
    have hL : ¬ IsKL t := fun h => by have := (isKL_iff t).mp h; omega
    rw [leaves_out_idle m c t hL, a0At_K0 m c t hk]
    by_cases hI : IsI0 t
    · have hi : (t.val / 16) % 8 = 0 := (isI0_iff t).mp hI
      rw [rows_of_I0 m c t hI]
      by_cases hz : t.val = 0
      · rw [PhiS_castSucc, PhiS_zero m c _ _ hz, PhiA_eq]
        iintro ⟨⟨⟨Ha, ⟨%S, Hs⟩⟩, Hg⟩, Ho, ⟨%d0, H0⟩, ⟨%d1, H1⟩, ⟨%d2, H2⟩, ⟨%d3, H3⟩, H4⟩
        iapply (run_A c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (iblk m c 0 t) (iblk m c 1 t) (iblk m c 2 t) (iblk m c 3 t) S hK hI hL _ _)
        isplitl [H0]; · iexact H0
        isplitl [H1]; · iexact H1
        isplitl [H2]; · iexact H2
        isplitl [H3]; · iexact H3
        isplitl [H4]; · iexact H4
        isplitl [Ha]; · iexact Ha
        isplitl [Hs]; · iexact Hs
        iintro ⟨H0, H1, H2, H3, H4, Ha, Hs⟩
        isplitl [Ha Hs Hg]
        · isplitl [Ha]; · iexact Ha
          isplitl [Hs]
          · iexists _; isplitl [Hs]; · iexact Hs
            ipureintro; exact slabOK_new m c t hI S (fun h => absurd hz h)
          iexact Hg
        isplitl [Ho]; · iexact Ho
        isplitl [H0]; · iexact H0
        isplitl [H1]; · iexact H1
        isplitl [H2]; · iexact H2
        isplitl [H3]; · iexact H3
        iexact H4
      · rw [PhiS_castSucc, PhiS_pos m c _ _ hz]
        iintro ⟨⟨Ha, ⟨%S, Hs, %hS⟩, Hg⟩, Ho, ⟨%d0, H0⟩, ⟨%d1, H1⟩, ⟨%d2, H2⟩, ⟨%d3, H3⟩, H4⟩
        iapply (run_A c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (iblk m c 0 t) (iblk m c 1 t) (iblk m c 2 t) (iblk m c 3 t) S hK hI hL _ _)
        isplitl [H0]; · iexact H0
        isplitl [H1]; · iexact H1
        isplitl [H2]; · iexact H2
        isplitl [H3]; · iexact H3
        isplitl [H4]; · iexact H4
        isplitl [Ha]; · iexists _; iexact Ha
        isplitl [Hs]; · iexact Hs
        iintro ⟨H0, H1, H2, H3, H4, Ha, Hs⟩
        isplitl [Ha Hs Hg]
        · isplitl [Ha]; · iexact Ha
          isplitl [Hs]
          · iexists _; isplitl [Hs]; · iexact Hs
            ipureintro; exact slabOK_new m c t hI S (fun _ => hS)
          iexact Hg
        isplitl [Ho]; · iexact Ho
        isplitl [H0]; · iexact H0
        isplitl [H1]; · iexact H1
        isplitl [H2]; · iexact H2
        isplitl [H3]; · iexact H3
        iexact H4
    · have hi : ¬ (t.val / 16) % 8 = 0 := fun h => hI ((isI0_iff t).mpr h)
      have hz : t.val ≠ 0 := by omega
      rw [PhiS_castSucc, PhiS_pos m c _ _ hz]
      iintro ⟨⟨Ha, ⟨%S, Hs, %hS⟩, Hg⟩, Ho, ⟨%d0, H0⟩, ⟨%d1, H1⟩, ⟨%d2, H2⟩, ⟨%d3, H3⟩, H4⟩
      rw [← rowsOld_eq m c t hi S hS]
      iapply (run_B c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (iblk m c 0 t) (iblk m c 1 t) (iblk m c 2 t) (iblk m c 3 t) S hK hI hL _ _)
      isplitl [H0]; · iexact H0
      isplitl [H1]; · iexact H1
      isplitl [H2]; · iexact H2
      isplitl [H3]; · iexact H3
      isplitl [H4]; · iexact H4
      isplitl [Ha]; · iexists _; iexact Ha
      isplitl [Hs]; · iexact Hs
      iintro ⟨H0, H1, H2, H3, H4, Ha, Hs⟩
      isplitl [Ha Hs Hg]
      · isplitl [Ha]; · iexact Ha
        isplitl [Hs]
        · iexists _; isplitl [Hs]; · iexact Hs
          ipureintro; exact slabOK_keep m c t hi S hS
        iexact Hg
      isplitl [Ho]; · iexact Ho
      isplitl [H0]; · iexact H0
      isplitl [H1]; · iexact H1
      isplitl [H2]; · iexact H2
      isplitl [H3]; · iexact H3
      iexact H4
  · have hk : ¬ t.val % 16 = 0 := fun h => hK ((isK0_iff t).mpr h)
    have hz : t.val ≠ 0 := by omega
    rw [a0At_step m c t hk]
    by_cases hL : IsKL t
    · rw [leaves_out_last m c t hL]; unfold outF; rw [a0At_step m c t hk]
      by_cases hI : IsI0 t
      · have hi : (t.val / 16) % 8 = 0 := (isI0_iff t).mp hI
        rw [rows_of_I0 m c t hI]
        rw [PhiS_castSucc, PhiS_pos m c _ _ hz]
        iintro ⟨⟨Ha, ⟨%S, Hs, %hS⟩, Hg⟩, Ho, ⟨%d0, H0⟩, ⟨%d1, H1⟩, ⟨%d2, H2⟩, ⟨%d3, H3⟩, ⟨%d4, H4⟩⟩
        iapply (run_E c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (iblk m c 0 t) (iblk m c 1 t) (iblk m c 2 t) (iblk m c 3 t) (accF m c (t.val - 1) (by omega)) S hK hI hL _)
        isplitl [H0]; · iexact H0
        isplitl [H1]; · iexact H1
        isplitl [H2]; · iexact H2
        isplitl [H3]; · iexact H3
        isplitl [H4]; · iexists _; iexact H4
        isplitl [Ha]; · iexact Ha
        isplitl [Hs]; · iexact Hs
        iintro ⟨H0, H1, H2, H3, H4, Ha, Hs⟩
        isplitl [Ha Hs Hg]
        · isplitl [Ha]; · iexact Ha
          isplitl [Hs]
          · iexists _; isplitl [Hs]; · iexact Hs
            ipureintro; exact slabOK_new m c t hI S (fun _ => hS)
          iexact Hg
        isplitl [Ho]; · iexact Ho
        isplitl [H0]; · iexact H0
        isplitl [H1]; · iexact H1
        isplitl [H2]; · iexact H2
        isplitl [H3]; · iexact H3
        iexact H4
      · have hi : ¬ (t.val / 16) % 8 = 0 := fun h => hI ((isI0_iff t).mpr h)
        rw [PhiS_castSucc, PhiS_pos m c _ _ hz]
        iintro ⟨⟨Ha, ⟨%S, Hs, %hS⟩, Hg⟩, Ho, ⟨%d0, H0⟩, ⟨%d1, H1⟩, ⟨%d2, H2⟩, ⟨%d3, H3⟩, ⟨%d4, H4⟩⟩
        rw [← rowsOld_eq m c t hi S hS]
        iapply (run_F c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (iblk m c 0 t) (iblk m c 1 t) (iblk m c 2 t) (iblk m c 3 t) (accF m c (t.val - 1) (by omega)) S hK hI hL _)
        isplitl [H0]; · iexact H0
        isplitl [H1]; · iexact H1
        isplitl [H2]; · iexact H2
        isplitl [H3]; · iexact H3
        isplitl [H4]; · iexists _; iexact H4
        isplitl [Ha]; · iexact Ha
        isplitl [Hs]; · iexact Hs
        iintro ⟨H0, H1, H2, H3, H4, Ha, Hs⟩
        isplitl [Ha Hs Hg]
        · isplitl [Ha]; · iexact Ha
          isplitl [Hs]
          · iexists _; isplitl [Hs]; · iexact Hs
            ipureintro; exact slabOK_keep m c t hi S hS
          iexact Hg
        isplitl [Ho]; · iexact Ho
        isplitl [H0]; · iexact H0
        isplitl [H1]; · iexact H1
        isplitl [H2]; · iexact H2
        isplitl [H3]; · iexact H3
        iexact H4
    · rw [leaves_out_idle m c t hL]
      by_cases hI : IsI0 t
      · have hi : (t.val / 16) % 8 = 0 := (isI0_iff t).mp hI
        rw [rows_of_I0 m c t hI]
        rw [PhiS_castSucc, PhiS_pos m c _ _ hz]
        iintro ⟨⟨Ha, ⟨%S, Hs, %hS⟩, Hg⟩, Ho, ⟨%d0, H0⟩, ⟨%d1, H1⟩, ⟨%d2, H2⟩, ⟨%d3, H3⟩, H4⟩
        iapply (run_C c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (iblk m c 0 t) (iblk m c 1 t) (iblk m c 2 t) (iblk m c 3 t) (accF m c (t.val - 1) (by omega)) S hK hI hL _ _)
        isplitl [H0]; · iexact H0
        isplitl [H1]; · iexact H1
        isplitl [H2]; · iexact H2
        isplitl [H3]; · iexact H3
        isplitl [H4]; · iexact H4
        isplitl [Ha]; · iexact Ha
        isplitl [Hs]; · iexact Hs
        iintro ⟨H0, H1, H2, H3, H4, Ha, Hs⟩
        isplitl [Ha Hs Hg]
        · isplitl [Ha]; · iexact Ha
          isplitl [Hs]
          · iexists _; isplitl [Hs]; · iexact Hs
            ipureintro; exact slabOK_new m c t hI S (fun _ => hS)
          iexact Hg
        isplitl [Ho]; · iexact Ho
        isplitl [H0]; · iexact H0
        isplitl [H1]; · iexact H1
        isplitl [H2]; · iexact H2
        isplitl [H3]; · iexact H3
        iexact H4
      · have hi : ¬ (t.val / 16) % 8 = 0 := fun h => hI ((isI0_iff t).mpr h)
        rw [PhiS_castSucc, PhiS_pos m c _ _ hz]
        iintro ⟨⟨Ha, ⟨%S, Hs, %hS⟩, Hg⟩, Ho, ⟨%d0, H0⟩, ⟨%d1, H1⟩, ⟨%d2, H2⟩, ⟨%d3, H3⟩, H4⟩
        rw [← rowsOld_eq m c t hi S hS]
        iapply (run_D c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (iblk m c 0 t) (iblk m c 1 t) (iblk m c 2 t) (iblk m c 3 t) (accF m c (t.val - 1) (by omega)) S hK hI hL _ _)
        isplitl [H0]; · iexact H0
        isplitl [H1]; · iexact H1
        isplitl [H2]; · iexact H2
        isplitl [H3]; · iexact H3
        isplitl [H4]; · iexact H4
        isplitl [Ha]; · iexact Ha
        isplitl [Hs]; · iexact Hs
        iintro ⟨H0, H1, H2, H3, H4, Ha, Hs⟩
        isplitl [Ha Hs Hg]
        · isplitl [Ha]; · iexact Ha
          isplitl [Hs]
          · iexists _; isplitl [Hs]; · iexact Hs
            ipureintro; exact slabOK_keep m c t hi S hS
          iexact Hg
        isplitl [Ho]; · iexact Ho
        isplitl [H0]; · iexact H0
        isplitl [H1]; · iexact H1
        isplitl [H2]; · iexact H2
        isplitl [H3]; · iexact H3
        iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have := N_eq; omega), PhiA_eq]
  iintro ⟨Ha, ⟨%S, Hs, -⟩, Hg⟩
  isplitl [Ha Hs]
  · isplitl [Ha]
    · iexists _; iexact Ha
    · iexists _; iexact Hs
  iexact Hg

set_option backward.isDefEq.respectTransparency.types false in
/-- Every weakly fair execution of @main terminates; every array of the pipeline ends at what the library computes
    from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and leaves its four argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Proof.KernelIdeal

end
-- ==== Proof.Spec.lean ====
/-
  The specification both programs are compared with, stated with no program in sight.

  A packed word holds eight 4-bit values; value p of word q is (q >> 4p) & 15, where the shift is the
  arithmetic one (for p ≤ 7 the mask removes the sign extension, so the kind of shift does not matter,
  but both programs shift arithmetically and so does this definition).

  The dequantized weight at row kk (0 ≤ kk < 4096) and column n (0 ≤ n < 11008) is
      W kk n = (value (kk mod 8) of qweight[kk / 8, n]  −  value (n mod 8) of qzeros[kk / 128, n / 8]) · scales[kk / 128, n]
  (integers converted exactly to reals), and the result is the matrix product
      out[b, s, n] = Σ_kk x[b, s, kk] · W kk n
  over the extended reals.
-/
import Idealize.ShloMosaic.PureOps.Ideal
import Idealize.ShloMosaic.Lib.ValueIdx

noncomputable section

open scoped BigOperators

namespace Cert.QL

open Idealize.ShloMosaic Idealize.ShloMosaic.ValueIdx

abbrev SX : Shape := ⟨3, ![4, 1024, 4096]⟩
abbrev SQW : Shape := ⟨2, ![512, 11008]⟩
abbrev SQZ : Shape := ⟨2, ![32, 1376]⟩
abbrev SSC : Shape := ⟨2, ![32, 11008]⟩
abbrev SOUT : Shape := ⟨3, ![4, 1024, 11008]⟩

/-- Value `p` of the eight 4-bit values packed in the word `q`. -/
def nib (q : BitVec 32) (p : ℕ) : BitVec 32 :=
  IntOp.andi (q.sshiftRight' (IntOp.muli (BitVec.ofNat 32 p) 4#32)) 15#32

/-- A 32-bit integer as an extended real (the exact conversion). -/
abbrev toR (b : BitVec 32) : EReal := FloatOps.sitofp (F := Ideal) .f32 b

theorem lt512 (kk : Fin 4096) : kk.val / 8 < 512 := by have := kk.isLt; omega
theorem lt32 (kk : Fin 4096) : kk.val / 128 < 32 := by have := kk.isLt; omega
theorem lt1376 (n : Fin 11008) : n.val / 8 < 1376 := by have := n.isLt; omega

/-- The dequantized weight at row `kk`, column `n`. -/
def wEntry (qw : SQW.Idx → BitVec 32) (qz : SQZ.Idx → BitVec 32) (sc : SSC.Idx → EReal) (kk : Fin 4096) (n : Fin 11008) : EReal :=
  (toR (nib (qw (ix2 ⟨kk.val / 8, lt512 kk⟩ n)) (kk.val % 8))
    - toR (nib (qz (ix2 ⟨kk.val / 128, lt32 kk⟩ ⟨n.val / 8, lt1376 n⟩)) (n.val % 8)))
   * sc (ix2 ⟨kk.val / 128, lt32 kk⟩ n)

/-- The result both programs compute: x times the dequantized weight. -/
def G (x : SX.Idx → EReal) (qw : SQW.Idx → BitVec 32) (qz : SQZ.Idx → BitVec 32) (sc : SSC.Idx → EReal) : SOUT.Idx → EReal :=
  fun i => ∑ kk : Fin 4096, x (ix3 (i 0) (i 1) kk) * wEntry qw qz sc kk (i 2)

end Cert.QL

end
-- ==== Proof.KPay.lean ====
/-
  The kernel body's payloads read at one index, at the ideal values (floats are extended reals, format changes
  are the identity).

  * The zero payload is the f32 zero word everywhere, the extended real 0.
  * The dequantizing payloads: sixteen rows of packed words are repeated along a new axis of eight positions;
    position p shifts its copy right (arithmetically) by 4p — an amount below the word width, so the shift is the
    plain one — and masks with 15; the [16, 8, 1024] result read as [128, 1024] has, at row r, the word of packed
    row r / 8 at position r % 8. That integer is converted exactly, the one-row zero point (converted likewise)
    is subtracted and the one-row scale multiplied, both rows repeated over the 128 rows.
  * The accumulating payload: a matrix product into the zero accumulator is the sum over the contracted axis (256)
    of the products of the entries; it is added to the running block.
-/
import proofs.«419571_j47639777247662_3_alg».proof.Proof.Gen.KernelIdeal.Skeleton
import proofs.«419571_j47639777247662_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.QL.Pay

open Cert.KernelIdeal Cert.KernelIdeal.Gen Cert.QL Idealize.ShloMosaic Idealize.ShloMosaic.ValueIdx

/-! ## The zero payload -/

theorem pay1_apply (y : S512x1024.Idx) : k0_pay1 (F := Ideal) y = 0 := by
  unfold k0_pay1
  rw [shapeCast_self]
  exact Ideal.ofBits_zero_f32

/-! ## The dequantizing payloads -/

/-- Four times a position below eight is a shift amount below the word width. -/
theorem shift_lt (b : Fin 8) : (IntOp.muli (BitVec.ofNat 32 b.val) 4#32).toNat < 32 := by
  revert b; decide

/-- The shift amounts: at position b of the middle axis, 4b. -/
theorem pay4_apply (a : Fin 16) (b : Fin 8) (n : Fin 1024) :
    k0_pay4 (ix3 a b n) = IntOp.muli (BitVec.ofNat 32 b.val) 4#32 := by
  unfold k0_pay4
  show IntOp.muli (iota .tc S16x8x1024 32 [1] iota_S16x8x1024_d1_w32 (ix3 a b n)) 4#32 = _
  rw [iota_single_apply]

/-- Sixteen rows repeated along a new middle axis of eight: at (a, b, n) the entry (a, n). -/
theorem repeat_apply {α : Type} (v : S16x1024.Idx → α) (a : Fin 16) (b : Fin 8) (n : Fin 1024) :
    broadcastTo S16x8x1024
        (shapeCast S16x1x1024 (shapeCast S16x1024 v shapeCasts_S16x1024_S16x1024) shapeCasts_S16x1024_S16x1x1024)
        broadcasts_S16x1x1024_S16x8x1024 (ix3 a b n) = v (ix2 a n) := by
  rw [shapeCast_self]
  refine (broadcastTo_apply _ broadcasts_S16x1x1024_S16x8x1024 (ix3 a b n) (ix3 a (0 : Fin 1) n) fun ax => ?_).trans ?_
  · match ax with
    | ⟨0, _⟩ => rfl
    | ⟨1, _⟩ => rfl
    | ⟨2, _⟩ => rfl
  · exact shapeCast_apply v shapeCasts_S16x1024_S16x1x1024 (ix3 a (0 : Fin 1) n) (ix2 a n) (by
      rw [Shape.rowMajor_val_two, Shape.rowMajor_val_three]
      show a.val * 1024 + n.val = (a.val * 1 + 0) * 1024 + n.val
      omega)

/-- A [16, 8, 1024] array read as [128, 1024]: row r is position r % 8 of row r / 8. -/
theorem reshape_apply {α : Type} (x : S16x8x1024.Idx → α) (r : Fin 128) (n : Fin 1024) :
    shapeCast S128x1024 x shapeCasts_S16x8x1024_S128x1024 (ix2 r n)
      = x (ix3 (⟨r.val / 8, by have := r.isLt; omega⟩ : Fin 16) (⟨r.val % 8, Nat.mod_lt _ (by decide)⟩ : Fin 8) n) :=
  shapeCast_apply x shapeCasts_S16x8x1024_S128x1024 _ _ (by
    rw [Shape.rowMajor_val_three, Shape.rowMajor_val_two]
    show (r.val / 8 * 8 + r.val % 8) * 1024 + n.val = r.val * 1024 + n.val
    omega)

/-- The dequantizing payload over ANY shifted copies w and mask m: at (r, n), the masked word of row r / 8 at
    position r % 8, converted, less the converted zero point of column n, times the scale of column n. -/
theorem pay2_gen (w m : IVec S16x8x1024 32) (v72 : Vec Ideal S1x1024 .i32) (v75 : Vec Ideal S1x1024 .f32)
    (r : Fin 128) (n : Fin 1024) :
    k0_pay2 (F := Ideal) w m v72 v75 (ix2 r n)
      = (toR (IntOp.andi
            (w (ix3 (⟨r.val / 8, by have := r.isLt; omega⟩ : Fin 16) (⟨r.val % 8, Nat.mod_lt _ (by decide)⟩ : Fin 8) n))
            (m (ix3 (⟨r.val / 8, by have := r.isLt; omega⟩ : Fin 16) (⟨r.val % 8, Nat.mod_lt _ (by decide)⟩ : Fin 8) n)))
          - toR (v72 (ix2 (0 : Fin 1) n))) * v75 (ix2 (0 : Fin 1) n) := by
  unfold k0_pay2
  rw [shapeCast_self, shapeCast_shapeCast, shapeCast_shapeCast, truncf_apply, mulf_apply, subf_apply, sitofp_apply,
    reshape_apply, broadcastTo_1b_ab_apply, broadcastTo_1b_ab_apply]
  rfl

/-- The shifted copies: at (a, b, n) the packed word (a, n) shifted right arithmetically by 4b. -/
theorem pay6_apply (v60 : Vec Ideal S16x1024 .i32) (a : Fin 16) (b : Fin 8) (n : Fin 1024) :
    k0_pay6 (F := Ideal) v60 (ix3 a b n) = (v60 (ix2 a n)).sshiftRight' (IntOp.muli (BitVec.ofNat 32 b.val) 4#32) := by
  unfold k0_pay6
  show IntOp.shrsi .vector (broadcastTo S16x8x1024 _ broadcasts_S16x1x1024_S16x8x1024 (ix3 a b n)) (k0_pay4 (ix3 a b n)) = _
  rw [repeat_apply, pay4_apply]
  exact if_pos (shift_lt b)

theorem pay2_apply (v60 : Vec Ideal S16x1024 .i32) (v72 : Vec Ideal S1x1024 .i32) (v75 : Vec Ideal S1x1024 .f32)
    (r : Fin 128) (n : Fin 1024) :
    k0_pay2 (F := Ideal) (k0_pay6 (F := Ideal) v60) k0_pay7 v72 v75 (ix2 r n)
      = (toR (nib (v60 (ix2 ⟨r.val / 8, by have := r.isLt; omega⟩ n)) (r.val % 8)) - toR (v72 (ix2 (0 : Fin 1) n)))
          * v75 (ix2 (0 : Fin 1) n) := by
  rw [pay2_gen, pay6_apply]
  rfl

/-- The first half's payload is the second half's term over its own loads. -/
theorem pay5_eq (v26 : Vec Ideal S16x1024 .i32) (v38 : Vec Ideal S1x1024 .i32) (v41 : Vec Ideal S1x1024 .f32) :
    k0_pay5 (F := Ideal) v26 v38 v41 = k0_pay2 (F := Ideal) (k0_pay6 (F := Ideal) v26) k0_pay7 v38 v41 := rfl

theorem pay5_apply (v26 : Vec Ideal S16x1024 .i32) (v38 : Vec Ideal S1x1024 .i32) (v41 : Vec Ideal S1x1024 .f32)
    (r : Fin 128) (n : Fin 1024) :
    k0_pay5 (F := Ideal) v26 v38 v41 (ix2 r n)
      = (toR (nib (v26 (ix2 ⟨r.val / 8, by have := r.isLt; omega⟩ n)) (r.val % 8)) - toR (v38 (ix2 (0 : Fin 1) n)))
          * v41 (ix2 (0 : Fin 1) n) :=
  (congrFun (pay5_eq v26 v38 v41) (ix2 r n)).trans (pay2_apply v26 v38 v41 r n)

/-! ## The accumulating payload: a matrix product into the zero accumulator, added to the running block -/

/-- The left operand's row coordinate is the result's row. -/
theorem lhs_0 (i : S512x1024.Idx) (q : dot_S512x256_S256x1024_S512x1024_1_0_0_1_n_n.contr.Idx) :
    (dot_S512x256_S256x1024_S512x1024_1_0_0_1_n_n.lhsIdx i q 0).val = (i 0).val := by
  unfold DotDims.lhsIdx
  rw [dif_neg (show ¬(0 : Fin S512x256.rank) ∈ dot_S512x256_S256x1024_S512x1024_1_0_0_1_n_n.lhsBatch by decide),
    dif_pos (show (0 : Fin S512x256.rank) ∈ dot_S512x256_S256x1024_S512x1024_1_0_0_1_n_n.lhsNonContracting by decide)]
  rfl

/-- The left operand's column coordinate is the contraction position. -/
theorem lhs_1 (i : S512x1024.Idx) (q : dot_S512x256_S256x1024_S512x1024_1_0_0_1_n_n.contr.Idx) :
    (dot_S512x256_S256x1024_S512x1024_1_0_0_1_n_n.lhsIdx i q 1).val = (q ⟨0, by decide⟩).val :=
  dot_S512x256_S256x1024_S512x1024_1_0_0_1_n_n.lhsIdx_val_of_single rfl i q

/-- The right operand's row coordinate is the contraction position. -/
theorem rhs_0 (i : S512x1024.Idx) (q : dot_S512x256_S256x1024_S512x1024_1_0_0_1_n_n.contr.Idx) :
    (dot_S512x256_S256x1024_S512x1024_1_0_0_1_n_n.rhsIdx i q 0).val = (q ⟨0, by decide⟩).val :=
  dot_S512x256_S256x1024_S512x1024_1_0_0_1_n_n.rhsIdx_val_of_single rfl i q

/-- The right operand's column coordinate is the result's column. -/
theorem rhs_1 (i : S512x1024.Idx) (q : dot_S512x256_S256x1024_S512x1024_1_0_0_1_n_n.contr.Idx) :
    (dot_S512x256_S256x1024_S512x1024_1_0_0_1_n_n.rhsIdx i q 1).val = (i 1).val := by
  unfold DotDims.rhsIdx
  rw [dif_neg (show ¬(1 : Fin S256x1024.rank) ∈ dot_S512x256_S256x1024_S512x1024_1_0_0_1_n_n.rhsBatch by decide),
    dif_pos (show (1 : Fin S256x1024.rank) ∈ dot_S512x256_S256x1024_S512x1024_1_0_0_1_n_n.rhsNonContracting by decide)]
  rfl

/-- The product of a 512×256 by a 256×1024 matrix into the zero accumulator, at row p and column n, is the sum over
    the 256 contracted positions of the products of the entries. -/
theorem matmul_zero_apply (A : FVec Ideal S512x256 .bf16) (B : FVec Ideal S256x1024 .bf16) (p : Fin 512) (n : Fin 1024) :
    matmul dot_S512x256_S256x1024_S512x1024_1_0_0_1_n_n none A B (constant (F := Ideal) S512x1024 .f32 0x00000000#32) (ix2 p n)
      = ∑ kk : Fin 256, A (ix2 p kk) * B (ix2 kk n) := by
  refine (Ideal.matmul_constant_zero_apply dot_S512x256_S256x1024_S512x1024_1_0_0_1_n_n none A B (ix2 p n)).trans ?_
  rw [← Equiv.sum_comp (contrEquiv1 dot_S512x256_S256x1024_S512x1024_1_0_0_1_n_n 256 rfl rfl).symm]
  refine Finset.sum_congr rfl fun k _ => ?_
  have hk := contrEquiv1_symm_val dot_S512x256_S256x1024_S512x1024_1_0_0_1_n_n 256 rfl rfl k
  have el : dot_S512x256_S256x1024_S512x1024_1_0_0_1_n_n.lhsIdx (ix2 p n)
      ((contrEquiv1 dot_S512x256_S256x1024_S512x1024_1_0_0_1_n_n 256 rfl rfl).symm k) = ix2 p k :=
    funext fun a => Fin.ext (by
      match a with
      | ⟨0, _⟩ => exact lhs_0 _ _
      | ⟨1, _⟩ => exact (lhs_1 _ _).trans hk)
  have er : dot_S512x256_S256x1024_S512x1024_1_0_0_1_n_n.rhsIdx (ix2 p n)
      ((contrEquiv1 dot_S512x256_S256x1024_S512x1024_1_0_0_1_n_n 256 rfl rfl).symm k) = ix2 k n :=
    funext fun a => Fin.ext (by
      match a with
      | ⟨0, _⟩ => exact (rhs_0 _ _).trans hk
      | ⟨1, _⟩ => exact rhs_1 _ _)
  rw [el, er]

theorem pay3_apply (v9 : Vec Ideal S256x1024 .bf16) (v10 : Vec Ideal S512x1024 .f32) (v11 : Vec Ideal S512x256 .bf16)
    (p : Fin 512) (n : Fin 1024) :
    k0_pay3 (F := Ideal) v9 v10 v11 (ix2 p n) = v10 (ix2 p n) + ∑ kk : Fin 256, v11 (ix2 p kk) * v9 (ix2 kk n) := by
  unfold k0_pay3
  rw [shapeCast_self, shapeCast_self]
  exact congrArg (v10 (ix2 p n) + ·) (matmul_zero_apply v11 v9 p n)

end Cert.QL.Pay

end
-- ==== Proof.KStep.lean ====
/-
  The kernel body's step functions read at one index, at the ideal values.

  A load through the whole-block rectangle reads the block; the accumulator read back after the zeroing store is 0
  everywhere; one step leaves, at (p, n), what the accumulator held plus the sum over the 256 contracted positions of
  x's entry times the slab row's entry; the output block a last step stores is that same accumulator. The two
  dequantized 128-row groups of a point read, at (r, n), the packed word of row r / 8 (of the block's first, resp.
  second, sixteen rows) at position r % 8, less the zero point of the point's row 2k (resp. 2k + 1), times that row's
  scale, where k is the point's position along the contracted grid axis (t mod 16).
-/
import proofs.«419571_j47639777247662_3_alg».proof.Proof.KBody
import proofs.«419571_j47639777247662_3_alg».proof.Proof.KPay
import proofs.«419571_j47639777247662_3_alg».proof.Proof.Spec
import Idealize.ShloMosaic.Lib.Pipeline.Value
import Idealize.ShloMosaic.Lib.Pipeline.FrameBody
import Idealize.ShloMosaic.Lib.ValueIdx

noncomputable section

open scoped BigOperators

namespace Cert.QL.Step

open Cert.Proof.KernelIdeal Cert.KernelIdeal Cert.KernelIdeal.Gen Cert.QL Cert.QL.Pay Idealize.ShloMosaic
  Idealize.ShloMosaic.ValueIdx

/-! ## The whole-block rectangle -/

theorem hz : (![0, 0] : Fin 2 → Nat) = fun _ => 0 :=
  funext fun a => match a with | ⟨0, _⟩ => rfl | ⟨1, _⟩ => rfl

theorem ld_rA (a : Vec Ideal S512x1024 .f32) : (View.ld a rA : Vec Ideal S512x1024 .f32) = a :=
  View.ld_unit_zero (S := S512x1024) hz _ a

theorem ld_rX (x : Vec Ideal S512x256 .bf16) : (View.ld x rX : Vec Ideal S512x256 .bf16) = x :=
  View.ld_unit_zero (S := S512x256) hz _ x

/-- The accumulator read back right after the zeroing store is 0 everywhere. -/
theorem zeroRead_apply (y : S512x1024.Idx) : zeroRead (F := Ideal) y = 0 := by
  unfold zeroRead
  rw [View.readCov_unit_zero (S := S512x1024) _ hz]
  exact pay1_apply y

/-- One step: what the accumulator held plus x's block times the 256 slab rows. -/
theorem accStep_apply (w : Vec Ideal S256x1024 .bf16) (a0 : Vec Ideal S512x1024 .f32) (x : Vec Ideal S512x256 .bf16)
    (p : Fin 512) (n : Fin 1024) :
    accStep (F := Ideal) w a0 x (ix2 p n) = a0 (ix2 p n) + ∑ kk : Fin 256, x (ix2 p kk) * w (ix2 kk n) := by
  unfold accStep
  rw [View.canon_unit_zero (S := S512x1024) hz, ld_rX]
  exact pay3_apply w a0 x p n

/-- The output block a last step stores is the accumulator it leaves. -/
theorem outStep_eq (w : Vec Ideal S256x1024 .bf16) (a0 : Vec Ideal S512x1024 .f32) (x : Vec Ideal S512x256 .bf16) :
    outStep (F := Ideal) w a0 x = accStep (F := Ideal) w a0 x := by
  unfold outStep accStep
  rw [View.readCov_unit_zero (S := S512x1024) _ hz]

/-! ## The point's zero-point and scale rows -/

/-- The first group's row of the zero-point and scale blocks is row 2k, k the point's position along the
    contracted grid axis. -/
theorem off1_0_val : ∀ t : Fin cfg0.N, ∀ a : Fin 2,
    k0_off1 (grid0.coords t) 0#32 a = (![2 * (t.val % 16), 0] : Fin 2 → Nat) a :=
  (by decide +kernel : ∀ t : Fin grid0.N, ∀ a : Fin 2,
    k0_off1 (grid0.coords t) 0#32 a = (![2 * (t.val % 16), 0] : Fin 2 → Nat) a)

/-- The second group's is row 2k + 1. -/
theorem off1_1_val : ∀ t : Fin cfg0.N, ∀ a : Fin 2,
    k0_off1 (grid0.coords t) 1#32 a = (![2 * (t.val % 16) + 1, 0] : Fin 2 → Nat) a :=
  (by decide +kernel : ∀ t : Fin grid0.N, ∀ a : Fin 2,
    k0_off1 (grid0.coords t) 1#32 a = (![2 * (t.val % 16) + 1, 0] : Fin 2 → Nat) a)

/-! ## Loads through the body's rectangles, at an index -/

/-- The packed block's first sixteen rows. -/
theorem ld_rQ0 (q : Vec Ideal S32x1024 .i32) (a : Fin 16) (n : Fin 1024) :
    (View.ld q rQ0 : Vec Ideal S16x1024 .i32) (ix2 a n) = q (ix2 (⟨a.val, by have := a.isLt; omega⟩ : Fin 32) n) :=
  congrArg q (funext fun ax => Fin.ext (by
    match ax with
    | ⟨0, _⟩ => show 0 + 1 * a.val = a.val; omega
    | ⟨1, _⟩ => show 0 + 1 * n.val = n.val; omega))

/-- The packed block's last sixteen rows. -/
theorem ld_rQ1 (q : Vec Ideal S32x1024 .i32) (a : Fin 16) (n : Fin 1024) :
    (View.ld q rQ1 : Vec Ideal S16x1024 .i32) (ix2 a n) = q (ix2 (⟨16 + a.val, by have := a.isLt; omega⟩ : Fin 32) n) :=
  congrArg q (funext fun ax => Fin.ext (by
    match ax with
    | ⟨0, _⟩ => show 16 + 1 * a.val = 16 + a.val; omega
    | ⟨1, _⟩ => show 0 + 1 * n.val = n.val; omega))

/-- Row 2k of a 32-row block, through the first group's one-row rectangle. -/
theorem ld_rZ0 {e : EltTy} (t : Fin cfg0.N) (hI : IsI0 t) (z : Vec Ideal S32x1024 e) (n : Fin 1024) :
    (View.ld z (rZ0 t hI) : Vec Ideal S1x1024 e) (ix2 (0 : Fin 1) n)
      = z (ix2 (⟨2 * (t.val % 16), by omega⟩ : Fin 32) n) :=
  congrArg z (funext fun ax => Fin.ext (by
    match ax with
    | ⟨0, _⟩ =>
      show k0_off1 (grid0.coords t) 0#32 0 + 1 * 0 = 2 * (t.val % 16)
      rw [off1_0_val t 0]; rfl
    | ⟨1, _⟩ =>
      show k0_off1 (grid0.coords t) 0#32 1 + 1 * n.val = n.val
      rw [off1_0_val t 1]; show 0 + 1 * n.val = n.val; omega))

/-- Row 2k + 1, through the second group's. -/
theorem ld_rZ1 {e : EltTy} (t : Fin cfg0.N) (hI : IsI0 t) (z : Vec Ideal S32x1024 e) (n : Fin 1024) :
    (View.ld z (rZ1 t hI) : Vec Ideal S1x1024 e) (ix2 (0 : Fin 1) n)
      = z (ix2 (⟨2 * (t.val % 16) + 1, by omega⟩ : Fin 32) n) :=
  congrArg z (funext fun ax => Fin.ext (by
    match ax with
    | ⟨0, _⟩ =>
      show k0_off1 (grid0.coords t) 1#32 0 + 1 * 0 = 2 * (t.val % 16) + 1
      rw [off1_1_val t 0]; rfl
    | ⟨1, _⟩ =>
      show k0_off1 (grid0.coords t) 1#32 1 + 1 * n.val = n.val
      rw [off1_1_val t 1]; show 0 + 1 * n.val = n.val; omega))

/-! ## The two dequantized groups -/

theorem grp0_apply (t : Fin cfg0.N) (hI : IsI0 t) (q : Vec Ideal S32x1024 .i32) (z : Vec Ideal S32x1024 .i32)
    (s : Vec Ideal S32x1024 .f32) (r : Fin 128) (n : Fin 1024) :
    grp0 (F := Ideal) t hI q z s (ix2 r n)
      = (toR (nib (q (ix2 ⟨r.val / 8, by have := r.isLt; omega⟩ n)) (r.val % 8))
          - toR (z (ix2 ⟨2 * (t.val % 16), by omega⟩ n))) * s (ix2 ⟨2 * (t.val % 16), by omega⟩ n) := by
  refine (pay5_apply (View.ld q rQ0) (View.ld z (rZ0 t hI)) (View.ld s (rZ0 t hI)) r n).trans ?_
  rw [ld_rQ0, ld_rZ0, ld_rZ0]

theorem grp1_apply (t : Fin cfg0.N) (hI : IsI0 t) (q : Vec Ideal S32x1024 .i32) (z : Vec Ideal S32x1024 .i32)
    (s : Vec Ideal S32x1024 .f32) (r : Fin 128) (n : Fin 1024) :
    grp1 (F := Ideal) t hI q z s (ix2 r n)
      = (toR (nib (q (ix2 ⟨16 + r.val / 8, by have := r.isLt; omega⟩ n)) (r.val % 8))
          - toR (z (ix2 ⟨2 * (t.val % 16) + 1, by omega⟩ n))) * s (ix2 ⟨2 * (t.val % 16) + 1, by omega⟩ n) := by
  refine (pay2_apply (View.ld q rQ1) (View.ld z (rZ1 t hI)) (View.ld s (rZ1 t hI)) r n).trans ?_
  rw [ld_rQ1, ld_rZ1, ld_rZ1]

end Cert.QL.Step

end
-- ==== Proof.KBlk.lean ====
/-
  The blocks of the pipelined region read at an index: pure index geometry, for any float instance.

  The region runs over an 11 × 8 × 16 grid whose points are numbered row-major with the last coordinate fastest:
  point t has coordinates j = t / 128 (block column of the result), i = (t / 16) mod 8 (block row of the result) and
  k = t mod 16 (step of the contraction). At point t
    * the activation's block is the 512 × 256 tile at (512 i, 256 k) of the [4096, 4096] matrix;
    * the packed weights' block is the 32 × 1024 tile at (32 k, 1024 j) of the [512, 11264] array;
    * the zero points' and the scales' blocks are the 32 × 1024 tiles at (0, 1024 j) of their [32, 11264] arrays;
    * the result's block is the 512 × 1024 tile at (512 i, 1024 j) of the [4096, 11264] array, written back at the
      last step k = 15.
  Entry (r, n) of the result therefore lies in the block written back at the point 128 (n / 1024) + 16 (r / 512) + 15.
-/
import proofs.«419571_j47639777247662_3_alg».proof.Proof.Gen.KernelIdeal.Frame
import proofs.«419571_j47639777247662_3_alg».proof.Proof.Gen.KernelIdeal.Points
import Idealize.ShloMosaic.Lib.ValueIdx
import Idealize.ShloMosaic.Lib.Pipeline.Value

noncomputable section

namespace Cert.QL.Blk

open Cert.KernelIdeal Cert.KernelIdeal.Gen Idealize.ShloMosaic Idealize.ShloMosaic.ValueIdx
open Idealize.ShloMosaic.TcCoe

variable {F : FTy → Type} [FloatOps F]
variable (m : (ℓ : Loc nD τ sig) → Buf (Elt F) ℓ)

/-! ## Where each window's block sits, in closed form over the grid's points

A point t of the 11 × 8 × 16 grid, numbered row-major with the last coordinate fastest, has coordinates
j = t / 128, i = (t / 16) mod 8, k = t mod 16. -/

omit [FloatOps F] in
/-- The activation's block (512 × 256) at point t starts at row 512 i, column 256 k. -/
theorem act_origin : ∀ (t : Fin cfg0.N) (a : Fin 2),
    (cfg0.win 0).index t a * (cfg0.win 0).size a = (![512 * ((t.val / 16) % 8), 256 * (t.val % 16)] : Fin 2 → Nat) a :=
  (by decide +kernel : ∀ (t : Fin grid0.N) (a : Fin 2),
    win0_0.index t a * win0_0.size a = (![512 * ((t.val / 16) % 8), 256 * (t.val % 16)] : Fin 2 → Nat) a)

omit [FloatOps F] in
/-- The packed weights' block (32 × 1024) at point t starts at row 32 k, column 1024 j. -/
theorem qw_origin : ∀ (t : Fin cfg0.N) (a : Fin 2),
    (cfg0.win 1).index t a * (cfg0.win 1).size a = (![32 * (t.val % 16), 1024 * (t.val / 128)] : Fin 2 → Nat) a :=
  (by decide +kernel : ∀ (t : Fin grid0.N) (a : Fin 2),
    win0_1.index t a * win0_1.size a = (![32 * (t.val % 16), 1024 * (t.val / 128)] : Fin 2 → Nat) a)

omit [FloatOps F] in
/-- The zero points' block (32 × 1024) at point t starts at row 0, column 1024 j. -/
theorem qz_origin : ∀ (t : Fin cfg0.N) (a : Fin 2),
    (cfg0.win 2).index t a * (cfg0.win 2).size a = (![0, 1024 * (t.val / 128)] : Fin 2 → Nat) a :=
  (by decide +kernel : ∀ (t : Fin grid0.N) (a : Fin 2),
    win0_2.index t a * win0_2.size a = (![0, 1024 * (t.val / 128)] : Fin 2 → Nat) a)

omit [FloatOps F] in
/-- The scales' block (32 × 1024) at point t starts at row 0, column 1024 j. -/
theorem sc_origin : ∀ (t : Fin cfg0.N) (a : Fin 2),
    (cfg0.win 3).index t a * (cfg0.win 3).size a = (![0, 1024 * (t.val / 128)] : Fin 2 → Nat) a :=
  (by decide +kernel : ∀ (t : Fin grid0.N) (a : Fin 2),
    win0_3.index t a * win0_3.size a = (![0, 1024 * (t.val / 128)] : Fin 2 → Nat) a)

omit [FloatOps F] in
/-- The result's block (512 × 1024) at point t starts at row 512 i, column 1024 j. -/
theorem out_origin : ∀ (t : Fin cfg0.N) (a : Fin 2),
    (cfg0.win 4).index t a * (cfg0.win 4).size a = (![512 * ((t.val / 16) % 8), 1024 * (t.val / 128)] : Fin 2 → Nat) a :=
  (by decide +kernel : ∀ (t : Fin grid0.N) (a : Fin 2),
    win0_4.index t a * win0_4.size a = (![512 * ((t.val / 16) % 8), 1024 * (t.val / 128)] : Fin 2 → Nat) a)

omit [FloatOps F] in
/-- The result's blocks are whole at every point: 512 rows, 1024 columns. -/
theorem out_whole : ∀ (t : Fin cfg0.N) (a : Fin 2),
    (cfg0.win 4).xsize (cfg0.grid.coords t) a = (![512, 1024] : Fin 2 → Nat) a :=
  (by decide +kernel : ∀ (t : Fin grid0.N) (a : Fin 2),
    win0_4.xsize (grid0.coords t) a = (![512, 1024] : Fin 2 → Nat) a)

/-! ## An index inside a block, as an index of the array -/

omit [FloatOps F] in
/-- The activation's window places index y of its block at point t at (512 i + y₀, 256 k + y₁). -/
theorem act_emb_val (t : Fin cfg0.N) (y : ((cfg0.win 0).xblock (cfg0.grid.coords t)).Idx) (a : Fin 2) :
    (((cfg0.win 0).blk t).view.emb y a).val
      = (![512 * ((t.val / 16) % 8), 256 * (t.val % 16)] : Fin 2 → Nat) a + (y a).val := by
  show (cfg0.win 0).index t a * (cfg0.win 0).size a + 1 * (y a).val = _
  rw [act_origin]; omega

omit [FloatOps F] in
/-- The packed weights' window places index y of its block at point t at (32 k + y₀, 1024 j + y₁). -/
theorem qw_emb_val (t : Fin cfg0.N) (y : ((cfg0.win 1).xblock (cfg0.grid.coords t)).Idx) (a : Fin 2) :
    (((cfg0.win 1).blk t).view.emb y a).val
      = (![32 * (t.val % 16), 1024 * (t.val / 128)] : Fin 2 → Nat) a + (y a).val := by
  show (cfg0.win 1).index t a * (cfg0.win 1).size a + 1 * (y a).val = _
  rw [qw_origin]; omega

omit [FloatOps F] in
/-- The zero points' window places index y of its block at point t at (y₀, 1024 j + y₁). -/
theorem qz_emb_val (t : Fin cfg0.N) (y : ((cfg0.win 2).xblock (cfg0.grid.coords t)).Idx) (a : Fin 2) :
    (((cfg0.win 2).blk t).view.emb y a).val = (![0, 1024 * (t.val / 128)] : Fin 2 → Nat) a + (y a).val := by
  show (cfg0.win 2).index t a * (cfg0.win 2).size a + 1 * (y a).val = _
  rw [qz_origin]; omega

omit [FloatOps F] in
/-- The scales' window places index y of its block at point t at (y₀, 1024 j + y₁). -/
theorem sc_emb_val (t : Fin cfg0.N) (y : ((cfg0.win 3).xblock (cfg0.grid.coords t)).Idx) (a : Fin 2) :
    (((cfg0.win 3).blk t).view.emb y a).val = (![0, 1024 * (t.val / 128)] : Fin 2 → Nat) a + (y a).val := by
  show (cfg0.win 3).index t a * (cfg0.win 3).size a + 1 * (y a).val = _
  rw [sc_origin]; omega

omit [FloatOps F] in
/-- The result's window places index y of its block at point t at (512 i + y₀, 1024 j + y₁). -/
theorem emb4_val (t : Fin cfg0.N) (y : ((cfg0.win 4).xblock (cfg0.grid.coords t)).Idx) (a : Fin 2) :
    (((cfg0.win 4).blk t).view.emb y a).val
      = (![512 * ((t.val / 16) % 8), 1024 * (t.val / 128)] : Fin 2 → Nat) a + (y a).val := by
  show (cfg0.win 4).index t a * (cfg0.win 4).size a + 1 * (y a).val = _
  rw [out_origin]; omega

/-! ## The input blocks read at an index -/

omit [FloatOps F] in
/-- The grid has 1408 points. -/
theorem lt1408 (t : Fin cfg0.N) : t.val < 1408 := Nat.lt_of_lt_of_eq t.isLt Gen.N_0

/-- Entry (p, kk) of the activation's block at point t is entry (512 i + p, 256 k + kk) of the activation. -/
theorem iblk0_apply (c : Dev nD) (t : Fin cfg0.N) (p : Fin 512) (kk : Fin 256) :
    iblk m c 0 t (ix2 p kk)
      = V m c main_v15 (ix2 ⟨512 * ((t.val / 16) % 8) + p.val, by have := p.isLt; omega⟩
          ⟨256 * (t.val % 16) + kk.val, by have := kk.isLt; omega⟩ : S4096x4096.Idx) := by
  show V m c main_v15 (((cfg0.win 0).blk t).view.emb (ix2 p kk)) = V m c main_v15 _
  refine congrArg _ (funext fun a => Fin.ext ?_)
  rw [act_emb_val]
  match a with
  | ⟨0, _⟩ => rfl
  | ⟨1, _⟩ => rfl

/-- Entry (r, n) of the packed weights' block at point t is entry (32 k + r, 1024 j + n) of the padded packed
    weights. -/
theorem iblk1_apply (c : Dev nD) (t : Fin cfg0.N) (r : Fin 32) (n : Fin 1024) :
    iblk m c 1 t (ix2 r n)
      = V m c main_v11 (ix2 ⟨32 * (t.val % 16) + r.val, by have := r.isLt; omega⟩
          ⟨1024 * (t.val / 128) + n.val, by have := lt1408 t; have := n.isLt; omega⟩ : S512x11264.Idx) := by
  show V m c main_v11 (((cfg0.win 1).blk t).view.emb (ix2 r n)) = V m c main_v11 _
  refine congrArg _ (funext fun a => Fin.ext ?_)
  rw [qw_emb_val]
  match a with
  | ⟨0, _⟩ => rfl
  | ⟨1, _⟩ => rfl

/-- Entry (g, n) of the zero points' block at point t is entry (g, 1024 j + n) of the padded unpacked zero points. -/
theorem iblk2_apply (c : Dev nD) (t : Fin cfg0.N) (g : Fin 32) (n : Fin 1024) :
    iblk m c 2 t (ix2 g n)
      = V m c main_v12 (ix2 g ⟨1024 * (t.val / 128) + n.val, by have := lt1408 t; have := n.isLt; omega⟩ :
          S32x11264.Idx) := by
  show V m c main_v12 (((cfg0.win 2).blk t).view.emb (ix2 g n)) = V m c main_v12 _
  refine congrArg _ (funext fun a => Fin.ext ?_)
  rw [qz_emb_val]
  match a with
  | ⟨0, _⟩ => show 0 + g.val = g.val; omega
  | ⟨1, _⟩ => rfl

/-- Entry (g, n) of the scales' block at point t is entry (g, 1024 j + n) of the padded scales. -/
theorem iblk3_apply (c : Dev nD) (t : Fin cfg0.N) (g : Fin 32) (n : Fin 1024) :
    iblk m c 3 t (ix2 g n)
      = V m c main_v13 (ix2 g ⟨1024 * (t.val / 128) + n.val, by have := lt1408 t; have := n.isLt; omega⟩ :
          S32x11264.Idx) := by
  show V m c main_v13 (((cfg0.win 3).blk t).view.emb (ix2 g n)) = V m c main_v13 _
  refine congrArg _ (funext fun a => Fin.ext ?_)
  rw [sc_emb_val]
  match a with
  | ⟨0, _⟩ => show 0 + g.val = g.val; omega
  | ⟨1, _⟩ => rfl

/-! ## The result's blocks cover the result -/

omit [FloatOps F] in
/-- The point that writes back the block holding row r, column n: the last step (k = 15) of block row r / 512,
    block column n / 1024. -/
def tOf (r : Fin 4096) (n : Fin 11264) : Fin cfg0.N :=
  ⟨128 * (n.val / 1024) + 16 * (r.val / 512) + 15, by
    show _ < grid0.N
    rw [Gen.N_0]
    have := r.isLt
    have := n.isLt
    omega⟩

omit [FloatOps F] in
/-- Every entry of the result lies in a block that is written back. -/
theorem cover4 (i : S4096x11264.Idx) :
    ∃ t : Fin cfg0.N, (cfg0.win 4).flush t = true ∧ i ∈ ((cfg0.win 4).blk t).view.set := by
  have h0 : (i 0 : Nat) < 4096 := (i 0).isLt
  have h1 : (i 1 : Nat) < 11264 := (i 1).isLt
  have ht : (tOf (i 0) (i 1)).val = 128 * ((i 1).val / 1024) + 16 * ((i 0).val / 512) + 15 := rfl
  refine ⟨tOf (i 0) (i 1), (flush0_4 _).mpr (by rw [ht]; omega), ?_⟩
  show i ∈ ((View.whole main_v16).slice (win0_4.rect (tOf (i 0) (i 1)))).set
  rw [View.set_slice_whole, Rect.mem_set_unit]
  intro a
  have ho := out_origin (tOf (i 0) (i 1)) a
  have hw := out_whole (tOf (i 0) (i 1)) a
  match a with
  | ⟨0, _⟩ =>
    show win0_4.index (tOf (i 0) (i 1)) 0 * win0_4.size 0 ≤ (i 0 : Nat)
      ∧ (i 0 : Nat) < win0_4.index (tOf (i 0) (i 1)) 0 * win0_4.size 0 + win0_4.xsize (grid0.coords (tOf (i 0) (i 1))) 0
    rw [show win0_4.index (tOf (i 0) (i 1)) 0 * win0_4.size 0 = 512 * (((tOf (i 0) (i 1)).val / 16) % 8) from ho,
      show win0_4.xsize (grid0.coords (tOf (i 0) (i 1))) 0 = 512 from hw, ht]
    omega
  | ⟨1, _⟩ =>
    show win0_4.index (tOf (i 0) (i 1)) 1 * win0_4.size 1 ≤ (i 1 : Nat)
      ∧ (i 1 : Nat) < win0_4.index (tOf (i 0) (i 1)) 1 * win0_4.size 1 + win0_4.xsize (grid0.coords (tOf (i 0) (i 1))) 1
    rw [show win0_4.index (tOf (i 0) (i 1)) 1 * win0_4.size 1 = 1024 * ((tOf (i 0) (i 1)).val / 128) from ho,
      show win0_4.xsize (grid0.coords (tOf (i 0) (i 1))) 1 = 1024 from hw, ht]
    omega

end Cert.QL.Blk

end
-- ==== Proof.KHost.lean ====
/-
  The host operations around the one pipelined region of the quantized matrix product, read at an index over the
  extended reals.

  Before the region the program prepares four arrays:
    * the activation x of shape [4, 1024, 4096] with its rows laid end to end, a [4096, 4096] matrix whose row r is
      row r mod 1024 of slab r / 1024 (the change of float format that follows is the identity on the extended reals);
    * the packed weights [512, 11008] and the scales [32, 11008], each with 256 zero columns appended on the right:
      below column 11008 they are the arguments themselves;
    * the zero points: every word of the [32, 1376] argument is spread over eight lanes, lane p shifted right
      arithmetically by 4p and masked with 15, the lanes laid end to end to [32, 11008] and 256 zero columns appended:
      column n < 11008 holds value n mod 8 of word n / 8 (the shift amount 4p ≤ 28 is below the word width, so the
      shift is the plain arithmetic one).
  After the region the program keeps the first 11008 columns of the region's [4096, 11264] output and regroups its
  rows 1024 to a slab: entry (b, s, n) of the result is entry (1024 b + s, n) of that output.
-/
import proofs.«419571_j47639777247662_3_alg».proof.Proof.Gen.KernelIdeal.Frame
import proofs.«419571_j47639777247662_3_alg».proof.Proof.Spec
import Idealize.ShloMosaic.Lib.ValueIdx
import Idealize.ShloMosaic.Lib.Pipeline.Value
import Idealize.ShloMosaic.Lib.StableHlo.Run
import Idealize.ShloMosaic.Lib.KernelVsHost

noncomputable section

namespace Cert.QL.KHost

open Cert.KernelIdeal Cert.KernelIdeal.Gen Cert.QL Idealize.ShloMosaic Idealize.ShloMosaic.ValueIdx
open Idealize.ShloMosaic.TcCoe Idealize.ShloMosaic.StableHlo

variable (m : (ℓ : Loc nD τ sig) → Buf (Elt Ideal) ℓ)

/-! ## Layout operations read at an index, over variables of the literal shapes -/

section ReadAtIndex
variable {α : Type}

/-- The rows of a [4, 1024, 4096] array laid end to end: row r of the [4096, 4096] matrix is row r mod 1024 of slab
    r / 1024. -/
theorem reshape_rows_apply (x : S4x1024x4096.Idx → α) (h : S4x1024x4096.ShapeCasts S4096x4096) (r kk : Fin 4096) :
    shapeCast S4096x4096 x h (ix2 r kk)
      = x (ix3 ⟨r.val / 1024, by have := r.isLt; omega⟩ ⟨r.val % 1024, Nat.mod_lt _ (by decide)⟩ kk) := by
  refine shapeCast_apply x h _ _ ?_
  rw [Shape.rowMajor_val_two, Shape.rowMajor_val_three]
  show (r.val / 1024 * 1024 + r.val % 1024) * 4096 + kk.val = r.val * 4096 + kk.val
  have := Nat.div_add_mod' r.val 1024
  omega

/-- A matrix with 11008 columns padded on the right to 11264 columns: below column 11008 it is the matrix itself. -/
theorem pad_cols_apply {a : Nat} (x : (⟨2, ![a, 11008]⟩ : Shape).Idx → α) {u : Shape} (v : u.Idx → α)
    (h : (⟨2, ![a, 11008]⟩ : Shape).Pads ![0, 0] ![0, 256] ![0, 0] ⟨2, ![a, 11264]⟩) (hu : 0 < u.numel)
    (r : Fin a) (n : Fin 11008) :
    pad ⟨2, ![a, 11264]⟩ ![0, 0] ![0, 256] ![0, 0] x v h hu (ix2 r ⟨n.val, by have := n.isLt; omega⟩) = x (ix2 r n) := by
  refine pad_apply_of_inside _ _ _ x v h hu _ _ ?_
  intro b
  match b with
  | ⟨0, _⟩ => show r.val = 0 + r.val * (0 + 1); omega
  | ⟨1, _⟩ => show n.val = 0 + n.val * (0 + 1); omega

/-- The first 11008 columns of a [4096, 11264] matrix, its rows regrouped 1024 to a slab: entry (b, s, n) of the
    result is entry (1024 b + s, n) of the matrix. -/
theorem slice_regroup_apply (A : S4096x11264.Idx → α) (hs : S4096x11264.Slices ![0, 0] S4096x11008)
    (hc : S4096x11008.ShapeCasts S4x1024x11008) (b : Fin 4) (s : Fin 1024) (n : Fin 11008) :
    shapeCast S4x1024x11008 (extractStridedSlice S4096x11008 ![0, 0] A hs) hc (ix3 b s n)
      = A (ix2 ⟨b.val * 1024 + s.val, by have := b.isLt; have := s.isLt; omega⟩ ⟨n.val, by have := n.isLt; omega⟩) := by
  refine (shapeCast_apply _ hc (ix3 b s n)
    (ix2 ⟨b.val * 1024 + s.val, by have := b.isLt; have := s.isLt; omega⟩ n) ?_).trans ?_
  · rw [Shape.rowMajor_val_two, Shape.rowMajor_val_three]
    show (b.val * 1024 + s.val) * 11008 + n.val = (b.val * 1024 + s.val) * 11008 + n.val
    rfl
  · refine extractStridedSlice_apply _ A hs _ _ ?_
    intro a
    match a with
    | ⟨0, _⟩ => show b.val * 1024 + s.val = 0 + (b.val * 1024 + s.val); omega
    | ⟨1, _⟩ => show n.val = 0 + n.val; omega

end ReadAtIndex

/-! ## The zero points unpacked on the host -/

section Unpack

/-- The shift amount 4p of the p-th 4-bit value (p < 8) is below the word width, so the shift is the plain
    arithmetic one. -/
theorem shamt_lt : ∀ p : Fin 8, (IntOp.muli (BitVec.ofNat 32 p.val) 4#32).toNat < 32 := by decide

/-- "Shift right, then keep the low four bits", lane by lane. -/
theorem andi_shrsi_apply {s : Shape} (A B C : s.Idx → BitVec 32) (k : s.Idx) (q amt msk : BitVec 32)
    (hA : A k = q) (hB : B k = amt) (hC : C k = msk) :
    andi (Host.shrsi A B) C k = IntOp.andi (IntOp.shrsi .host q amt) msk := by
  show IntOp.andi (IntOp.shrsi .host (A k) (B k)) (C k) = _
  rw [hA, hB, hC]

/-- Every word of the [32, 1376] array spread over eight lanes, lane p shifted right by 4p and masked to four bits,
    and the lanes laid end to end: column n of the [32, 11008] result is value n mod 8 of word n / 8. -/
theorem unpack_apply (qz : S32x1376.Idx → BitVec 32)
    (h1 : S32x1376x1.BroadcastsInDim S32x1376x8 ![0, 1, 2]) (h2 : S32x1376.BroadcastsInDim S32x1376x1 ![0, 1])
    (h3 : S1x1x8.BroadcastsInDim S32x1376x8 ![0, 1, 2]) (h4 : S8.BroadcastsInDim S1x1x8 ![2])
    (h5 : S_.BroadcastsInDim S8 ![]) (h6 : S_.BroadcastsInDim S32x1376x8 ![])
    (hc : S32x1376x8.ShapeCasts S32x11008) (g : Fin 32) (n : Fin 11008) :
    shapeCast S32x11008
        (andi
          (Host.shrsi
            (broadcastInDim S32x1376x8 ![0, 1, 2] h1 (broadcastInDim S32x1376x1 ![0, 1] h2 qz))
            (broadcastInDim S32x1376x8 ![0, 1, 2] h3
              (broadcastInDim S1x1x8 ![2] h4
                (muli (iotaInDim S8 32 0) (broadcastInDim S8 ![] h5 (constantI S_ 32 4#32))))))
          (broadcastInDim S32x1376x8 ![] h6 (constantI S_ 32 15#32)))
        hc (ix2 g n)
      = nib (qz (ix2 g ⟨n.val / 8, lt1376 n⟩)) (n.val % 8) := by
  have hp : n.val % 8 < 8 := Nat.mod_lt _ (by decide)
  refine (shapeCast_apply _ hc (ix2 g n) (ix3 g ⟨n.val / 8, lt1376 n⟩ ⟨n.val % 8, hp⟩) ?_).trans ?_
  · rw [Shape.rowMajor_val_two, Shape.rowMajor_val_three]
    show (g.val * 1376 + n.val / 8) * 8 + n.val % 8 = g.val * 11008 + n.val
    have := Nat.div_add_mod n.val 8
    omega
  · refine (andi_shrsi_apply _ _ _ _ (qz (ix2 g ⟨n.val / 8, lt1376 n⟩))
      (IntOp.muli (BitVec.ofNat 32 (n.val % 8)) 4#32) 15#32 ?_ ?_ rfl).trans ?_
    · -- the word: broadcast along a new unit axis, then along the eight lanes
      refine (broadcastInDim_apply _ h1 _ _ (ix3 g ⟨n.val / 8, lt1376 n⟩ (0 : Fin 1)) ?_).trans
        (broadcastInDim_apply _ h2 qz _ (ix2 g ⟨n.val / 8, lt1376 n⟩) ?_)
      · intro a
        match a with
        | ⟨0, _⟩ => rfl
        | ⟨1, _⟩ => rfl
        | ⟨2, _⟩ => rfl
      · intro a
        match a with
        | ⟨0, _⟩ => rfl
        | ⟨1, _⟩ => rfl
    · -- the amount: lane p holds 4p
      refine (broadcastInDim_apply _ h3 _ _ (ix3 (0 : Fin 1) (0 : Fin 1) (⟨n.val % 8, hp⟩ : Fin 8)) ?_).trans
        ((broadcastInDim_apply _ h4 _ _ (ix1 (⟨n.val % 8, hp⟩ : Fin 8)) ?_).trans rfl)
      · intro a
        match a with
        | ⟨0, _⟩ => rfl
        | ⟨1, _⟩ => rfl
        | ⟨2, _⟩ => rfl
      · intro a
        match a with
        | ⟨0, _⟩ => rfl
    · unfold nib IntOp.shrsi
      rw [if_pos (shamt_lt ⟨n.val % 8, hp⟩)]

end Unpack

/-! ## The program's host operations, read at an index -/

section Host

/-- The activation as the region finds it: the [4, 1024, 4096] argument with its rows laid end to end (the change
    of float format is the identity on the extended reals). -/
theorem V_v15_eq (c : Dev nD) :
    (V m c main_v15 : S4096x4096.Idx → EReal)
      = truncf (F := Ideal) .bf16
          (shapeCast S4096x4096 (m ((c : Thread nD τ).loc main_arg0) : S4x1024x4096.Idx → EReal)
            Gen.shapeCasts_S4x1024x4096_S4096x4096)
          Gen.bitsLt_bf16_f32 := by
  dsimp only [Gen.V, Gen.V0]
  simp only [hostOps0, hostOps0_1, hostOps0_2, hostOps0_3, hostOps0_4, hostOps0_5, hostOps0_6, List.flatten_cons, List.flatten_nil, List.append_nil, List.cons_append, List.nil_append]
  after_results
  rfl

theorem V_v15_apply (c : Dev nD) (r : Fin 4096) (kk : Fin 4096) :
    V m c main_v15 (ix2 r kk)
      = m ((c : Thread nD τ).loc main_arg0)
          (ix3 ⟨r.val / 1024, by have := r.isLt; omega⟩ ⟨r.val % 1024, Nat.mod_lt _ (by decide)⟩ kk) :=
  (congrFun (V_v15_eq m c) (ix2 r kk)).trans
    (reshape_rows_apply (m ((c : Thread nD τ).loc main_arg0) : S4x1024x4096.Idx → EReal)
      Gen.shapeCasts_S4x1024x4096_S4096x4096 r kk)

/-- The packed weights as the region finds them: the argument with 256 zero columns on the right. -/
theorem V_v11_eq (c : Dev nD) :
    (V m c main_v11 : S512x11264.Idx → BitVec 32)
      = pad S512x11264 ![0, 0] ![0, 256] ![0, 0] (m ((c : Thread nD τ).loc main_arg1) : S512x11008.Idx → BitVec 32)
          (constantI S_ 32 0#32) Gen.pads_S512x11008_S512x11264_000_02560 Gen.h_S_ := by
  dsimp only [Gen.V, Gen.V0]
  simp only [hostOps0, hostOps0_1, hostOps0_2, hostOps0_3, hostOps0_4, hostOps0_5, hostOps0_6, List.flatten_cons, List.flatten_nil, List.append_nil, List.cons_append, List.nil_append]
  after_results
  rfl

theorem V_v11_apply (c : Dev nD) (r : Fin 512) (n : Fin 11008) :
    V m c main_v11 (ix2 r ⟨n.val, by have := n.isLt; omega⟩ : S512x11264.Idx)
      = m ((c : Thread nD τ).loc main_arg1) (ix2 r n) :=
  (congrFun (V_v11_eq m c) (ix2 r ⟨n.val, by have := n.isLt; omega⟩)).trans
    (pad_cols_apply (m ((c : Thread nD τ).loc main_arg1) : S512x11008.Idx → BitVec 32) (constantI S_ 32 0#32)
      Gen.pads_S512x11008_S512x11264_000_02560 Gen.h_S_ r n)

/-- The scales as the region finds them: the argument with 256 zero columns on the right. -/
theorem V_v13_eq (c : Dev nD) :
    (V m c main_v13 : S32x11264.Idx → EReal)
      = pad S32x11264 ![0, 0] ![0, 256] ![0, 0] (m ((c : Thread nD τ).loc main_arg3) : S32x11008.Idx → EReal)
          (sitofp (F := Ideal) .f32 (constantI S_ 32 0#32)) Gen.pads_S32x11008_S32x11264_000_02560 Gen.h_S_ := by
  dsimp only [Gen.V, Gen.V0]
  simp only [hostOps0, hostOps0_1, hostOps0_2, hostOps0_3, hostOps0_4, hostOps0_5, hostOps0_6, List.flatten_cons, List.flatten_nil, List.append_nil, List.cons_append, List.nil_append]
  after_results
  rfl

theorem V_v13_apply (c : Dev nD) (g : Fin 32) (n : Fin 11008) :
    V m c main_v13 (ix2 g ⟨n.val, by have := n.isLt; omega⟩ : S32x11264.Idx)
      = m ((c : Thread nD τ).loc main_arg3) (ix2 g n) :=
  (congrFun (V_v13_eq m c) (ix2 g ⟨n.val, by have := n.isLt; omega⟩)).trans
    (pad_cols_apply (m ((c : Thread nD τ).loc main_arg3) : S32x11008.Idx → EReal)
      (sitofp (F := Ideal) .f32 (constantI S_ 32 0#32))
      Gen.pads_S32x11008_S32x11264_000_02560 Gen.h_S_ g n)

/-- The zero points as the region finds them: unpacked to one 4-bit value per column, then 256 zero columns on the
    right. -/
theorem V_v12_eq (c : Dev nD) :
    (V m c main_v12 : S32x11264.Idx → BitVec 32)
      = pad S32x11264 ![0, 0] ![0, 256] ![0, 0]
          (shapeCast S32x11008
            (andi
              (Host.shrsi
                (broadcastInDim S32x1376x8 ![0, 1, 2] Gen.bcast_S32x1376x1_S32x1376x8_0_1_2
                  (broadcastInDim S32x1376x1 ![0, 1] Gen.bcast_S32x1376_S32x1376x1_0_1
                    (m ((c : Thread nD τ).loc main_arg2) : S32x1376.Idx → BitVec 32)))
                (broadcastInDim S32x1376x8 ![0, 1, 2] Gen.bcast_S1x1x8_S32x1376x8_0_1_2
                  (broadcastInDim S1x1x8 ![2] Gen.bcast_S8_S1x1x8_2
                    (muli (iotaInDim S8 32 0) (broadcastInDim S8 ![] Gen.bcast_S_S8 (constantI S_ 32 4#32))))))
              (broadcastInDim S32x1376x8 ![] Gen.bcast_S_S32x1376x8 (constantI S_ 32 15#32)))
            Gen.shapeCasts_S32x1376x8_S32x11008)
          (constantI S_ 32 0#32) Gen.pads_S32x11008_S32x11264_000_02560 Gen.h_S_ := by
  dsimp only [Gen.V, Gen.V0]
  simp only [hostOps0, hostOps0_1, hostOps0_2, hostOps0_3, hostOps0_4, hostOps0_5, hostOps0_6, List.flatten_cons, List.flatten_nil, List.append_nil, List.cons_append, List.nil_append]
  after_results
  rfl

theorem V_v12_apply (c : Dev nD) (g : Fin 32) (n : Fin 11008) :
    V m c main_v12 (ix2 g ⟨n.val, by have := n.isLt; omega⟩ : S32x11264.Idx)
      = nib (m ((c : Thread nD τ).loc main_arg2) (ix2 g ⟨n.val / 8, lt1376 n⟩)) (n.val % 8) :=
  (congrFun (V_v12_eq m c) (ix2 g ⟨n.val, by have := n.isLt; omega⟩)).trans
    ((pad_cols_apply _ (constantI S_ 32 0#32) Gen.pads_S32x11008_S32x11264_000_02560 Gen.h_S_ g n).trans
      (unpack_apply (m ((c : Thread nD τ).loc main_arg2) : S32x1376.Idx → BitVec 32)
        Gen.bcast_S32x1376x1_S32x1376x8_0_1_2 Gen.bcast_S32x1376_S32x1376x1_0_1 Gen.bcast_S1x1x8_S32x1376x8_0_1_2
        Gen.bcast_S8_S1x1x8_2 Gen.bcast_S_S8 Gen.bcast_S_S32x1376x8 Gen.shapeCasts_S32x1376x8_S32x11008 g n))

end Host

/-! ## After the region: the result cut to its 11008 columns and regrouped -/

section Tail

/-- The program's result: of the region's [4096, 11264] output array, the first 11008 columns, its rows regrouped
    1024 to a slab. -/
theorem tail_v18_eq (dats : (p : Fin 1) → (c : Dev nD) → Pipeline.Dat τ (Elt Ideal) Unit ℕ (UR sig nD τ) ℕ (cfgs p) c)
    (c : Dev nD) :
    (Pipeline.afterTail₀ cfgs dats 0 (V0 m) [hostOps1] c main_v18 : S4x1024x11008.Idx → EReal)
      = shapeCast S4x1024x11008
          (extractStridedSlice S4096x11008 ![0, 0] ((dats 0 c).arrAt 4 cfg0.N : S4096x11264.Idx → EReal)
            Gen.slices_S4096x11264_S4096x11008_0_0)
          Gen.shapeCasts_S4096x11008_S4x1024x11008 := by
  have hw : Pipeline.withArrays (cfgs 0).spec c (V0 m c) (fun w => (dats 0 c).arrAt w (cfgs 0).N)
      (Proc.devRef .tc main_v16) = (dats 0 c).arrAt 4 cfg0.N :=
    Pipeline.withArrays_arr spec0 launch0.win.arr_inj c _ _ 4
  unfold Pipeline.afterTail₀
  show StableHlo.after hostOps1 _ (Proc.devRef .tc main_v18) = _
  after_results
  rw [hw]
  rfl

theorem tail_v18 (dats : (p : Fin 1) → (c : Dev nD) → Pipeline.Dat τ (Elt Ideal) Unit ℕ (UR sig nD τ) ℕ (cfgs p) c)
    (c : Dev nD) (b : Fin 4) (s : Fin 1024) (n : Fin 11008) :
    Pipeline.afterTail₀ cfgs dats 0 (V0 m) [hostOps1] c main_v18 (ix3 b s n)
      = (dats 0 c).arrAt 4 cfg0.N
          (ix2 ⟨b.val * 1024 + s.val, by have := b.isLt; have := s.isLt; omega⟩ ⟨n.val, by have := n.isLt; omega⟩ :
            S4096x11264.Idx) :=
  (congrFun (tail_v18_eq m dats c) (ix3 b s n)).trans
    (slice_regroup_apply ((dats 0 c).arrAt 4 cfg0.N : S4096x11264.Idx → EReal)
      Gen.slices_S4096x11264_S4096x11008_0_0 Gen.shapeCasts_S4096x11008_S4x1024x11008 b s n)

end Tail

end Cert.QL.KHost

end
-- ==== Proof.KW.lean ====
/-
  The dequantized weight over the padded arrays, the region's result in closed form, and the one law of sums.

  The pipelined region finds the packed weights, the unpacked zero points and the scales with 256 zero
  columns appended (11264 columns in all), and the activation with its rows laid end to end as a
  [4096, 4096] matrix. Over those arrays the dequantized weight at row K and column N is
      (value (K mod 8) of the weight word (K / 8, N)  −  zero point (K / 128, N)) · scale (K / 128, N),
  and the region's output array is, entry by entry, the sum over K of activation (r, K) times that weight.
  Below column 11008 the padded arrays are the arguments themselves and the zero point at column n is value
  n mod 8 of word n / 8, so there the weight is the specification's entry; and row 1024 b + s of the laid-out
  activation is row s of slab b, so the output at (1024 b + s, n) is the specification's result at (b, s, n).

  The law: a sum over 4096 indices is the sum over 16 blocks of the sums over the 256 indices of each
  block (a bijection between pairs (block, offset) and indices, nothing else).
-/
import proofs.«419571_j47639777247662_3_alg».proof.Proof.KHost
import proofs.«419571_j47639777247662_3_alg».proof.Proof.Spec
import proofs.«419571_j47639777247662_3_alg».proof.Proof.Gen.KernelIdeal.Frame
import Idealize.ShloMosaic.Lib.ValueIdx
import Mathlib.Algebra.BigOperators.Fin
import Mathlib.Data.Fintype.BigOperators
import Mathlib.Logic.Equiv.Fin.Basic

noncomputable section

open scoped BigOperators

namespace Cert.QL.KW

open Cert.KernelIdeal Cert.KernelIdeal.Gen Cert.QL Cert.QL.KHost Idealize.ShloMosaic Idealize.ShloMosaic.ValueIdx
open Idealize.ShloMosaic.TcCoe

variable (m : (ℓ : Loc nD τ sig) → Buf (Elt Ideal) ℓ)

/-- The dequantized weight over the PADDED arrays the region finds (columns up to 11264). -/
def wPad (c : Dev nD) (K : Fin 4096) (N : Fin 11264) : EReal :=
  (toR (nib (V m c main_v11 (ix2 ⟨K.val / 8, lt512 K⟩ N : S512x11264.Idx)) (K.val % 8))
    - toR (V m c main_v12 (ix2 ⟨K.val / 128, lt32 K⟩ N : S32x11264.Idx)))
   * V m c main_v13 (ix2 ⟨K.val / 128, lt32 K⟩ N : S32x11264.Idx)

/-- Below column 11008 it is the specification's entry over the arguments. -/
theorem wPad_eq_wEntry (c : Dev nD) (K : Fin 4096) (n : Fin 11008) :
    wPad m c K ⟨n.val, by have := n.isLt; omega⟩
      = wEntry (m ((c : Thread nD τ).loc main_arg1)) (m ((c : Thread nD τ).loc main_arg2))
          (m ((c : Thread nD τ).loc main_arg3)) K n := by
  unfold wPad wEntry
  rw [V_v11_apply m c ⟨K.val / 8, lt512 K⟩ n, V_v12_apply m c ⟨K.val / 128, lt32 K⟩ n,
    V_v13_apply m c ⟨K.val / 128, lt32 K⟩ n]

/-- The result array of the region, f32[4096, 11264], in closed form. -/
def Gout (c : Dev nD) : S4096x11264.Idx → EReal :=
  fun i => ∑ K : Fin 4096,
    @HMul.hMul EReal EReal EReal instHMul (V m c main_v15 (ix2 (i 0) K : S4096x4096.Idx)) (wPad m c K (i 1))

/-- Row 1024 b + s, column n < 11008 of it is the specification's result at (b, s, n). -/
theorem Gout_tail (c : Dev nD) (b : Fin 4) (s : Fin 1024) (n : Fin 11008) :
    Gout m c (ix2 ⟨b.val * 1024 + s.val, by have := b.isLt; have := s.isLt; omega⟩
        ⟨n.val, by have := n.isLt; omega⟩ : S4096x11264.Idx)
      = G (m ((c : Thread nD τ).loc main_arg0)) (m ((c : Thread nD τ).loc main_arg1))
          (m ((c : Thread nD τ).loc main_arg2)) (m ((c : Thread nD τ).loc main_arg3)) (ix3 b s n) := by
  have hb := b.isLt
  have hs := s.isLt
  unfold Gout G
  refine Finset.sum_congr rfl fun K _ => ?_
  refine congrArg₂ (fun (a b : EReal) => a * b) ?_ (wPad_eq_wEntry m c K n)
  refine (V_v15_apply m c ⟨b.val * 1024 + s.val, by omega⟩ K).trans ?_
  refine congrArg (m ((c : Thread nD τ).loc main_arg0) : S4x1024x4096.Idx → EReal) (funext fun a => Fin.ext ?_)
  match a with
  | ⟨0, _⟩ => show (b.val * 1024 + s.val) / 1024 = b.val; omega
  | ⟨1, _⟩ => show (b.val * 1024 + s.val) % 1024 = s.val; omega
  | ⟨2, _⟩ => rfl

/-- A sum accumulated block by block (16 blocks of 256) is the one sum over the 4096 indices. -/
theorem sum_blocks {M : Type} [AddCommMonoid M] (g : ℕ → M) :
    (∑ K' ∈ Finset.range 16, ∑ kk : Fin 256, g (256 * K' + kk.val)) = ∑ K : Fin 4096, g K.val := by
  rw [← Fin.sum_univ_eq_sum_range (fun K' => ∑ kk : Fin 256, g (256 * K' + kk.val)) 16,
    ← Fintype.sum_prod_type' (fun (a : Fin 16) (b : Fin 256) => g (256 * a.val + b.val))]
  refine Eq.trans (Finset.sum_congr rfl fun p _ => ?_)
    (Equiv.sum_comp (finProdFinEquiv (m := 16) (n := 256)) (fun K : Fin (16 * 256) => g K.val))
  show g (256 * p.1.val + p.2.val) = g (p.2.val + 256 * p.1.val)
  rw [Nat.add_comm]

end Cert.QL.KW

end
-- ==== Proof.KRows.lean ====
/-
  The slab rows the product reads are the padded dequantized weight.

  At the point t = (j, i, k) the product reads the 256 slab rows stored at (j, 0, k): two 128-row groups,
  dequantized from rows 32k … 32k + 31 of the packed weight words, rows 2k and 2k + 1 of the zero points and
  of the scales, all in the 1024 columns of column block j. Row kk of them is therefore row K = 256k + kk of
  the dequantized weight over the padded arrays: its word is row 32k + kk / 8 = K / 8 at position kk mod 8
  = K mod 8, and its group is 2k (kk < 128) or 2k + 1 (kk ≥ 128), which is K / 128.
-/
import proofs.«419571_j47639777247662_3_alg».proof.Proof.KRun
import proofs.«419571_j47639777247662_3_alg».proof.Proof.KSlab
import proofs.«419571_j47639777247662_3_alg».proof.Proof.KStep
import proofs.«419571_j47639777247662_3_alg».proof.Proof.KBlk
import proofs.«419571_j47639777247662_3_alg».proof.Proof.KW
import Idealize.ShloMosaic.Lib.ValueIdx

set_option maxRecDepth 16384

noncomputable section

namespace Cert.QL.Rows

open Cert.Proof.KernelIdeal Cert.KernelIdeal Cert.KernelIdeal.Gen Cert.QL Cert.QL.KW Cert.QL.Step Cert.QL.Blk
open Idealize.ShloMosaic Idealize.ShloMosaic.ValueIdx Idealize.SL.Sem

variable (m : (ℓ : Loc nD τ sig) → Buf (Elt Ideal) ℓ)

/-- The padded weight at (K, N), from any spelling of its word's row K / 8, its group K / 128, its position K mod 8
    and its column. -/
theorem wPad_of (c : Dev nD) (K : Fin 4096) (N : Fin 11264) (r : Fin 512) (g : Fin 32) (p : ℕ) (N' : Fin 11264)
    (hr : r.val = K.val / 8) (hg : g.val = K.val / 128) (hp : p = K.val % 8) (hN : N'.val = N.val) :
    (toR (nib (V m c main_v11 (ix2 r N' : S512x11264.Idx)) p) - toR (V m c main_v12 (ix2 g N' : S32x11264.Idx)))
        * V m c main_v13 (ix2 g N' : S32x11264.Idx) = wPad m c K N := by
  obtain rfl : r = ⟨K.val / 8, lt512 K⟩ := Fin.ext hr
  obtain rfl : g = ⟨K.val / 128, lt32 K⟩ := Fin.ext hg
  obtain rfl : N' = N := Fin.ext hN
  subst hp
  rfl

/-- Row kk of the 256 rows read at t is row 256k + kk of the padded weight, in the columns of t's column block:
    for kk < 128 the first group stored at (j, 0, k), word row 32k + kk / 8, group 2k; for kk ≥ 128 the second,
    word row 32k + 16 + (kk − 128) / 8, group 2k + 1. -/
theorem rows_apply_aux (c : Dev nD) (t : Fin cfg0.N) (kk : Fin 256) (n : Fin 1024) (K : Fin 4096) (N : Fin 11264)
    (hK : K.val = 256 * (t.val % 16) + kk.val) (hN : N.val = 1024 * (t.val / 128) + n.val) :
    rows (F := Ideal) m c t (ix2 kk n) = wPad m c K N := by
  have hN' := N_eq
  have ht := t.isLt
  have hb16 : (base t).val % 16 = t.val % 16 := by rw [base_val]; omega
  have hb128 : (base t).val / 128 = t.val / 128 := by rw [base_val]; omega
  by_cases h : kk.val < 128
  · obtain ⟨k', rfl⟩ : ∃ k' : Fin 128, kk = ⟨k'.val, Nat.lt_of_lt_of_le k'.isLt (by decide)⟩ := ⟨⟨kk.val, h⟩, rfl⟩
    have hK' : K.val = 256 * (t.val % 16) + k'.val := hK
    unfold rows rowsAt
    rw [rowsNew_lo (base t) (base_I0 t) _ _ _ k' n, grp0_apply, iblk1_apply, iblk2_apply, iblk3_apply]
    refine wPad_of m c K N _ _ _ _ ?_ ?_ ?_ ?_
    · show 32 * ((base t).val % 16) + k'.val / 8 = K.val / 8
      omega
    · show 2 * ((base t).val % 16) = K.val / 128
      omega
    · omega
    · show 1024 * ((base t).val / 128) + n.val = N.val
      omega
  · obtain ⟨k', rfl⟩ : ∃ k' : Fin 128, kk = ⟨k'.val + 128, Nat.add_lt_add_right k'.isLt 128⟩ :=
      ⟨⟨kk.val - 128, by omega⟩, Fin.ext (by show kk.val = kk.val - 128 + 128; omega)⟩
    have hK' : K.val = 256 * (t.val % 16) + (k'.val + 128) := hK
    unfold rows rowsAt
    rw [rowsNew_hi (base t) (base_I0 t) _ _ _ k' n, grp1_apply, iblk1_apply, iblk2_apply, iblk3_apply]
    refine wPad_of m c K N _ _ _ _ ?_ ?_ ?_ ?_
    · show 32 * ((base t).val % 16) + (16 + k'.val / 8) = K.val / 8
      omega
    · show 2 * ((base t).val % 16) + 1 = K.val / 128
      omega
    · omega
    · show 1024 * ((base t).val / 128) + n.val = N.val
      omega

/-- The 256 slab rows the product reads at a point are the padded dequantized weight's rows 256k … 256k + 255,
    in the columns of the point's column block. -/
theorem rows_apply (c : Dev nD) (t : Fin cfg0.N) (kk : Fin 256) (n : Fin 1024) :
    rows (F := Ideal) m c t (ix2 kk n)
      = wPad m c ⟨256 * (t.val % 16) + kk.val, by omega⟩
          ⟨1024 * (t.val / 128) + n.val, by have := t.isLt; have := N_eq; omega⟩ :=
  rows_apply_aux m c t kk n _ _ rfl rfl

end Cert.QL.Rows

end
-- ==== Proof.KAcc.lean ====
/-
  The accumulator's contents in closed form, by induction on the grid point.

  The grid's points are numbered n = 128 j + 16 i + k (k fastest). One step adds, at entry (p, nn) of the
  accumulator, the sum over the 256 contraction positions of block k of
      activation (512 i + p, 256 k + kk) · weight (256 k + kk, 1024 j + nn),
  onto zero where k = 0 and onto what the point before left otherwise; the point before has the same j and i and
  the block before. So after point n the accumulator holds the sum over blocks 0 … k of those sums, and after a
  last point (k = 15) the sixteen blocks are the whole contraction: the output block stored there is block (i, j)
  of the product of the activation by the dequantized weight. Only sums of extended reals are rearranged
  (a commutative monoid); no finiteness is used.
-/
import proofs.«419571_j47639777247662_3_alg».proof.Proof.KRun
import proofs.«419571_j47639777247662_3_alg».proof.Proof.KStep
import proofs.«419571_j47639777247662_3_alg».proof.Proof.KBlk
import proofs.«419571_j47639777247662_3_alg».proof.Proof.KRows
import proofs.«419571_j47639777247662_3_alg».proof.Proof.KW
import proofs.«419571_j47639777247662_3_alg».proof.Proof.Spec
import Idealize.ShloMosaic.Lib.ValueIdx
import Mathlib.Algebra.BigOperators.Fin

noncomputable section

open scoped BigOperators

namespace Cert.QL.Acc

open Cert.Proof.KernelIdeal Cert.KernelIdeal Cert.KernelIdeal.Gen Cert.QL Cert.QL.Step Cert.QL.Blk Cert.QL.Rows Cert.QL.KW
  Idealize.ShloMosaic Idealize.ShloMosaic.ValueIdx
open Idealize.ShloMosaic.TcCoe

variable (m : (ℓ : Loc nD τ sig) → Buf (Elt Ideal) ℓ)

/-- The laid-out activation at row r and column K, zero outside the array. -/
def Xat (c : Dev nD) (r K : ℕ) : EReal :=
  if h : r < 4096 ∧ K < 4096 then V m c main_v15 (ix2 ⟨r, h.1⟩ ⟨K, h.2⟩ : S4096x4096.Idx) else 0

/-- The dequantized weight over the padded arrays at row K and column N, zero outside. -/
def Wat (c : Dev nD) (K N : ℕ) : EReal :=
  if h : K < 4096 ∧ N < 11264 then wPad m c ⟨K, h.1⟩ ⟨N, h.2⟩ else 0

/-- The summand of block (j, i)'s entry (p, nn) at contraction position K. -/
def gK (c : Dev nD) (j i : ℕ) (p : Fin 512) (nn : Fin 1024) (K : ℕ) : EReal :=
  Xat m c (512 * i + p.val) K * Wat m c K (1024 * j + nn.val)

theorem Xat_of_lt (c : Dev nD) (r K : ℕ) (hr : r < 4096) (hK : K < 4096) :
    Xat m c r K = V m c main_v15 (ix2 ⟨r, hr⟩ ⟨K, hK⟩ : S4096x4096.Idx) := dif_pos ⟨hr, hK⟩

theorem Wat_of_lt (c : Dev nD) (K N : ℕ) (hK : K < 4096) (hN : N < 11264) :
    Wat m c K N = wPad m c ⟨K, hK⟩ ⟨N, hN⟩ := dif_pos ⟨hK, hN⟩

/-- One step at point n = (j, i, k): onto a0, the sum over block k's 256 contraction positions. -/
theorem step_apply (c : Dev nD) (n : ℕ) (hn : n < cfg0.N) (a0 : Vec Ideal S512x1024 .f32) (p : Fin 512) (nn : Fin 1024) :
    accStep (F := Ideal) (rows m c ⟨n, hn⟩) a0 (iblk m c 0 ⟨n, hn⟩) (ix2 p nn)
      = a0 (ix2 p nn) + ∑ kk : Fin 256, gK m c (n / 128) ((n / 16) % 8) p nn (256 * (n % 16) + kk.val) := by
  have hN := N_eq
  rw [accStep_apply]
  refine congrArg (a0 (ix2 p nn) + ·) (Finset.sum_congr rfl fun kk _ => ?_)
  have hx : iblk m c 0 ⟨n, hn⟩ (ix2 p kk) = Xat m c (512 * ((n / 16) % 8) + p.val) (256 * (n % 16) + kk.val) :=
    (iblk0_apply m c ⟨n, hn⟩ p kk).trans (Xat_of_lt m c _ _ (by omega) (by omega)).symm
  have hw : rows (F := Ideal) m c ⟨n, hn⟩ (ix2 kk nn) = Wat m c (256 * (n % 16) + kk.val) (1024 * (n / 128) + nn.val) :=
    (rows_apply m c ⟨n, hn⟩ kk nn).trans (Wat_of_lt m c _ _ (by omega) (by omega)).symm
  rw [hx, hw]
  rfl

/-- The accumulator after point n = (j, i, k): the sum over blocks 0 … k of the 256 products of each. -/
theorem accF_closed (c : Dev nD) : ∀ (n : ℕ) (hn : n < cfg0.N) (p : Fin 512) (nn : Fin 1024),
    accF (F := Ideal) m c n hn (ix2 p nn)
      = ∑ K' ∈ Finset.range (n % 16 + 1), ∑ kk : Fin 256, gK m c (n / 128) ((n / 16) % 8) p nn (256 * K' + kk.val) := by
  intro n
  induction n with
  | zero =>
    intro hn p nn
    show accStep (rows m c ⟨0, hn⟩) zeroRead (iblk m c 0 ⟨0, hn⟩) (ix2 p nn) = _
    rw [step_apply m c 0 hn, zeroRead_apply, zero_add]
    show _ = ∑ K' ∈ Finset.range 1, ∑ kk : Fin 256, gK m c (0 / 128) ((0 / 16) % 8) p nn (256 * K' + kk.val)
    rw [Finset.sum_range_one]
  | succ n ih =>
    intro hn p nn
    show accStep (rows m c ⟨n + 1, hn⟩)
      (if (n + 1) % 16 = 0 then zeroRead else View.ld (accF m c n (Nat.lt_of_succ_lt hn)) rA)
      (iblk m c 0 ⟨n + 1, hn⟩) (ix2 p nn) = _
    rw [step_apply m c (n + 1) hn]
    by_cases hk : (n + 1) % 16 = 0
    · rw [if_pos hk, zeroRead_apply, zero_add, hk, Finset.sum_range_one]
    · have h1 : (n + 1) / 128 = n / 128 := by omega
      have h2 : ((n + 1) / 16) % 8 = (n / 16) % 8 := by omega
      have h3 : (n + 1) % 16 = n % 16 + 1 := by omega
      rw [if_neg hk, ld_rA, ih (Nat.lt_of_succ_lt hn) p nn, h1, h2, h3]
      exact (Finset.sum_range_succ
        (fun K' => ∑ kk : Fin 256, gK m c (n / 128) ((n / 16) % 8) p nn (256 * K' + kk.val)) (n % 16 + 1)).symm

/-- The output block a last point (k = 15) stores is the result array's block (i, j). -/
theorem outF_closed (c : Dev nD) (t : Fin cfg0.N) (ht : t.val % 16 = 15) (p : Fin 512) (nn : Fin 1024) :
    outF (F := Ideal) m c t (ix2 p nn)
      = Gout m c (ix2 ⟨512 * ((t.val / 16) % 8) + p.val, by omega⟩
          ⟨1024 * (t.val / 128) + nn.val, by have := t.isLt; have := N_eq; omega⟩ : S4096x11264.Idx) := by
  have hN := N_eq
  have htl := t.isLt
  unfold outF
  rw [outStep_eq, ← accF_eq, accF_closed m c t.val t.isLt p nn, ht,
    sum_blocks (gK m c (t.val / 128) ((t.val / 16) % 8) p nn)]
  refine Finset.sum_congr rfl fun K _ => ?_
  exact congrArg₂ (· * ·) (Xat_of_lt m c _ _ (by omega) K.isLt) (Wat_of_lt m c _ _ K.isLt (by omega))

end Cert.QL.Acc

end
-- ==== Proof.KFinal.lean ====
/-
  The value of the kernel's program at the ideal instance.

  The output's block at (i, j) is written back at the point (j, i, 15) and holds there the accumulator
  after sixteen steps: x's rows 512 i … times the padded dequantized weight's columns 1024 j …, summed over
  all 4096 rows of the weight. These blocks tile the padded result array f32[4096, 11264], which therefore ends as
  `Gout`; the host lines after the region cut the padding columns off and regroup the rows, and what is left is
  the specification `G` of the four argument arrays.
-/
import proofs.«419571_j47639777247662_3_alg».proof.Proof.KRun
import proofs.«419571_j47639777247662_3_alg».proof.Proof.KAcc
import proofs.«419571_j47639777247662_3_alg».proof.Proof.KBlk
import proofs.«419571_j47639777247662_3_alg».proof.Proof.KW
import proofs.«419571_j47639777247662_3_alg».proof.Proof.KHost
import Idealize.ShloMosaic.Lib.Pipeline.Value

set_option maxRecDepth 16384

noncomputable section

namespace Cert.QL.Final

open Cert.Proof.KernelIdeal Cert.KernelIdeal Cert.KernelIdeal.Gen Cert.QL Cert.QL.KW Cert.QL.Acc Cert.QL.Blk Cert.QL.KHost
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The block a point with k = 15 stores, at an index of the block, is the closed form at the array's index it lands on. -/
theorem out_eq (c : Dev nD) (t : Fin cfg0.N) (ht : t.val % 16 = 15) (y : S512x1024.Idx) (i : S4096x11264.Idx)
    (h0 : (i 0).val = 512 * ((t.val / 16) % 8) + (y 0).val) (h1 : (i 1).val = 1024 * (t.val / 128) + (y 1).val) :
    outF (F := Ideal) m c t y = Gout m c i := by
  obtain ⟨p, nn, rfl⟩ : ∃ (p : Fin 512) (nn : Fin 1024), y = ix2 p nn := ⟨y 0, y 1, eq_ix2 y⟩
  rw [outF_closed m c t ht p nn]
  refine congrArg (Gout m c) (funext fun a => Fin.ext ?_)
  match a with
  | ⟨0, _⟩ => exact h0.symm
  | ⟨1, _⟩ => exact h1.symm

/-- What the write-back at a point with k = 15 writes is the closed form read through the point's block. -/
theorem flushed_eq (c : Dev nD) (t : Fin cfg0.N) (hf : (cfg0.win 4).flush t = true) :
    (dats m 0 c).flushed 4 t = ((cfg0.win 4).blk t).view.read (Elt Ideal) (Gout m c) := by
  have ht : t.val % 16 = 15 := (flush0_4 t).mp hf
  show (cfg0.win 4).cut (grid0.coords t) ((dats m 0 c).after 4 t) = _
  rw [after_4]
  funext y
  exact out_eq m c t ht y (((cfg0.win 4).blk t).view.emb y) (emb4_val t y 0) (emb4_val t y 1)

/-- The padded result array after the region. -/
theorem final4 (c : Dev nD) : (dats m 0 c).arrAt 4 cfg0.N = Gout m c :=
  (dats m 0 c).arrAt_eq_of_cover 4 (Gout m c) (fun t hf => flushed_eq m c t hf) cover4

/-- Every weakly fair execution of the idealized kernel's program terminates with the result at `G` of the argument
    arrays, which end as launched. -/
theorem kernel_run : θ_run (defs (F := Ideal)) (onTc (τ := τ) (main (F := Ideal))) ⟨m, fun _ => 0, ρ⟩ (fun r => ∀ c : Dev nD,
      r.2.mem ((c.tc : Thread nD τ).loc main_v18) = G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v18 (Pipeline.mem_restRefs_of main_v18 (by decide) (by decide))).trans (funext fun i => by
        obtain ⟨b, s, n, rfl⟩ : ∃ (b : Fin 4) (s : Fin 1024) (n : Fin 11008), i = ix3 b s n := ⟨i 0, i 1, i 2, eq_ix3 i⟩
        rw [tail_v18 m (dats m) c b s n, final4 m c]
        exact Gout_tail m c b s n),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.QL.Final

end
-- ==== Proof.RefStages.lean ====
/-
  The reference computation, value by value, as pure functions of its four arguments.

  The reference unpacks the 4-bit weights (eight per word along the rows) and the 4-bit zero points
  (eight per word along the columns), converts both to reals, looks up for each row kk its group
  kk / 128 (a floor division, spelled through truncating division, signs and remainder), gathers the
  group's zero points and scales, forms W = (w_q - zeros[gid]) * scales[gid], and contracts x with W.
  Each definition below is one tensor value of that computation, written with exactly the operations
  of the printed program, in its order, so that the program's composed term is this one by unfolding.
-/
import proofs.«419571_j47639777247662_3_alg».proof.ReferenceIdeal

noncomputable section

namespace Cert.QL.Ref

open Idealize.ShloMosaic Idealize.SL.Sem
open Cert.ReferenceIdeal

variable {F : FTy → Type} [FloatOps F]
variable [Cert.ReferenceIdeal.Facts]
open Cert.ReferenceIdeal.Facts₀ Cert.ReferenceIdeal.Facts

/-- The contents of a tensor value of shape `s` and element type `e`. -/
abbrev T (F : FTy → Type) (s : Shape) (e : EltTy) : Type := (⟨s, e⟩ : BufTy).Contents (Elt F)

/-- The eight shift amounts 0, 4, …, 28. -/
def shifts : T F S8 .i32 :=
  muli (iotaInDim S8 32 0) (broadcastInDim S8 ![] bcast_S_S8 (constantI S_ 32 4#32))

/-- The unpacked weights as integers, [512, 8, 11008]: word (q, n) shifted right by 4p and masked. -/
def wqI3 (qw : T F S512x11008 .i32) : T F S512x8x11008 .i32 :=
  andi
    (Host.shrsi
      (broadcastInDim S512x8x11008 ![0, 1, 2] bcast_S512x1x11008_S512x8x11008_0_1_2
        (broadcastInDim S512x1x11008 ![0, 2] bcast_S512x11008_S512x1x11008_0_2 qw))
      (broadcastInDim S512x8x11008 ![0, 1, 2] bcast_S1x8x1_S512x8x11008_0_1_2
        (broadcastInDim S1x8x1 ![1] bcast_S8_S1x8x1_1 (shifts (F := F)))))
    (broadcastInDim S512x8x11008 ![] bcast_S_S512x8x11008 (constantI S_ 32 15#32))

/-- The unpacked weights as reals, [4096, 11008]. -/
def wq (qw : T F S512x11008 .i32) : T F S4096x11008 .f32 :=
  sitofp .f32 (fun i => shapeCast S4096x11008 (wqI3 qw) shapeCasts_S512x8x11008_S4096x11008 i)

/-- The unpacked zero points as integers, [32, 1376, 8]. -/
def zfI3 (qz : T F S32x1376 .i32) : T F S32x1376x8 .i32 :=
  andi
    (Host.shrsi
      (broadcastInDim S32x1376x8 ![0, 1, 2] bcast_S32x1376x1_S32x1376x8_0_1_2
        (broadcastInDim S32x1376x1 ![0, 1] bcast_S32x1376_S32x1376x1_0_1 qz))
      (broadcastInDim S32x1376x8 ![0, 1, 2] bcast_S1x1x8_S32x1376x8_0_1_2
        (broadcastInDim S1x1x8 ![2] bcast_S8_S1x1x8_2 (shifts (F := F)))))
    (broadcastInDim S32x1376x8 ![] bcast_S_S32x1376x8 (constantI S_ 32 15#32))

/-- The unpacked zero points as reals, [32, 11008]. -/
def zf (qz : T F S32x1376 .i32) : T F S32x11008 .f32 :=
  sitofp .f32 (fun i => shapeCast S32x11008 (zfI3 qz) shapeCasts_S32x1376x8_S32x11008 i)

/-- The row numbers 0, …, 4095. -/
def rows : T F S4096 .i32 := iotaInDim S4096 32 0

/-- The divisor 128, as the callee receives it. -/
def dvs : T F S_ .i32 := id (constantI S_ 32 128#32)

/-- The truncating quotient of the row number by 128. -/
def quot : T F S4096 .i32 :=
  Host.divsi (rows (F := F)) (broadcastInDim S4096 ![] bcast_S_S4096 (dvs (F := F)))

/-- Whether the signs of dividend and divisor differ and the remainder is not zero. -/
def adjust : T F S4096 .i1 :=
  andi
    (cmpi .ne (signi (rows (F := F))) (broadcastInDim S4096 ![] bcast_S_S4096 (signi (dvs (F := F)))))
    (cmpi .ne (Host.remsi (rows (F := F)) (broadcastInDim S4096 ![] bcast_S_S4096 (dvs (F := F))))
      (broadcastInDim S4096 ![] bcast_S_S4096 (constantI S_ 32 0#32)))

/-- The group of each row: the floor quotient of the row number by 128. -/
def gid : T F S4096 .i32 :=
  select (adjust (F := F))
    (subi (quot (F := F)) (broadcastInDim S4096 ![] bcast_S_S4096 (constantI S_ 32 1#32)))
    (quot (F := F))

/-- The group index normalised as an indexing operand: a negative one is counted from the end. -/
def idx : T F S4096 .i32 :=
  select (cmpi .slt (gid (F := F)) (broadcastInDim S4096 ![] bcast_S_S4096 (constantI S_ 32 0#32)))
    (addi (gid (F := F)) (broadcastInDim S4096 ![] bcast_S_S4096 (constantI S_ 32 32#32)))
    (gid (F := F))

/-- The start indices of the row gathers, [4096, 1]. -/
def idxCol : T F S4096x1 .i32 :=
  broadcastInDim S4096x1 ![0] bcast_S4096_S4096x1_0 (idx (F := F))

/-- The zero points of each row's group, [4096, 11008]. -/
def zg (qz : T F S32x1376 .i32) : T F S4096x11008 .f32 :=
  Host.gather gather_S32x11008_S4096x1_S4096x11008_1_0_n_n_0_1_111008 (zf qz) (idxCol (F := F))

/-- The scales of each row's group, [4096, 11008]. -/
def sg (sc : T F S32x11008 .f32) : T F S4096x11008 .f32 :=
  Host.gather gather_S32x11008_S4096x1_S4096x11008_1_0_n_n_0_1_111008 sc (idxCol (F := F))

/-- The dequantized weight, [4096, 11008]. -/
def w (qw : T F S512x11008 .i32) (qz : T F S32x1376 .i32) (sc : T F S32x11008 .f32) : T F S4096x11008 .f32 :=
  mulf (subf (wq qw) (zg qz)) (sg sc)

/-- The reference's result: x contracted with the dequantized weight. -/
def resTerm (x : T F S4x1024x4096 .f32) (qw : T F S512x11008 .i32) (qz : T F S32x1376 .i32)
    (sc : T F S32x11008 .f32) : T F S4x1024x11008 .f32 :=
  Host.dotGeneral dot_S4x1024x4096_S4096x11008_S4x1024x11008_2_0_01_1_n_n none x (w qw qz sc)

end Cert.QL.Ref

end
-- ==== Proof.RefRun.lean ====
/-
  The reference program's run, read back as a fold.

  The reference is a straight line of host operations (its two module-local functions, the floor
  division and the selection inside it, are listed in place at their call site, over the buffers of
  that call).  The line is cut in two: the first thirty operations unpack the two integer inputs into
  their 4-bit values as reals and make the row counter 0 … 4095 and the group size 128; the remaining
  thirty-eight compute the group of each row (the floored quotient by 128, wrapped into range), fetch
  the group's zero point and scale, form the dequantized weight and contract it with x.

  Every weakly fair execution from zero counters terminates, and each buffer ends at the fold of the
  operations' results over the launch contents: the result buffer at the composed pure term of the
  four arguments, the arguments unchanged.
-/
import proofs.«419571_j47639777247662_3_alg».proof.Proof.Gen.ReferenceIdeal
import Idealize.ShloMosaic.Lib.StableHlo.Run
import Idealize.ShloMosaic.Lib.Pipeline.Frame
import proofs.«419571_j47639777247662_3_alg».proof.Proof.RefStages

noncomputable section

namespace Cert.QL.Ref

open Cert.ReferenceIdeal Cert.ReferenceIdeal.Gen Idealize.ShloMosaic Idealize.ShloMosaic.TcCoe Idealize.SL.Sem Idealize.ShloMosaic.StableHlo

variable {F : FTy → Type} [FloatOps F]

/-- The first thirty operations: the 4-bit values of both packed inputs as reals, the row counter and the group size. -/
abbrev ops1 : List (HloOp τ sig (Elt F)) :=
  [ StableHlo.nullary main_v0 (iotaInDim S8 32 0),
    StableHlo.nullary main_c (constantI S_ 32 4#32),
    StableHlo.unary main_c main_v1 (broadcastInDim S8 ![] bcast_S_S8 : (⟨S_, .i32⟩ : BufTy).Contents (Elt F) → (⟨S8, .i32⟩ : BufTy).Contents (Elt F)),
    StableHlo.binary main_v0 main_v1 main_v2 (muli : (⟨S8, .i32⟩ : BufTy).Contents (Elt F) → (⟨S8, .i32⟩ : BufTy).Contents (Elt F) → (⟨S8, .i32⟩ : BufTy).Contents (Elt F)),
    StableHlo.unary main_arg1 main_v3 (broadcastInDim S512x1x11008 ![0, 2] bcast_S512x11008_S512x1x11008_0_2 : (⟨S512x11008, .i32⟩ : BufTy).Contents (Elt F) → (⟨S512x1x11008, .i32⟩ : BufTy).Contents (Elt F)),
    StableHlo.unary main_v2 main_v4 (broadcastInDim S1x8x1 ![1] bcast_S8_S1x8x1_1 : (⟨S8, .i32⟩ : BufTy).Contents (Elt F) → (⟨S1x8x1, .i32⟩ : BufTy).Contents (Elt F)),
    StableHlo.unary main_v3 main_v5 (broadcastInDim S512x8x11008 ![0, 1, 2] bcast_S512x1x11008_S512x8x11008_0_1_2 : (⟨S512x1x11008, .i32⟩ : BufTy).Contents (Elt F) → (⟨S512x8x11008, .i32⟩ : BufTy).Contents (Elt F)),
    StableHlo.unary main_v4 main_v6 (broadcastInDim S512x8x11008 ![0, 1, 2] bcast_S1x8x1_S512x8x11008_0_1_2 : (⟨S1x8x1, .i32⟩ : BufTy).Contents (Elt F) → (⟨S512x8x11008, .i32⟩ : BufTy).Contents (Elt F)),
    StableHlo.binary main_v5 main_v6 main_v7 (Host.shrsi : (⟨S512x8x11008, .i32⟩ : BufTy).Contents (Elt F) → (⟨S512x8x11008, .i32⟩ : BufTy).Contents (Elt F) → (⟨S512x8x11008, .i32⟩ : BufTy).Contents (Elt F)),
    StableHlo.nullary main_c_0 (constantI S_ 32 15#32),
    StableHlo.unary main_c_0 main_v8 (broadcastInDim S512x8x11008 ![] bcast_S_S512x8x11008 : (⟨S_, .i32⟩ : BufTy).Contents (Elt F) → (⟨S512x8x11008, .i32⟩ : BufTy).Contents (Elt F)),
    StableHlo.binary main_v7 main_v8 main_v9 (andi : (⟨S512x8x11008, .i32⟩ : BufTy).Contents (Elt F) → (⟨S512x8x11008, .i32⟩ : BufTy).Contents (Elt F) → (⟨S512x8x11008, .i32⟩ : BufTy).Contents (Elt F)),
    StableHlo.reshape main_v9 main_v10 rfl shapeCasts_S512x8x11008_S4096x11008,
    StableHlo.unary main_v10 main_v11 (sitofp .f32 : (⟨S4096x11008, .i32⟩ : BufTy).Contents (Elt F) → (⟨S4096x11008, .f32⟩ : BufTy).Contents (Elt F)),
    StableHlo.nullary main_v12 (iotaInDim S8 32 0),
    StableHlo.nullary main_c_1 (constantI S_ 32 4#32),
    StableHlo.unary main_c_1 main_v13 (broadcastInDim S8 ![] bcast_S_S8 : (⟨S_, .i32⟩ : BufTy).Contents (Elt F) → (⟨S8, .i32⟩ : BufTy).Contents (Elt F)),
    StableHlo.binary main_v12 main_v13 main_v14 (muli : (⟨S8, .i32⟩ : BufTy).Contents (Elt F) → (⟨S8, .i32⟩ : BufTy).Contents (Elt F) → (⟨S8, .i32⟩ : BufTy).Contents (Elt F)),
    StableHlo.unary main_arg2 main_v15 (broadcastInDim S32x1376x1 ![0, 1] bcast_S32x1376_S32x1376x1_0_1 : (⟨S32x1376, .i32⟩ : BufTy).Contents (Elt F) → (⟨S32x1376x1, .i32⟩ : BufTy).Contents (Elt F)),
    StableHlo.unary main_v14 main_v16 (broadcastInDim S1x1x8 ![2] bcast_S8_S1x1x8_2 : (⟨S8, .i32⟩ : BufTy).Contents (Elt F) → (⟨S1x1x8, .i32⟩ : BufTy).Contents (Elt F)),
    StableHlo.unary main_v15 main_v17 (broadcastInDim S32x1376x8 ![0, 1, 2] bcast_S32x1376x1_S32x1376x8_0_1_2 : (⟨S32x1376x1, .i32⟩ : BufTy).Contents (Elt F) → (⟨S32x1376x8, .i32⟩ : BufTy).Contents (Elt F)),
    StableHlo.unary main_v16 main_v18 (broadcastInDim S32x1376x8 ![0, 1, 2] bcast_S1x1x8_S32x1376x8_0_1_2 : (⟨S1x1x8, .i32⟩ : BufTy).Contents (Elt F) → (⟨S32x1376x8, .i32⟩ : BufTy).Contents (Elt F)),
    StableHlo.binary main_v17 main_v18 main_v19 (Host.shrsi : (⟨S32x1376x8, .i32⟩ : BufTy).Contents (Elt F) → (⟨S32x1376x8, .i32⟩ : BufTy).Contents (Elt F) → (⟨S32x1376x8, .i32⟩ : BufTy).Contents (Elt F)),
    StableHlo.nullary main_c_2 (constantI S_ 32 15#32),
    StableHlo.unary main_c_2 main_v20 (broadcastInDim S32x1376x8 ![] bcast_S_S32x1376x8 : (⟨S_, .i32⟩ : BufTy).Contents (Elt F) → (⟨S32x1376x8, .i32⟩ : BufTy).Contents (Elt F)),
    StableHlo.binary main_v19 main_v20 main_v21 (andi : (⟨S32x1376x8, .i32⟩ : BufTy).Contents (Elt F) → (⟨S32x1376x8, .i32⟩ : BufTy).Contents (Elt F) → (⟨S32x1376x8, .i32⟩ : BufTy).Contents (Elt F)),
    StableHlo.reshape main_v21 main_v22 rfl shapeCasts_S32x1376x8_S32x11008,
    StableHlo.unary main_v22 main_v23 (sitofp .f32 : (⟨S32x11008, .i32⟩ : BufTy).Contents (Elt F) → (⟨S32x11008, .f32⟩ : BufTy).Contents (Elt F)),
    StableHlo.nullary main_v24 (iotaInDim S4096 32 0),
    StableHlo.nullary main_c_3 (constantI S_ 32 128#32) ]

/-- The remaining thirty-eight: the floored quotient of the row counter by the group size (seventeen operations,
    the last one the selection), the wrap of negative group numbers, the two row fetches, the dequantized weight
    and the contraction with x. -/
abbrev ops2 : List (HloOp τ sig (Elt F)) :=
  [ TRef.unary (.of main_c_3 : TRef sig ⟨S_, .i32⟩) main_call0.v0 id,
    TRef.unary main_call0.v0 main_call0.v1 (broadcastInDim S4096 ![] bcast_S_S4096),
    TRef.binary (.of main_v24 : TRef sig ⟨S4096, .i32⟩) main_call0.v1 main_call0.v2 Host.divsi,
    TRef.unary (.of main_v24 : TRef sig ⟨S4096, .i32⟩) main_call0.v3 signi,
    TRef.unary main_call0.v0 main_call0.v4 signi,
    TRef.unary main_call0.v4 main_call0.v5 (broadcastInDim S4096 ![] bcast_S_S4096),
    TRef.binary main_call0.v3 main_call0.v5 main_call0.v6 (cmpi .ne),
    TRef.unary main_call0.v0 main_call0.v7 (broadcastInDim S4096 ![] bcast_S_S4096),
    TRef.binary (.of main_v24 : TRef sig ⟨S4096, .i32⟩) main_call0.v7 main_call0.v8 Host.remsi,
    TRef.nullary main_call0.c (constantI S_ 32 0#32),
    TRef.unary main_call0.c main_call0.v9 (broadcastInDim S4096 ![] bcast_S_S4096),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S4096 ![] bcast_S_S4096),
    TRef.binary main_call0.v2 main_call0.v12 main_call0.v13 subi,
    TRef.ternary main_call0.v11 main_call0.v13 main_call0.v2 main_call0.call0.v0 select,
    StableHlo.nullary main_c_4 (constantI S_ 32 0#32),
    StableHlo.unary main_c_4 main_v26 (broadcastInDim S4096 ![] bcast_S_S4096 : (⟨S_, .i32⟩ : BufTy).Contents (Elt F) → (⟨S4096, .i32⟩ : BufTy).Contents (Elt F)),
    StableHlo.binary main_v25 main_v26 main_v27 (cmpi .slt : (⟨S4096, .i32⟩ : BufTy).Contents (Elt F) → (⟨S4096, .i32⟩ : BufTy).Contents (Elt F) → (⟨S4096, .i1⟩ : BufTy).Contents (Elt F)),
    StableHlo.nullary main_c_5 (constantI S_ 32 32#32),
    StableHlo.unary main_c_5 main_v28 (broadcastInDim S4096 ![] bcast_S_S4096 : (⟨S_, .i32⟩ : BufTy).Contents (Elt F) → (⟨S4096, .i32⟩ : BufTy).Contents (Elt F)),
    StableHlo.binary main_v25 main_v28 main_v29 (addi : (⟨S4096, .i32⟩ : BufTy).Contents (Elt F) → (⟨S4096, .i32⟩ : BufTy).Contents (Elt F) → (⟨S4096, .i32⟩ : BufTy).Contents (Elt F)),
    StableHlo.ternary main_v27 main_v29 main_v25 main_v30 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v30 main_v31 (broadcastInDim S4096x1 ![0] bcast_S4096_S4096x1_0 : (⟨S4096, .i32⟩ : BufTy).Contents (Elt F) → (⟨S4096x1, .i32⟩ : BufTy).Contents (Elt F)),
    StableHlo.binary main_v23 main_v31 main_v32 ((fun x i => Host.gather gather_S32x11008_S4096x1_S4096x11008_1_0_n_n_0_1_111008 x i) : (⟨S32x11008, .f32⟩ : BufTy).Contents (Elt F) → (⟨S4096x1, .i32⟩ : BufTy).Contents (Elt F) → (⟨S4096x11008, .f32⟩ : BufTy).Contents (Elt F)),
    StableHlo.binary main_v11 main_v32 main_v33 (subf : (⟨S4096x11008, .f32⟩ : BufTy).Contents (Elt F) → (⟨S4096x11008, .f32⟩ : BufTy).Contents (Elt F) → (⟨S4096x11008, .f32⟩ : BufTy).Contents (Elt F)),
    StableHlo.nullary main_c_6 (constantI S_ 32 0#32),
    StableHlo.unary main_c_6 main_v34 (broadcastInDim S4096 ![] bcast_S_S4096 : (⟨S_, .i32⟩ : BufTy).Contents (Elt F) → (⟨S4096, .i32⟩ : BufTy).Contents (Elt F)),
    StableHlo.binary main_v25 main_v34 main_v35 (cmpi .slt : (⟨S4096, .i32⟩ : BufTy).Contents (Elt F) → (⟨S4096, .i32⟩ : BufTy).Contents (Elt F) → (⟨S4096, .i1⟩ : BufTy).Contents (Elt F)),
    StableHlo.nullary main_c_7 (constantI S_ 32 32#32),
    StableHlo.unary main_c_7 main_v36 (broadcastInDim S4096 ![] bcast_S_S4096 : (⟨S_, .i32⟩ : BufTy).Contents (Elt F) → (⟨S4096, .i32⟩ : BufTy).Contents (Elt F)),
    StableHlo.binary main_v25 main_v36 main_v37 (addi : (⟨S4096, .i32⟩ : BufTy).Contents (Elt F) → (⟨S4096, .i32⟩ : BufTy).Contents (Elt F) → (⟨S4096, .i32⟩ : BufTy).Contents (Elt F)),
    StableHlo.ternary main_v35 main_v37 main_v25 main_v38 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v38 main_v39 (broadcastInDim S4096x1 ![0] bcast_S4096_S4096x1_0 : (⟨S4096, .i32⟩ : BufTy).Contents (Elt F) → (⟨S4096x1, .i32⟩ : BufTy).Contents (Elt F)),
    StableHlo.binary main_arg3 main_v39 main_v40 ((fun x i => Host.gather gather_S32x11008_S4096x1_S4096x11008_1_0_n_n_0_1_111008 x i) : (⟨S32x11008, .f32⟩ : BufTy).Contents (Elt F) → (⟨S4096x1, .i32⟩ : BufTy).Contents (Elt F) → (⟨S4096x11008, .f32⟩ : BufTy).Contents (Elt F)),
    StableHlo.binary main_v33 main_v40 main_v41 (mulf : (⟨S4096x11008, .f32⟩ : BufTy).Contents (Elt F) → (⟨S4096x11008, .f32⟩ : BufTy).Contents (Elt F) → (⟨S4096x11008, .f32⟩ : BufTy).Contents (Elt F)),
    StableHlo.binary main_arg0 main_v41 main_v42 ((fun l r => Host.dotGeneral dot_S4x1024x4096_S4096x11008_S4x1024x11008_2_0_01_1_n_n none l r) : (⟨S4x1024x4096, .f32⟩ : BufTy).Contents (Elt F) → (⟨S4096x11008, .f32⟩ : BufTy).Contents (Elt F) → (⟨S4x1024x11008, .f32⟩ : BufTy).Contents (Elt F)) ]

set_option maxRecDepth 2048 in
/-- @main is the two lines one after the other: the two functions unfolded at their calls, sequencing reassociated. -/
theorem main_eq (c : Dev nD) : main (F := F) c = seq (ops1 ++ ops2) := by
  rw [seq_append]
  simp only [main, fn_floor_divide.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops1_sub : (ops1 : List (HloOp τ sig (Elt F))).Forall fun op => op.bufs ⊆ tcRefs τ sig :=
  ⟨nullary_bufs_sub .., nullary_bufs_sub .., unary_bufs_sub .., binary_bufs_sub .., unary_bufs_sub .., unary_bufs_sub ..,
    unary_bufs_sub .., unary_bufs_sub .., binary_bufs_sub .., nullary_bufs_sub .., unary_bufs_sub .., binary_bufs_sub ..,
    reshape_bufs_sub .., unary_bufs_sub .., nullary_bufs_sub .., nullary_bufs_sub .., unary_bufs_sub .., binary_bufs_sub ..,
    unary_bufs_sub .., unary_bufs_sub .., unary_bufs_sub .., unary_bufs_sub .., binary_bufs_sub .., nullary_bufs_sub ..,
    unary_bufs_sub .., binary_bufs_sub .., reshape_bufs_sub .., unary_bufs_sub .., nullary_bufs_sub .., nullary_bufs_sub ..⟩

theorem ops2_sub : (ops2 : List (HloOp τ sig (Elt F))).Forall fun op => op.bufs ⊆ tcRefs τ sig :=
  ⟨unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub ..⟩

theorem ops1_fresh : (ops1 : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl⟩

theorem ops2_fresh : (ops2 : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl⟩

theorem ops_sub : (ops1 ++ ops2 : List (HloOp τ sig (Elt F))).Forall fun op => op.bufs ⊆ tcRefs τ sig :=
  List.forall_iff_forall_mem.2 fun op h => (List.mem_append.1 h).elim
    (List.forall_iff_forall_mem.1 ops1_sub op) (List.forall_iff_forall_mem.1 ops2_sub op)

theorem ops_fresh : ∀ op ∈ (ops1 ++ ops2 : List (HloOp τ sig (Elt F))), op.fresh = ∅ :=
  fun op h => (List.mem_append.1 h).elim
    (List.forall_iff_forall_mem.1 ops1_fresh op) (List.forall_iff_forall_mem.1 ops2_fresh op)

/-- Every weakly fair execution terminates with each buffer at the fold of the two lines over the launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b)
        = after ops2 (after ops1 (launchContents m c)) (Proc.devRef .tc b) :=
  (θ_run defs _ _).mono (fun _ h c b => (h c b).trans (congrFun (after_append ops1 ops2 _) _))
    (run_seq scopedRefs_eq scopedSems_eq defs main (fun _ => ops1 ++ ops2) main_eq (fun _ => ops_sub) m ρ
      (fun _ => ops_fresh))

/-- The fold at the result buffer is the composed term of the four arguments: each operation's result at its own
    buffer is its function's value, at any other buffer what was there; what is left is the stages' term unfolded. -/
theorem res_eq (V : Valuation τ sig (Elt F)) :
    after ops2 (after ops1 V) (Proc.devRef .tc main_v42)
      = resTerm (V (Proc.devRef .tc main_arg0)) (V (Proc.devRef .tc main_arg1)) (V (Proc.devRef .tc main_arg2)) (V (Proc.devRef .tc main_arg3)) := by
  after_results_simp
  rfl

theorem arg0_eq (V : Valuation τ sig (Elt F)) :
    after ops2 (after ops1 V) (Proc.devRef .tc main_arg0) = V (Proc.devRef .tc main_arg0) := by
  after_results_simp

theorem arg1_eq (V : Valuation τ sig (Elt F)) :
    after ops2 (after ops1 V) (Proc.devRef .tc main_arg1) = V (Proc.devRef .tc main_arg1) := by
  after_results_simp

theorem arg2_eq (V : Valuation τ sig (Elt F)) :
    after ops2 (after ops1 V) (Proc.devRef .tc main_arg2) = V (Proc.devRef .tc main_arg2) := by
  after_results_simp

theorem arg3_eq (V : Valuation τ sig (Elt F)) :
    after ops2 (after ops1 V) (Proc.devRef .tc main_arg3) = V (Proc.devRef .tc main_arg3) := by
  after_results_simp

/-- On every device, for any float values, from any memory with zero counters: every weakly fair execution of @main
    terminates with the result at the composed term of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v42)
        = resTerm (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v42).trans (res_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_after m ρ)

end Cert.QL.Ref

end
-- ==== Proof.RefRead.lean ====
/-
  What the reference computes, read at an index: the matrix product of x with the dequantized weight.

  The reference's result at (b, s, n) is a contraction over the shared axis, so it is the sum over
  kk < 4096 of x[b, s, kk] · W[kk, n], where W[kk, n] = (w_q[kk, n] − zeros[gid kk, n]) · scales[gid kk, n].
  Four facts identify W[kk, n] with the specification's entry:
    • the packed weights, shifted right by 4p and masked with 15, are value p of each word, and the
      reshape [512, 8, 11008] → [4096, 11008] reads row kk at (kk / 8, kk mod 8), since
      (kk / 8) · 8 + kk mod 8 = kk;
    • the packed zero points likewise, and the reshape [32, 1376, 8] → [32, 11008] reads column n at
      (n / 8, n mod 8);
    • the group of row kk is the floor quotient of kk by 128, which the program spells as the truncating
      quotient corrected by one when the signs of dividend and divisor differ and the remainder is not
      zero; for 0 ≤ kk < 4096 the dividend is zero or of the divisor's sign, so no correction is made and
      the truncating quotient of non-negative words is the quotient of naturals;
    • a gather of rows reads the operand's row at the start index, taken signed and clamped into [0, 31];
      kk / 128 is in that range and not negative, so neither the normalisation of negative indices nor
      the clamp changes it.
  Only + and · of extended reals occur, and each term is matched with its counterpart: no law of
  arithmetic beyond congruence is used.
-/
import proofs.«419571_j47639777247662_3_alg».proof.Proof.RefStages
import proofs.«419571_j47639777247662_3_alg».proof.Proof.Gen.ReferenceIdeal
import proofs.«419571_j47639777247662_3_alg».proof.Proof.Spec
import Idealize.ShloMosaic.Lib.ValueIdx
import Idealize.ShloMosaic.Lib.Pipeline.Value
import Idealize.ShloMosaic.PureOps.Ideal.Laws

noncomputable section

open scoped BigOperators

namespace Cert.QL.Ref

open Idealize.ShloMosaic Idealize.ShloMosaic.ValueIdx
open Cert.ReferenceIdeal Cert.ReferenceIdeal.Gen

variable {F : FTy → Type} [FloatOps F]

/-! ## The contraction: a sum over the shared axis -/

/-- The contraction's dimension numbers: axis 2 of the left operand against axis 0 of the right. -/
abbrev DD := dot_S4x1024x4096_S4096x11008_S4x1024x11008_2_0_01_1_n_n

theorem lhs_DD_0 (j : S4x1024x11008.Idx) (k : DD.contr.Idx) : (DD.lhsIdx j k 0 : ℕ) = j 0 := by
  simp [DotDims.lhsIdx, DD, dot_S4x1024x4096_S4096x11008_S4x1024x11008_2_0_01_1_n_n]; rfl
theorem lhs_DD_1 (j : S4x1024x11008.Idx) (k : DD.contr.Idx) : (DD.lhsIdx j k 1 : ℕ) = j 1 := by
  simp [DotDims.lhsIdx, DD, dot_S4x1024x4096_S4096x11008_S4x1024x11008_2_0_01_1_n_n]; rfl
theorem lhs_DD_2 (j : S4x1024x11008.Idx) (k : DD.contr.Idx) : (DD.lhsIdx j k 2 : ℕ) = k ⟨0, by decide⟩ := by
  simp [DotDims.lhsIdx, DD, dot_S4x1024x4096_S4096x11008_S4x1024x11008_2_0_01_1_n_n]; rfl
theorem rhs_DD_0 (j : S4x1024x11008.Idx) (k : DD.contr.Idx) : (DD.rhsIdx j k 0 : ℕ) = k ⟨0, by decide⟩ := by
  simp [DotDims.rhsIdx, DD, dot_S4x1024x4096_S4096x11008_S4x1024x11008_2_0_01_1_n_n]; rfl
theorem rhs_DD_1 (j : S4x1024x11008.Idx) (k : DD.contr.Idx) : (DD.rhsIdx j k 1 : ℕ) = j 2 := by
  simp [DotDims.rhsIdx, DD, dot_S4x1024x4096_S4096x11008_S4x1024x11008_2_0_01_1_n_n]; rfl

/-- The contraction of a [4, 1024, 4096] array with a [4096, 11008] array over the shared axis, read at
    (b, s, n): the sum over kk of l[b, s, kk] · r[kk, n]. -/
theorem dot_apply (l : S4x1024x4096.Idx → EReal) (r : S4096x11008.Idx → EReal) (i : S4x1024x11008.Idx) :
    Host.dotGeneral (F := Ideal) (φ₁ := .f32) (φ₂ := .f32) DD none l r i
      = ∑ kk : Fin 4096, l (ix3 (i 0) (i 1) kk) * r (ix2 kk (i 2)) := by
  simp only [Host.dotGeneral]
  rw [Ideal.dotGeneral_apply, ← Equiv.sum_comp (contrEquiv1 DD 4096 rfl rfl).symm]
  refine Finset.sum_congr rfl fun kk _ => ?_
  have hk := contrEquiv1_symm_val DD 4096 rfl rfl kk
  congr 2
  · funext a; refine Fin.ext ?_
    match a with
    | ⟨0, _⟩ => exact lhs_DD_0 _ _
    | ⟨1, _⟩ => exact lhs_DD_1 _ _
    | ⟨2, _⟩ => exact (lhs_DD_2 _ _).trans hk
  · funext a; refine Fin.ext ?_
    match a with
    | ⟨0, _⟩ => exact (rhs_DD_0 _ _).trans hk
    | ⟨1, _⟩ => exact rhs_DD_1 _ _

/-! ## A gather of rows -/

/-- The gathers' dimension numbers: whole rows of a [32, 11008] operand at [4096, 1] start indices. -/
abbrev GD := gather_S32x11008_S4096x1_S4096x11008_1_0_n_n_0_1_111008

/-- On the operand's row axis the gather reads the start index, signed and clamped into [0, 31]. -/
theorem gd_operandIdx_0 (j : S4096x11008.Idx) (idx : IVec S4096x1 32) :
    (GD.operandIdx j idx 0 : ℕ) = min (idx (ix2 (j 0) (0 : Fin 1))).toInt.toNat 31 := by
  show GD.start j idx 0 + GD.batchCoord j 0 + GD.offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ GD.startIndexMap from List.mem_singleton.mpr rfl)]
  have hsi : GD.siIdx j ⟨List.idxOf (0 : Fin 2) GD.startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the operand's column axis the gather reads the result's column. -/
theorem gd_operandIdx_1 (j : S4096x11008.Idx) (idx : IVec S4096x1 32) :
    (GD.operandIdx j idx 1 : ℕ) = (j 1).val := by
  show GD.start j idx 1 + GD.batchCoord j 1 + GD.offCoord j 1 = _
  rw [GatherDims.batchCoord_eq_zero _ _ _ List.not_mem_nil]
  unfold GatherDims.start
  rw [dif_neg (show ¬ (1 : Fin 2) ∈ GD.startIndexMap by decide)]
  unfold GatherDims.offCoord
  rw [dif_pos (show (1 : Fin 2) ∈ GD.sKept by decide)]
  simp only [Nat.zero_add]
  rfl

/-- The gather of rows read at (kk, n): the operand at row idx[kk, 0] (signed, clamped), column n. -/
theorem gather_row_apply {α : Type} (x : S32x11008.Idx → α) (idx : IVec S4096x1 32) (kk : Fin 4096) (n : Fin 11008) :
    Host.gather GD x idx (ix2 kk n)
      = x (ix2 (⟨min (idx (ix2 kk (0 : Fin 1))).toInt.toNat 31, by omega⟩ : Fin 32) n) := by
  unfold Host.gather
  congr 1
  funext a
  refine Fin.ext ?_
  match a with
  | ⟨0, _⟩ => exact gd_operandIdx_0 _ _
  | ⟨1, _⟩ => exact gd_operandIdx_1 _ _

/-! ## The group of a row -/

/-- The sign of a word: 0, −1 or 1. -/
def sgn (a : BitVec 32) : BitVec 32 := if a = 0 then 0 else if a.msb then -1 else 1

/-- The floor quotient of a word by 128 as the program spells it: the truncating quotient, less one when
    the signs differ and the remainder is not zero. -/
def fdiv (a : BitVec 32) : BitVec 32 :=
  Scalar.select
    (IntOp.andi
      (IntOp.cmpi .ne (sgn a) (sgn 128#32))
      (IntOp.cmpi .ne (IntOp.remsi .host a 128#32) 0#32))
    (IntOp.subi (IntOp.divsi .host a 128#32) 1#32)
    (IntOp.divsi .host a 128#32)

theorem gid_apply (kk : Fin 4096) : gid (F := F) (ix1 kk) = fdiv (BitVec.ofNat 32 kk.val) := rfl

/-- For a non-negative word it is the unsigned quotient: zero has remainder zero, and a positive word has
    the divisor's sign, so the correction is never made. -/
theorem fdiv_eq (a : BitVec 32) (h : a.msb = false) : fdiv a = a / 128#32 := by
  have hq : IntOp.divsi .host a 128#32 = a / 128#32 := by
    unfold IntOp.divsi
    rw [if_neg (by unfold IntOp.SDivCorner; intro h; rcases h with h | ⟨_, h⟩ <;> exact absurd h (by decide))]
    rw [BitVec.sdiv_eq, h]
    rfl
  unfold fdiv
  rw [hq]
  by_cases h0 : a = 0
  · subst h0; decide
  · have hs : sgn a = 1#32 := by unfold sgn; rw [if_neg h0, h]; rfl
    rw [hs]
    have : IntOp.cmpi .ne (1#32) (sgn 128#32) = 0#1 := by decide
    rw [this]
    show Scalar.select (0#1 &&& _) _ _ = _
    rw [BitVec.zero_and]
    exact select_zero _ _

/-- A number below 4096 is a non-negative word. -/
theorem ofNat_msb (k : ℕ) (hk : k < 4096) : (BitVec.ofNat 32 k).msb = false := by
  rw [BitVec.msb_eq_false_iff_two_mul_lt, BitVec.toNat_ofNat]; omega

/-- The group of row kk is kk / 128. -/
theorem gid_eq (kk : Fin 4096) : gid (F := F) (ix1 kk) = BitVec.ofNat 32 (kk.val / 128) := by
  rw [gid_apply, fdiv_eq _ (ofNat_msb kk.val kk.isLt), BitVec.udiv_def, BitVec.toNat_ofNat]
  have := kk.isLt
  congr 1
  show kk.val % 2 ^ 32 / 128 = kk.val / 128
  rw [Nat.mod_eq_of_lt (by omega)]

/-- The normalisation of negative indices keeps it: it is not negative. -/
theorem idx_eq (kk : Fin 4096) : idx (F := F) (ix1 kk) = BitVec.ofNat 32 (kk.val / 128) := by
  show Scalar.select (IntOp.cmpi .slt (gid (F := F) (ix1 kk)) 0#32)
    (IntOp.addi (gid (F := F) (ix1 kk)) 32#32) (gid (F := F) (ix1 kk)) = _
  rw [gid_eq]
  have hlt : kk.val / 128 < 4096 := by have := kk.isLt; omega
  have hc : IntOp.cmpi .slt (BitVec.ofNat 32 (kk.val / 128)) 0#32 = 0#1 := by
    show BitVec.ofBool ((BitVec.ofNat 32 (kk.val / 128)).slt 0#32) = 0#1
    rw [BitVec.slt_zero_eq_msb, ofNat_msb _ hlt]; rfl
  rw [hc]
  exact select_zero _ _

/-- The start index of row kk, read signed and clamped into [0, 31], is kk / 128. -/
theorem start_eq (kk : Fin 4096) :
    min (idxCol (F := F) (ix2 kk (0 : Fin 1))).toInt.toNat 31 = kk.val / 128 := by
  have h : idxCol (F := F) (ix2 kk (0 : Fin 1)) = BitVec.ofNat 32 (kk.val / 128) := idx_eq kk
  have hlt : kk.val / 128 < 32 := by have := kk.isLt; omega
  rw [h, BitVec.toInt_eq_toNat_of_msb (ofNat_msb _ (by omega)), BitVec.toNat_ofNat, Nat.mod_eq_of_lt (by omega)]
  show min (kk.val / 128) 31 = _
  omega

/-! ## Unpacking -/

/-- The p-th shift amount is 4p. -/
theorem shifts_apply (p : Fin 8) : shifts (F := F) (ix1 p) = IntOp.muli (BitVec.ofNat 32 p.val) 4#32 := rfl

/-- Every shift amount is below the word width. -/
theorem shift_lt : ∀ p : Fin 8, (IntOp.muli (BitVec.ofNat 32 p.val) 4#32).toNat < 32 := by decide

/-- An arithmetic shift by 4p (p < 8) followed by the mask is value p of the word. -/
theorem shr_and_eq_nib (q : BitVec 32) (p : Fin 8) :
    IntOp.andi (IntOp.shrsi .host q (IntOp.muli (BitVec.ofNat 32 p.val) 4#32)) 15#32 = Cert.QL.nib q p.val := by
  unfold IntOp.shrsi
  rw [if_pos (shift_lt p)]
  rfl

/-- The unpacked weights at (q, p, n): value p of word (q, n). -/
theorem wqI3_apply (qw : T F S512x11008 .i32) (q : Fin 512) (p : Fin 8) (n : Fin 11008) :
    wqI3 qw (ix3 q p n) = Cert.QL.nib (qw (ix2 q n)) p.val := by
  refine Eq.trans ?_ (shr_and_eq_nib (qw (ix2 q n)) p)
  show IntOp.andi (IntOp.shrsi .host _ _) _ = _
  congr 2
  refine (broadcastInDim_apply _ _ _ _ (ix3 q (0 : Fin 1) n) fun a => ?_).trans
    (broadcastInDim_apply _ _ _ _ (ix2 q n) fun a => ?_)
  · match a with
    | ⟨0, _⟩ => rfl
    | ⟨1, _⟩ => rfl
    | ⟨2, _⟩ => rfl
  · match a with
    | ⟨0, _⟩ => rfl
    | ⟨1, _⟩ => rfl

/-- The unpacked zero points at (g, c, p): value p of word (g, c). -/
theorem zfI3_apply (qz : T F S32x1376 .i32) (g : Fin 32) (c : Fin 1376) (p : Fin 8) :
    zfI3 qz (ix3 g c p) = Cert.QL.nib (qz (ix2 g c)) p.val := by
  refine Eq.trans ?_ (shr_and_eq_nib (qz (ix2 g c)) p)
  show IntOp.andi (IntOp.shrsi .host _ _) _ = _
  congr 2
  refine (broadcastInDim_apply _ _ _ _ (ix3 g c (0 : Fin 1)) fun a => ?_).trans
    (broadcastInDim_apply _ _ _ _ (ix2 g c) fun a => ?_)
  · match a with
    | ⟨0, _⟩ => rfl
    | ⟨1, _⟩ => rfl
    | ⟨2, _⟩ => rfl
  · match a with
    | ⟨0, _⟩ => rfl
    | ⟨1, _⟩ => rfl

/-- The reshaped weights at (kk, n): row kk is (kk / 8, kk mod 8). -/
theorem wq_apply (qw : T Ideal S512x11008 .i32) (kk : Fin 4096) (n : Fin 11008) :
    wq (F := Ideal) qw (ix2 kk n)
      = Cert.QL.toR (Cert.QL.nib (qw (ix2 ⟨kk.val / 8, Cert.QL.lt512 kk⟩ n)) (kk.val % 8)) := by
  show FloatOps.sitofp (F := Ideal) .f32
    (shapeCast S4096x11008 (wqI3 qw) shapeCasts_S512x8x11008_S4096x11008 (ix2 kk n)) = _
  rw [shapeCast_apply (wqI3 qw) _ (ix2 kk n)
    (ix3 ⟨kk.val / 8, Cert.QL.lt512 kk⟩ ⟨kk.val % 8, Nat.mod_lt _ (by decide)⟩ n) (by
      rw [Shape.rowMajor_val_three, Shape.rowMajor_val_two]
      show (kk.val / 8 * 8 + kk.val % 8) * 11008 + n.val = kk.val * 11008 + n.val
      omega)]
  rw [wqI3_apply]

/-- The reshaped zero points at (g, n): column n is (n / 8, n mod 8). -/
theorem zf_apply (qz : T Ideal S32x1376 .i32) (g : Fin 32) (n : Fin 11008) :
    zf (F := Ideal) qz (ix2 g n)
      = Cert.QL.toR (Cert.QL.nib (qz (ix2 g ⟨n.val / 8, Cert.QL.lt1376 n⟩)) (n.val % 8)) := by
  show FloatOps.sitofp (F := Ideal) .f32
    (shapeCast S32x11008 (zfI3 qz) shapeCasts_S32x1376x8_S32x11008 (ix2 g n)) = _
  rw [shapeCast_apply (zfI3 qz) _ (ix2 g n)
    (ix3 g ⟨n.val / 8, Cert.QL.lt1376 n⟩ ⟨n.val % 8, Nat.mod_lt _ (by decide)⟩) (by
      rw [Shape.rowMajor_val_three, Shape.rowMajor_val_two]
      show (g.val * 1376 + n.val / 8) * 8 + n.val % 8 = g.val * 11008 + n.val
      omega)]
  rw [zfI3_apply]

/-! ## The dequantized weight and the result -/

/-- The reference's weight at (kk, n) is the specification's entry. -/
theorem w_apply (qw : T Ideal S512x11008 .i32) (qz : T Ideal S32x1376 .i32) (sc : T Ideal S32x11008 .f32)
    (kk : Fin 4096) (n : Fin 11008) :
    w (F := Ideal) qw qz sc (ix2 kk n) = Cert.QL.wEntry qw qz sc kk n := by
  have hrow : (⟨min (idxCol (F := Ideal) (ix2 kk (0 : Fin 1))).toInt.toNat 31, by omega⟩ : Fin 32)
      = ⟨kk.val / 128, Cert.QL.lt32 kk⟩ := Fin.ext (start_eq kk)
  have hz : zg (F := Ideal) qz (ix2 kk n) = zf (F := Ideal) qz (ix2 ⟨kk.val / 128, Cert.QL.lt32 kk⟩ n) := by
    unfold zg; rw [gather_row_apply, hrow]
  have hs : sg (F := Ideal) sc (ix2 kk n) = sc (ix2 ⟨kk.val / 128, Cert.QL.lt32 kk⟩ n) := by
    unfold sg; rw [gather_row_apply, hrow]
  show (wq (F := Ideal) qw (ix2 kk n) - zg (F := Ideal) qz (ix2 kk n)) * sg (F := Ideal) sc (ix2 kk n) = _
  rw [wq_apply, hz, zf_apply, hs]
  rfl

/-- THE REFERENCE'S RESULT: x times the dequantized weight, as the specification states it. -/
theorem resTerm_eq_G (x : Cert.QL.SX.Idx → EReal) (qw : Cert.QL.SQW.Idx → BitVec 32)
    (qz : Cert.QL.SQZ.Idx → BitVec 32) (sc : Cert.QL.SSC.Idx → EReal) :
    resTerm (F := Ideal) x qw qz sc = Cert.QL.G x qw qz sc := by
  funext i
  refine (dot_apply x (w (F := Ideal) qw qz sc) i).trans ?_
  exact Finset.sum_congr rfl fun kk _ =>
    congrArg (fun t : EReal => x (ix3 (i 0) (i 1) kk) * t) (w_apply qw qz sc kk (i 2))

end Cert.QL.Ref

end
-- ==== Proof.lean ====
/-
  The certificate's claim: a weight-only int4 quantized linear layer as a Pallas kernel against its jnp reference.

  Both programs compute out[b, s, n] = Σ_kk x[b, s, kk] · W[kk, n] with the dequantized weight
  W[kk, n] = (q[kk, n] − zero[kk / 128, n]) · scale[kk / 128, n], q and zero unpacked from eight 4-bit values a word.
  The kernel pads the columns to 11264, runs an (11, 8, 16) grid, dequantizes each 256-row weight tile once per column
  block into a resident slab, accumulates the 16 row tiles' products in a scratch accumulator and stores the block at the
  last step; the host cuts the padding off. The reference unpacks the whole weight, gathers the zero points and scales by
  row group, and takes one matrix product. Over the extended reals the two results are the same sum, regrouped
  (addition is associative and commutative there), so the inputs' finiteness is not used.

  The three frames are the runs of the three programs with the result dropped; the idealization rewrote nothing.
-/
import proofs.«419571_j47639777247662_3_alg».proof.Defs
import proofs.«419571_j47639777247662_3_alg».proof.Proof.Gen.Kernel
import proofs.«419571_j47639777247662_3_alg».proof.Proof.Gen.KernelIdeal
import proofs.«419571_j47639777247662_3_alg».proof.Proof.Gen.ReferenceIdeal
import proofs.«419571_j47639777247662_3_alg».proof.Proof.Gen.Pre_finite_inputs
import proofs.«419571_j47639777247662_3_alg».proof.Proof.KRunBits
import proofs.«419571_j47639777247662_3_alg».proof.Proof.KRun
import proofs.«419571_j47639777247662_3_alg».proof.Proof.KFinal
import proofs.«419571_j47639777247662_3_alg».proof.Proof.RefRun
import proofs.«419571_j47639777247662_3_alg».proof.Proof.RefRead
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Proof.Kernel.frame m ρ

theorem frame_ki : @Cert.frame_KernelIdeal Cert.KernelIdeal.Gen.facts Cert.Pre_finite_inputs.Gen.facts :=
  fun m ρ _ => Cert.Proof.KernelIdeal.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.QL.Ref.run (F := Ideal) m ρ)

/-- Both programs end at the specification `G` of their (agreeing) argument arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.QL.Final.kernel_run m ρ, ?_⟩
  refine (θ_run Cert.ReferenceIdeal.defs _ _).mono (fun _ h c => ⟨(h c).1.trans ?_, (h c).2⟩) (Cert.QL.Ref.run (F := Ideal) m' ρ')
  rw [(hagree c).1, (hagree c).2.1, (hagree c).2.2.1, (hagree c).2.2.2]
  exact Cert.QL.Ref.resTerm_eq_G _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
